-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 100#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x256 : Shape := ⟨2, ![8192, 256]⟩
abbrev S8192 : Shape := ⟨1, ![8192]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S1x100 : Shape := ⟨2, ![1, 100]⟩
abbrev S8192x100 : Shape := ⟨2, ![8192, 100]⟩
abbrev S_ : Shape := ⟨0, ![]⟩
abbrev S8192x128 : Shape := ⟨2, ![8192, 128]⟩
abbrev S512x256 : Shape := ⟨2, ![512, 256]⟩
abbrev S1024x128 : Shape := ⟨2, ![1024, 128]⟩
abbrev S512x128 : Shape := ⟨2, ![512, 128]⟩
abbrev S256x512 : Shape := ⟨2, ![256, 512]⟩
abbrev S1024x512 : Shape := ⟨2, ![1024, 512]⟩
abbrev S128x512 : Shape := ⟨2, ![128, 512]⟩
abbrev S1x512 : Shape := ⟨2, ![1, 512]⟩

abbrev nBuf : Space → Nat
  | .hbm => 36
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .i32⟩
  | .hbm, ⟨4, _⟩ => ⟨S1x100, .i32⟩
  | .hbm, ⟨5, _⟩ => ⟨S8192x100, .i32⟩
  | .hbm, ⟨6, _⟩ => ⟨S8192x100, .i32⟩
  | .hbm, ⟨7, _⟩ => ⟨S8192x100, .i1⟩
  | .hbm, ⟨8, _⟩ => ⟨S8192x100, .bf16⟩
  | .hbm, ⟨9, _⟩ => ⟨S_, .i32⟩
  | .hbm, ⟨10, _⟩ => ⟨S_, .bf16⟩
  | .hbm, ⟨11, _⟩ => ⟨S8192x128, .bf16⟩
  | .hbm, ⟨12, _⟩ => ⟨S8192x1, .f32⟩
  | .hbm, ⟨13, _⟩ => ⟨S8192x1, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S512x256, .bf16⟩
  | .local _ .vmem, ⟨7, _⟩ => ⟨S512x256, .bf16⟩
  | .local _ .vmem, ⟨8, _⟩ => ⟨S1024x128, .bf16⟩
  | .local _ .vmem, ⟨9, _⟩ => ⟨S1024x128, .bf16⟩
  | .local _ .vmem, ⟨10, _⟩ => ⟨S512x128, .bf16⟩
  | .local _ .vmem, ⟨11, _⟩ => ⟨S512x128, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_call2_v0 : Ref sig .tc := ⟨.hbm, 22, rfl⟩
abbrev main_call2_v1 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_cst_5 : Ref sig .tc := ⟨.hbm, 33, rfl⟩
abbrev main_call3_v0 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v55 : BitVec 1 := Scalar.cmpi .eq arg1 c15_i32
  let v56 : BitVec 32 := Scalar.extui v55
  let c0_i32_24 : BitVec 32 := 0#32
  let v57 : BitVec 1 := Scalar.cmpi .ne v56 c0_i32_24
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  bcast_S8192_S8192x1_0 : S8192.BroadcastsInDim S8192x1 (![0] : Fin 1 → Fin S8192x1.rank)
  bcast_S8192x1_S8192x100_0_1 : S8192x1.BroadcastsInDim S8192x100 (![0, 1] : Fin 2 → Fin S8192x100.rank)
  bcast_S1x100_S8192x100_0_1 : S1x100.BroadcastsInDim S8192x100 (![0, 1] : Fin 2 → Fin S8192x100.rank)
  pads_S8192x100_S8192x128_000_0280 : S8192x100.Pads (![0, 0] : Fin 2 → Nat) ![0, 28] ![0, 0] S8192x128
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S1024x1_d0_w32 : S1024x1.Iotas .tc 32 [0]
  iota_S1x512_d1_w32 : S1x512.Iotas .tc 32 [1]
  broadcasts_S1024x1_S1024x512 : S1024x1.Broadcasts S1024x512
  broadcasts_S1x512_S1024x512 : S1x512.Broadcasts S1024x512
  natLt_1_32 : 1 < 32
  reduces_S1024x512_S1024 : S1024x512.Reduces [1] S1024
  shapeCasts_S8192x1_S8192 : S8192x1.ShapeCasts S8192
  reducesTo_S8192_S_d0 : S8192.ReducesTo [0] S_
  bcast_S_S8192 : S_.BroadcastsInDim S8192 (![] : Fin 0 → Fin S8192.rank)
  dot_S1024x256_S256x512_S1024x512_1_0_0_1_n_n_wf : DotDims.WF S1024x256 S256x512 S1024x512 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .bf16 = 32 ∨ (Rect.block (s := S8192x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .bf16 = 32 ∨ (Rect.block (s := S8192x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .bf16 = 32 ∨ (Rect.block (s := S8192x128) S512x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S8192x1, .i32⟩
  | .hbm, ⟨26, _⟩ => ⟨S1x8192, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .i1⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .i32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | .hbm, ⟨67, _⟩ => ⟨S_, .i32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_cst_8 : Ref sig .tc := ⟨.hbm, 56, rfl⟩
abbrev main_call2_v0 : Ref sig .tc := ⟨.hbm, 57, rfl⟩
abbrev main_call2_v1 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_c_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_cst_12 : Ref sig .tc := ⟨.hbm, 69, rfl⟩
abbrev main_call3_v0 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Norm.lean ====
/-
  Region 0 (row normalisation, grid of 8 row tiles) as a pipeline at ANY entry contents `V`:
  a block of 1024 rows is loaded whole, each row divided by max(‖row‖₂, ε), and stored whole.
  The staging buffer of the output after the body is that one store read back; the proof data
  name it, and the body obligation is the kernel's triple at every grid point.
-/
import proofs.«421372_j86088324481780_1_alg».proof.Proof.Gen.Kernel.Launch
import proofs.«421372_j86088324481780_1_alg».proof.Proof.Gen.Kernel.Skeleton
import proofs.«421372_j86088324481780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024×256 tile as a rectangle. -/
abbrev rTile : Rect S1024x256 := Rect.unit (s := S1024x256) ![0, 0] S1024x256.size inb_S1024x256_S1024x256_0_0

/-- What the body leaves in the output's staging buffer: the normalised tile, from the input tile. -/
def normTile (x0 : Vec F S1024x256 .f32) : Vec F S1024x256 .bf16 :=
  View.canon [⟨rTile, k0_pay1 (View.ld x0 rTile)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => normTile (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = normTile (iblk0 V c 0 t) := by dsimp only [dat0]

/-- The input's staging buffer holds its block when the body is entered, at every point: the window is
    fetched whole at each point (never cut, never idle), and the body leaves the block in place. -/
theorem stage_in_eq {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole tile, so every index of the tile lies in it. -/
theorem tile_cover (p : Vec F S1024x256 .bf16) (y : S1024x256.Idx) :
    ∃ pc ∈ ([⟨rTile, p⟩] : List (View.Piece (Elt F) S1024x256 .bf16)), y ∈ pc.1.set :=
  View.cover_of_tiled [⟨rTile, p⟩] S1024x256.size (by rfl) y

set_option maxHeartbeats 1000000 in
/-- The kernel on whole staging memrefs: the input's at contents `x0`, the output's at anything (it is read once,
    the value unused, then overwritten whole). It ends with the input's as it was and the output's at the
    normalised tile of `x0`. -/
theorem kernel_triple (c : Dev nD) (E : Set ℕ) (i : grid0.Coords)
    (arg1 : Memref sig .tc .vmem S1024x256 .f32) (harg1 : arg1.IsWhole)
    (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normTile x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (tile_cover _)

/-- The input's staging buffer at the body's entry, for this proof data. -/
theorem before0_0 (c : Dev nD) (t : Fin cfg0.N) (d) : (dat0 V c).before 0 t d = iblk0 V c 0 t :=
  stage_in_eq V (dat0 V c) (A_eq0 V c 0) (after0_0 V c) t d

/-- What the body is entered with at point `t`: the invariant, the core's debts, and the two staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the kernel's triple applies; the invariant and
    the debts pass through untouched. -/
theorem body_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (kernel_triple c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for region 0, at every point. -/
theorem body_obligation0 (c : Dev nD) : BodyObligation (dat0 (F := F) V c) (defs₀ (F := F)) Variants.none () Set.univ := fun t => by
  rw [bigSep_W0, bigSep_W0]
  exact body_at V c t

end Cert.Kernel.Fr

end
-- ==== Proof.K.Sup.lean ====
/-
  Region 1's kernel body (one 1024×512 tile of the pairwise matrix per grid point (i, j)) as three triples,
  one per control case: j = 0 (the two row accumulators are reset, then this tile's row sums are added),
  0 < j < 15 (added), j = 15 (added, then the log-ratio and the validity flag of each row are stored to
  the two outputs). The accumulators' new contents are pure functions of the four input blocks and of
  what the accumulators held: `numStep`, `denStep`.
-/
import proofs.«421372_j86088324481780_1_alg».proof.Proof.Gen.Kernel.Launch
import proofs.«421372_j86088324481780_1_alg».proof.Proof.Gen.Kernel.Skeleton
import proofs.«421372_j86088324481780_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The condition of the first `scf.if` (j = 0), from the grid coordinates. -/
abbrev condFirst (i : grid1.Coords) : Prop := (Scalar.cmpi .ne (Scalar.extui (Scalar.cmpi .eq (BitVec.ofNat 32 (i 1).val) 0#32)) 0#32) = 1#1
/-- The condition of the last `scf.if` (j = 15). -/
abbrev condLast (i : grid1.Coords) : Prop := k1_cond2 i = 1#1

theorem hcondFirst : ∀ t : Fin cfg1.N, condFirst (grid1.coords t) ↔ t.val % 16 = 0 :=
  (by decide +kernel : ∀ t : Fin grid1.N, condFirst (grid1.coords t) ↔ t.val % 16 = 0)
theorem hcondLast : ∀ t : Fin cfg1.N, condLast (grid1.coords t) ↔ t.val % 16 = 15 :=
  (by decide +kernel : ∀ t : Fin grid1.N, condLast (grid1.coords t) ↔ t.val % 16 = 15)

/-! ## What a grid point does to the two row accumulators, and what the last column tile stores -/

/-- The accumulators' reset value. -/
def zeroAcc : Vec F S1024x1 .f32 := k1_pay6 (F := F)
/-- The numerator accumulator after the point at `i`: what it held plus this tile's masked row sums. -/
def numStep (i : grid1.Coords) (x0 : Vec F S1024x256 .bf16) (x1 : Vec F S512x256 .bf16) (x2 : Vec F S1024x128 .bf16) (x3 : Vec F S512x128 .bf16) (s : Vec F S1024x1 .f32) : Vec F S1024x1 .f32 :=
  k1_pay1 (k1_pay8 x0 x1) (k1_pay9 (F := F) i) (k1_pay10 x2 x3) s
/-- The denominator accumulator after the point at `i`. -/
def denStep (i : grid1.Coords) (x0 : Vec F S1024x256 .bf16) (x1 : Vec F S512x256 .bf16) (s : Vec F S1024x1 .f32) : Vec F S1024x1 .f32 :=
  k1_pay2 (k1_pay8 x0 x1) (k1_pay9 (F := F) i) s
/-- The first output's block, from the final accumulators. -/
def logpTile (n d : Vec F S1024x1 .f32) : Vec F S1024x1 .f32 := k1_pay4 n n d
/-- The second output's block. -/
def validTile (n : Vec F S1024x1 .f32) : Vec F S1024x1 .f32 := k1_pay5 n

/-! ## Reading a buffer back after whole-buffer stores -/

/-- The offsets of every access of this body, as the constant zero function. -/
private theorem sup_hz : (![0, 0] : Fin 2 → Nat) = fun _ => 0 := by
  funext a; fin_cases a <;> rfl

/-- Whatever was stored before, a 1024×1 buffer whose LAST store filled it whole reads back as that store's payload. -/
private theorem sup_read_writes_whole {sig' : RefSig} {κ : Kind} {sp : Space}
    (v : View sig' κ sp S1024x1 .f32) (f : v.ty.Contents (Elt F)) (inb : ∀ a, (![0, 0] : Fin 2 → Nat) a + S1024x1.size a ≤ S1024x1.size a)
    (w : S1024x1.Idx → Elt F .f32) (L : List (View.Piece (Elt F) S1024x1 .f32)) :
    v.read (Elt F) (v.writes (Elt F) f ((⟨Rect.unit ![0, 0] S1024x1.size inb, w⟩ : View.Piece (Elt F) S1024x1 .f32) :: L)) = w := by
  rw [View.read_writes_eq_canon _ _ _ (fun y => ⟨_, List.mem_cons_self, View.mem_set_unit_zero sup_hz inb y⟩),
    View.canon_cons_unit_zero sup_hz]

/-- The two accumulators are reset to the same block: the zero block. -/
private theorem sup_reset_eq : k1_pay7 (F := F) = k1_pay6 (F := F) := rfl

/-! ## The three triples -/

set_option maxHeartbeats 4000000 in
/-- j = 0: both accumulators are overwritten; the outputs' buffers are not touched (they are left out of the footprint). -/
theorem sup_first (c : Dev nD) (E : Set ℕ) (i : grid1.Coords) (hF : condFirst i) (hL : ¬ condLast i) (arg2 : Memref sig .tc .vmem S1024x256 .bf16) (harg2 : arg2.IsWhole) (arg3 : Memref sig .tc .vmem S512x256 .bf16) (harg3 : arg3.IsWhole) (arg4 : Memref sig .tc .vmem S1024x128 .bf16) (harg4 : arg4.IsWhole) (arg5 : Memref sig .tc .vmem S512x128 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (x0 : Vec F S1024x256 .bf16) (x1 : Vec F S512x256 .bf16) (x2 : Vec F S1024x128 .bf16) (x3 : Vec F S512x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (numStep i x0 x1 x2 x3 zeroAcc) ∗ owns (c : Thread nD τ) arg9 fullShare (denStep i x0 x1 zeroAcc)) -∗ K ⟨⟩))
      ⊢ wp frame (wpE (defs₀ (F := F)) Variants.none c none) E (cc1__supcon_kernel i arg2 harg2 arg3 harg3 arg4 harg4 arg5 harg5 arg6 harg6 arg7 harg7 arg8 harg8 arg9 harg9) K := by
  simp only [cc1__supcon_kernel_eq_skeleton]; unfold cc1__supcon_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, Hk⟩
  subst hf2 hf3 hf4 hf5
  sl_exec (disch := first | exact hF | exact hL)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [sup_read_writes_whole]
    unfold numStep zeroAcc
    dsimp only
    sl_unfold_words
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz, View.readCov_unit_zero (S := S1024x1) _ sup_hz]
  iexists _; isplitr
  swap; · iexact H9
  ipureintro
  rw [sup_read_writes_whole]
  unfold denStep zeroAcc
  dsimp only
  sl_unfold_words
  simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz, View.readCov_unit_zero (S := S1024x1) _ sup_hz, sup_reset_eq]

set_option maxHeartbeats 4000000 in
/-- 0 < j < 15: both accumulators are read and added to. -/
theorem sup_mid (c : Dev nD) (E : Set ℕ) (i : grid1.Coords) (hF : ¬ condFirst i) (hL : ¬ condLast i) (arg2 : Memref sig .tc .vmem S1024x256 .bf16) (harg2 : arg2.IsWhole) (arg3 : Memref sig .tc .vmem S512x256 .bf16) (harg3 : arg3.IsWhole) (arg4 : Memref sig .tc .vmem S1024x128 .bf16) (harg4 : arg4.IsWhole) (arg5 : Memref sig .tc .vmem S512x128 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (x0 : Vec F S1024x256 .bf16) (x1 : Vec F S512x256 .bf16) (x2 : Vec F S1024x128 .bf16) (x3 : Vec F S512x128 .bf16) (s8 s9 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (numStep i x0 x1 x2 x3 s8) ∗ owns (c : Thread nD τ) arg9 fullShare (denStep i x0 x1 s9)) -∗ K ⟨⟩))
      ⊢ wp frame (wpE (defs₀ (F := F)) Variants.none c none) E (cc1__supcon_kernel i arg2 harg2 arg3 harg3 arg4 harg4 arg5 harg5 arg6 harg6 arg7 harg7 arg8 harg8 arg9 harg9) K := by
  simp only [cc1__supcon_kernel_eq_skeleton]; unfold cc1__supcon_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f8, %hf8, H8⟩, ⟨%f9, %hf9, H9⟩, Hk⟩
  subst hf2 hf3 hf4 hf5 hf8 hf9
  sl_exec (disch := first | exact hF | exact hL)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [sup_read_writes_whole]
    unfold numStep
    dsimp only
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz]
  iexists _; isplitr
  swap; · iexact H9
  ipureintro
  rw [sup_read_writes_whole]
  unfold denStep
  dsimp only
  simp only [View.readAt_eq_ld, View.ld_unit_zero (S := S1024x256) sup_hz, View.ld_unit_zero (S := S512x256) sup_hz,
    View.ld_unit_zero (S := S1024x1) sup_hz]

set_option maxHeartbeats 4000000 in
/-- j = 15: the accumulators are added to, and both outputs are stored whole from them. -/
theorem sup_last (c : Dev nD) (E : Set ℕ) (i : grid1.Coords) (hF : ¬ condFirst i) (hL : condLast i) (arg2 : Memref sig .tc .vmem S1024x256 .bf16) (harg2 : arg2.IsWhole) (arg3 : Memref sig .tc .vmem S512x256 .bf16) (harg3 : arg3.IsWhole) (arg4 : Memref sig .tc .vmem S1024x128 .bf16) (harg4 : arg4.IsWhole) (arg5 : Memref sig .tc .vmem S512x128 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (x0 : Vec F S1024x256 .bf16) (x1 : Vec F S512x256 .bf16) (x2 : Vec F S1024x128 .bf16) (x3 : Vec F S512x128 .bf16) (s8 s9 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (logpTile (numStep i x0 x1 x2 x3 s8) (denStep i x0 x1 s9))
            ∗ owns (c : Thread nD τ) arg7 fullShare (validTile (numStep i x0 x1 x2 x3 s8))
            ∗ owns (c : Thread nD τ) arg8 fullShare (numStep i x0 x1 x2 x3 s8) ∗ owns (c : Thread nD τ) arg9 fullShare (denStep i x0 x1 s9)) -∗ K ⟨⟩))
      ⊢ wp frame (wpE (defs₀ (F := F)) Variants.none c none) E (cc1__supcon_kernel i arg2 harg2 arg3 harg3 arg4 harg4 arg5 harg5 arg6 harg6 arg7 harg7 arg8 harg8 arg9 harg9) K := by
  simp only [cc1__supcon_kernel_eq_skeleton]; unfold cc1__supcon_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf2 hf3 hf4 hf5 hf8 hf9
  sl_exec (disch := first | exact hF | exact hL)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [sup_read_writes_whole]
    unfold logpTile numStep denStep
    sl_unfold_words
    dsimp only
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz, View.readCov_unit_zero (S := S1024x1) _ sup_hz]
  isplitl [H7]
  · iexists _; isplitr
    swap; · iexact H7
    ipureintro
    rw [sup_read_writes_whole]
    unfold validTile numStep
    sl_unfold_words
    dsimp only
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz, View.readCov_unit_zero (S := S1024x1) _ sup_hz]
  isplitl [H8]
  · iexists _; isplitr
    swap; · iexact H8
    ipureintro
    sl_unfold_words
    rw [sup_read_writes_whole]
    unfold numStep
    dsimp only
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz]
  iexists _; isplitr
  swap; · iexact H9
  ipureintro
  sl_unfold_words
  rw [sup_read_writes_whole]
  unfold denStep
  dsimp only
  simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz]

end Cert.Kernel.Fr

end
-- ==== Proof.K.SupDat.lean ====
/-
  Region 1 as a pipeline at ANY entry contents `V`: grid 8 × 16, row tile i, column tile j. The two row
  accumulators live in scratch and are carried from point to point: reset at j = 0, added to at every point;
  at j = 15 the two outputs' blocks are stored from them. `accAt` is the accumulators' contents after the
  body at each position of the grid's walk; the region's invariant holds the scratch at `accAt` of the
  previous position; the proof data name every window's buffer after the body.
-/
import proofs.«421372_j86088324481780_1_alg».proof.Proof.K.Sup

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators as memrefs. -/
abbrev scNum : Memref sig .tc .vmem S1024x1 .f32 := Memref.whole cc1_scratch0
abbrev scDen : Memref sig .tc .vmem S1024x1 .f32 := Memref.whole cc1_scratch1

/-- The accumulators (numerator, denominator) after the body at position `n` of the walk: at a position with
    j = 0 from the reset value, else from what the position before left. -/
def accAt (c : Dev nD) : (n : ℕ) → n < cfg1.N → Vec F S1024x1 .f32 × Vec F S1024x1 .f32
  | 0, hn => (numStep (grid1.coords ⟨0, hn⟩) (iblk1 V c 0 ⟨0, hn⟩) (iblk1 V c 1 ⟨0, hn⟩) (iblk1 V c 2 ⟨0, hn⟩) (iblk1 V c 3 ⟨0, hn⟩) zeroAcc,
              denStep (grid1.coords ⟨0, hn⟩) (iblk1 V c 0 ⟨0, hn⟩) (iblk1 V c 1 ⟨0, hn⟩) zeroAcc)
  | n + 1, hn =>
    if (n + 1) % 16 = 0 then
      (numStep (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) zeroAcc,
       denStep (grid1.coords ⟨n + 1, hn⟩) (iblk1 V c 0 ⟨n + 1, hn⟩) (iblk1 V c 1 ⟨n + 1, hn⟩) zeroAcc)
    else
      (numStep (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn)).1,
       denStep (grid1.coords ⟨n + 1, hn⟩) (iblk1 V c 0 ⟨n + 1, hn⟩) (iblk1 V c 1 ⟨n + 1, hn⟩) (accAt c n (Nat.lt_of_succ_lt hn)).2)

theorem accAt_reset (c : Dev nD) (t : Fin cfg1.N) (h : t.val % 16 = 0) :
    accAt V c t.val t.isLt = (numStep (grid1.coords t) (iblk1 V c 0 t) (iblk1 V c 1 t) (iblk1 V c 2 t) (iblk1 V c 3 t) zeroAcc,
      denStep (grid1.coords t) (iblk1 V c 0 t) (iblk1 V c 1 t) zeroAcc) := by
  obtain ⟨n, hn⟩ := t
  cases n with
  | zero => rfl
  | succ n => exact (if_pos h).trans rfl

theorem accAt_step (c : Dev nD) (t : Fin cfg1.N) (h : t.val % 16 ≠ 0) :
    accAt V c t.val t.isLt = (numStep (grid1.coords t) (iblk1 V c 0 t) (iblk1 V c 1 t) (iblk1 V c 2 t) (iblk1 V c 3 t) (accAt V c (t.val - 1) (Nat.lt_of_le_of_lt (Nat.sub_le _ _) t.isLt)).1,
      denStep (grid1.coords t) (iblk1 V c 0 t) (iblk1 V c 1 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The scoped buffers of the core that are neither a staging buffer of this pipeline nor an accumulator:
    region 0's four staging buffers, each at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before position `n`: before the first the class's (every scratch at anything); afterwards
    the accumulators at what the position before left, the other scoped buffers at anything, the generator register
    at some state. -/
def PhiS (c : Dev nD) : (n : ℕ) → n ≤ cfg1.N → sProp 𝕄
  | 0, _ => Pipeline.ΦA spec1 c
  | n + 1, hn => iprop(otherScoped c ∗ owns (c : Thread nD τ) scNum fullShare (accAt V c n hn).1
      ∗ owns (c : Thread nD τ) scDen fullShare (accAt V c n hn).2 ∗ (∃ r, prngReg c r))

/-- The share each input window holds of its array: the two windows on the normalised features halve it, and so do
    the two on the one-hot table. -/
def qshare : Fin cfg1.W → PosShare TreeShare
  | ⟨0, _⟩ => fullShare.left
  | ⟨1, _⟩ => fullShare.right
  | ⟨2, _⟩ => fullShare.left
  | ⟨3, _⟩ => fullShare.right
  | _ => fullShare

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => logpTile (accAt V c t.val t.isLt).1 (accAt V c t.val t.isLt).2
    | ⟨5, _⟩ => validTile (accAt V c t.val t.isLt).1
  Φ t := PhiS V c t.val (Nat.le_of_lt_succ t.isLt)
  q := qshare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = logpTile (accAt V c t.val t.isLt).1 (accAt V c t.val t.isLt).2 := by dsimp only [dat1]
theorem after1_5 (c : Dev nD) (t : Fin cfg1.N) : (dat1 V c).after 5 t = validTile (accAt V c t.val t.isLt).1 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-! ## The invariant, position by position -/

theorem PhiS_zero (c : Dev nD) (n : ℕ) (h : n ≤ cfg1.N) (hz : n = 0) : PhiS V c n h = Pipeline.ΦA spec1 c := by
  subst hz; rfl

/-- After position `n`: the accumulators at what the body left there. -/
theorem PhiS_succ (c : Dev nD) (n : ℕ) (hn : n < cfg1.N) :
    PhiS V c (n + 1) hn = iprop(otherScoped c ∗ owns (c : Thread nD τ) scNum fullShare (accAt V c n hn).1
      ∗ owns (c : Thread nD τ) scDen fullShare (accAt V c n hn).2 ∗ (∃ r, prngReg c r)) := rfl

/-- Before a position that is not the first: the accumulators at what the position before left. -/
theorem PhiS_pos (c : Dev nD) (n : ℕ) (h : n ≤ cfg1.N) (hz : n ≠ 0) :
    PhiS V c n h = iprop(otherScoped c ∗ owns (c : Thread nD τ) scNum fullShare (accAt V c (n - 1) (by omega)).1
      ∗ owns (c : Thread nD τ) scDen fullShare (accAt V c (n - 1) (by omega)).2 ∗ (∃ r, prngReg c r)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- The class invariant with the two accumulators as memrefs owned at some contents: the scoped buffers that are no
    staging buffer of this pipeline are region 0's four staging buffers and the two accumulators. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scNum fullShare d) ∗ (∃ d, owns (c : Thread nD τ) scDen fullShare d))
        ∗ (∃ r, prngReg c r)) := by
  unfold Pipeline.ΦA; rw [scopedRest1_eq]; simp only [scNum, scDen, owns_whole]; try rfl

/-! ## Where the two outputs are idle, and where they are written back -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last column tile the two outputs are idle, -/
theorem idleAt1_4 : ∀ t : Fin cfg1.N, t.val % 16 ≠ 15 → cfg1.idle 4 (grid1.coords t) = true :=
  (by decide +kernel : ∀ t : Fin grid1.N, t.val % 16 ≠ 15 → idle1 4 (grid1.coords t) = true)
theorem idleAt1_5 : ∀ t : Fin cfg1.N, t.val % 16 ≠ 15 → cfg1.idle 5 (grid1.coords t) = true :=
  (by decide +kernel : ∀ t : Fin grid1.N, t.val % 16 ≠ 15 → idle1 5 (grid1.coords t) = true)
/-- and not written back; -/
theorem noFlush1_4 (t : Fin cfg1.N) (h : t.val % 16 ≠ 15) : (cfg1.win 4).flush t = false :=
  Bool.eq_false_iff.mpr fun hf => h ((flush1_4 t).mp hf)
theorem noFlush1_5 (t : Fin cfg1.N) (h : t.val % 16 ≠ 15) : (cfg1.win 5).flush t = false :=
  Bool.eq_false_iff.mpr fun hf => h ((flush1_5 t).mp hf)
/-- on it they are live. -/
theorem liveAt1_4 : ∀ t : Fin cfg1.N, t.val % 16 = 15 → cfg1.idle 4 (grid1.coords t) = false :=
  (by decide +kernel : ∀ t : Fin grid1.N, t.val % 16 = 15 → idle1 4 (grid1.coords t) = false)
theorem liveAt1_5 : ∀ t : Fin cfg1.N, t.val % 16 = 15 → cfg1.idle 5 (grid1.coords t) = false :=
  (by decide +kernel : ∀ t : Fin grid1.N, t.val % 16 = 15 → idle1 5 (grid1.coords t) = false)

/-! ## What the body finds in the four inputs' buffers -/

/-- Each input's current staging buffer holds its block at every point, fetched there or not: where it is not fetched
    the block index has not moved, and the body leaves an input's block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- Each window's current staging memref at point `t`, spelled as the pipeline passes it to the body, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)

/-! ## The body obligation, at a generic point -/

/-- What the body is called with at point `t`: the invariant, what the core owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- The four inputs are live everywhere: the body leaves each buffer at its block. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) : (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

set_option maxHeartbeats 4000000 in
/-- A point with j = 0: the accumulators are handed over at anything (the class invariant's at the very first point,
    the position before's afterwards) and come back at the reset value plus this tile; the outputs' buffers are
    idle and go back as found. -/
theorem sound_first1 (c : Dev nD) (t : Fin cfg1.N) (h0 : t.val % 16 = 0) :
    bodyPre1 V c t ⊢ wp frame (wpE (defs₀ (F := F)) Variants.none c none) Set.univ (bodyAt1 t) (fun _ => bodyPost1 V c t) := by
  have h15 : t.val % 16 ≠ 15 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  rw [Dat.leavesExact_idle (dat1 V c) 4 t (idleAt1_4 t h15) (noFlush1_4 t h15)]
  rw [Dat.leavesExact_idle (dat1 V c) 5 t (idleAt1_5 t h15) (noFlush1_5 t h15)]
  rw [accAt_reset V c t h0]
  dsimp only
  by_cases hz : t.val = 0
  · rw [PhiS_castSucc V c t, PhiS_zero V c _ _ hz, PhiA1_eq]
    iintro ⟨⟨⟨A0, A1, A2, A3, S0, S1⟩, Hg⟩, Ho, ⟨%d0, H0⟩, ⟨%d1, H1⟩, ⟨%d2, H2⟩, ⟨%d3, H3⟩, ⟨%d4, H4⟩, ⟨%d5, H5⟩⟩
    iapply (sup_first c Set.univ (grid1.coords t) ((hcondFirst t).mpr h0) (fun h => h15 ((hcondLast t).mp h))
      (ms1_0 t) (hs1_0 t) (ms1_1 t) (hs1_1 t) (ms1_2 t) (hs1_2 t) (ms1_3 t) (hs1_3 t) (ms1_4 t) (hs1_4 t) (ms1_5 t) (hs1_5 t)
      scNum (Memref.isWhole_whole _) scDen (Memref.isWhole_whole _)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [S0]; · iexact S0
    isplitl [S1]; · iexact S1
    iintro ⟨H0, H1, H2, H3, S0, S1⟩
    isplitl [A0 A1 A2 A3 S0 S1 Hg]
    · unfold otherScoped
      isplitl [A0 A1 A2 A3]
      · isplitl [A0]; · iexact A0
        isplitl [A1]; · iexact A1
        isplitl [A2]; · iexact A2
        iexact A3
      isplitl [S0]; · iexact S0
      isplitl [S1]; · iexact S1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS_castSucc V c t, PhiS_pos V c _ _ hz]
    iintro ⟨⟨Hoth, S0, S1, Hg⟩, Ho, ⟨%d0, H0⟩, ⟨%d1, H1⟩, ⟨%d2, H2⟩, ⟨%d3, H3⟩, ⟨%d4, H4⟩, ⟨%d5, H5⟩⟩
    iapply (sup_first c Set.univ (grid1.coords t) ((hcondFirst t).mpr h0) (fun h => h15 ((hcondLast t).mp h))
      (ms1_0 t) (hs1_0 t) (ms1_1 t) (hs1_1 t) (ms1_2 t) (hs1_2 t) (ms1_3 t) (hs1_3 t) (ms1_4 t) (hs1_4 t) (ms1_5 t) (hs1_5 t)
      scNum (Memref.isWhole_whole _) scDen (Memref.isWhole_whole _)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [S0]; · iexists _; iexact S0
    isplitl [S1]; · iexists _; iexact S1
    iintro ⟨H0, H1, H2, H3, S0, S1⟩
    isplitl [Hoth S0 S1 Hg]
    · isplitl [Hoth]; · iexact Hoth
      isplitl [S0]; · iexact S0
      isplitl [S1]; · iexact S1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4000000 in
/-- A point with 0 < j < 15: the accumulators are handed over at what the position before left and come back with this
    tile added; the outputs' buffers are idle and go back as found. -/
theorem sound_mid1 (c : Dev nD) (t : Fin cfg1.N) (h0 : t.val % 16 ≠ 0) (h15 : t.val % 16 ≠ 15) :
    bodyPre1 V c t ⊢ wp frame (wpE (defs₀ (F := F)) Variants.none c none) Set.univ (bodyAt1 t) (fun _ => bodyPost1 V c t) := by
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  rw [Dat.leavesExact_idle (dat1 V c) 4 t (idleAt1_4 t h15) (noFlush1_4 t h15)]
  rw [Dat.leavesExact_idle (dat1 V c) 5 t (idleAt1_5 t h15) (noFlush1_5 t h15)]
  rw [accAt_step V c t h0]
  dsimp only
  rw [PhiS_castSucc V c t, PhiS_pos V c _ _ hz]
  iintro ⟨⟨Hoth, S0, S1, Hg⟩, Ho, ⟨%d0, H0⟩, ⟨%d1, H1⟩, ⟨%d2, H2⟩, ⟨%d3, H3⟩, ⟨%d4, H4⟩, ⟨%d5, H5⟩⟩
  iapply (sup_mid c Set.univ (grid1.coords t) (fun h => h0 ((hcondFirst t).mp h)) (fun h => h15 ((hcondLast t).mp h))
    (ms1_0 t) (hs1_0 t) (ms1_1 t) (hs1_1 t) (ms1_2 t) (hs1_2 t) (ms1_3 t) (hs1_3 t) (ms1_4 t) (hs1_4 t) (ms1_5 t) (hs1_5 t)
    scNum (Memref.isWhole_whole _) scDen (Memref.isWhole_whole _)
    (iblk1 V c 0 t) (iblk1 V c 1 t) (iblk1 V c 2 t) (iblk1 V c 3 t)
    (accAt V c (t.val - 1) (Nat.lt_of_le_of_lt (Nat.sub_le _ _) t.isLt)).1
    (accAt V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [S0]; · iexact S0
  isplitl [S1]; · iexact S1
  iintro ⟨H0, H1, H2, H3, S0, S1⟩
  isplitl [Hoth S0 S1 Hg]
  · isplitl [Hoth]; · iexact Hoth
    isplitl [S0]; · iexact S0
    isplitl [S1]; · iexact S1
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4000000 in
/-- A point with j = 15: the accumulators come back with this tile added, and both outputs' buffers, live here and
    written back, hold the row values computed from the final accumulators. -/
theorem sound_last1 (c : Dev nD) (t : Fin cfg1.N) (h15 : t.val % 16 = 15) :
    bodyPre1 V c t ⊢ wp frame (wpE (defs₀ (F := F)) Variants.none c none) Set.univ (bodyAt1 t) (fun _ => bodyPost1 V c t) := by
  have h0 : t.val % 16 ≠ 0 := by omega
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  rw [show (dat1 V c).leavesExact 4 t = owns (c : Thread nD τ) (ms1_4 t) fullShare ((dat1 V c).after 4 t) from by
    unfold Dat.leavesExact; rw [liveAt1_4 t h15], after1_4]
  rw [show (dat1 V c).leavesExact 5 t = owns (c : Thread nD τ) (ms1_5 t) fullShare ((dat1 V c).after 5 t) from by
    unfold Dat.leavesExact; rw [liveAt1_5 t h15], after1_5]
  rw [accAt_step V c t h0]
  dsimp only
  rw [PhiS_castSucc V c t, PhiS_pos V c _ _ hz]
  iintro ⟨⟨Hoth, S0, S1, Hg⟩, Ho, ⟨%d0, H0⟩, ⟨%d1, H1⟩, ⟨%d2, H2⟩, ⟨%d3, H3⟩, ⟨%d4, H4⟩, ⟨%d5, H5⟩⟩
  iapply (sup_last c Set.univ (grid1.coords t) (fun h => h0 ((hcondFirst t).mp h)) ((hcondLast t).mpr h15)
    (ms1_0 t) (hs1_0 t) (ms1_1 t) (hs1_1 t) (ms1_2 t) (hs1_2 t) (ms1_3 t) (hs1_3 t) (ms1_4 t) (hs1_4 t) (ms1_5 t) (hs1_5 t)
    scNum (Memref.isWhole_whole _) scDen (Memref.isWhole_whole _)
    (iblk1 V c 0 t) (iblk1 V c 1 t) (iblk1 V c 2 t) (iblk1 V c 3 t)
    (accAt V c (t.val - 1) (Nat.lt_of_le_of_lt (Nat.sub_le _ _) t.isLt)).1
    (accAt V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexact S0
  isplitl [S1]; · iexact S1
  iintro ⟨H0, H1, H2, H3, H4, H5, S0, S1⟩
  isplitl [Hoth S0 S1 Hg]
  · isplitl [Hoth]; · iexact Hoth
    isplitl [S0]; · iexact S0
    isplitl [S1]; · iexact S1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point: by the column tile it is one of the three cases. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_first1 V c t h0
  · by_cases h15 : t.val % 16 = 15
    · exact sound_last1 V c t h15
    · exact sound_mid1 V c t h0 h15

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any position but the first the invariant gives the class invariant back: the accumulators' named contents
    are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold otherScoped
  iintro ⟨⟨A0, A1, A2, A3⟩, S0, S1, Hg⟩
  isplitr [Hg]
  · isplitl [A0]; · iexact A0
    isplitl [A1]; · iexact A1
    isplitl [A2]; · iexact A2
    isplitl [A3]; · iexact A3
    isplitl [S0]; · iexists _; iexact S0
    iexists _; iexact S1
  iexact Hg

/-- After the last point the invariant gives the class invariant back (the accumulators' contents forgotten). -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Fr

end
-- ==== Proof.K.Run.lean ====
/-
  The whole program as a chain of thread states: the unscoped buffers start at the launch memory; region 0
  leaves the normalised features in its output array; three host stretches build the one-hot table; region 1
  reads both (each through two windows, which share the array half and half) and leaves the rows' log-ratios and
  validity flags; four host stretches reduce them to the scalar. Every buffer's contents at every boundary is a
  fold from the launch memory, so the run ends with the arguments as launched and the result at the fold's value.
-/
import proofs.«421372_j86088324481780_1_alg».proof.Proof.K.Norm
import proofs.«421372_j86088324481780_1_alg».proof.Proof.K.SupDat
import proofs.«421372_j86088324481780_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, and the buffers' contents at the boundaries -/

/-- The launch contents, read at the TensorCore's references: what region 0 is entered from. -/
abbrev Vin (c : Dev nD) (b : Ref sig .tc) : Buf (Elt F) ((c : Thread nD τ).loc b) := m ((c : Thread nD τ).loc b)

/-- What region 0 leaves in the normalised-features array. -/
def featOut (c : Dev nD) : Buf (Elt F) ((c : Thread nD τ).loc main_v0) := (dat0 (Vin m) c).arrAt 1 cfg0.N

/-- The regions' outputs up to region 0's: only `main_v0` after item 0 is read. -/
def outsA : Outs (F := F) := fun _ r c => if h : r = main_v0 then h ▸ featOut m c else m ((c : Thread nD τ).loc r)

theorem outsA_v0 (J : ℕ) (c : Dev nD) : outsA m J main_v0 c = featOut m c := by
  unfold outsA; rw [dif_pos rfl]

/-- The contents region 1 is entered from. -/
abbrev Vmid (c : Dev nD) (b : Ref sig .tc) : Buf (Elt F) ((c : Thread nD τ).loc b) := V4 m (outsA m) c b

/-- What region 1 leaves in its two outputs. -/
def logpOut (c : Dev nD) : Buf (Elt F) ((c : Thread nD τ).loc main_v3_0) := (dat1 (Vmid m) c).arrAt 4 cfg1.N
def validOut (c : Dev nD) : Buf (Elt F) ((c : Thread nD τ).loc main_v3_1) := (dat1 (Vmid m) c).arrAt 5 cfg1.N

/-- The regions' outputs. -/
def outs : Outs (F := F) := fun J r c =>
  if J = 5 then
    if h : r = main_v3_0 then h ▸ logpOut m c
    else if h' : r = main_v3_1 then h' ▸ validOut m c
    else m ((c : Thread nD τ).loc r)
  else outsA m J r c

theorem outs_v0 (c : Dev nD) : outs m 1 main_v0 c = featOut m c := by
  unfold outs; rw [if_neg (by decide), outsA_v0]
theorem outs_logp (c : Dev nD) : outs m 5 main_v3_0 c = logpOut m c := by
  unfold outs; rw [if_pos rfl, dif_pos rfl]
theorem outs_valid (c : Dev nD) : outs m 5 main_v3_1 c = validOut m c := by
  unfold outs; rw [if_pos rfl, dif_neg (by decide), dif_pos rfl]

/-- Region 1's entry contents do not depend on what region 1 leaves. -/
theorem V4_outs (c : Dev nD) : V4 m (outs m) c = V4 m (outsA m) c := by
  have h : outs m 1 main_v0 c = outsA m 1 main_v0 c := by rw [outs_v0, outsA_v0]
  show StableHlo.after hostOps1_2 (StableHlo.after hostOps1_1 (StableHlo.after hostOps1 (Function.update (V0 m c) main_v0 (outs m 1 main_v0 c)))) = _
  rw [h]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vin m) c
  | ⟨1, _⟩ => fun c => dat1 (Vmid m) c

abbrev 𝒱z : Variants := Variants.none
/-- No core owes another anything: no level is assigned. -/
abbrev Lz : GSem nD τ sig → Finset Unit := fun _ => ∅
abbrev lvz : GSem nD τ sig → Unit → ℕ := fun _ _ => 0
/-- Beside the buffers, through every item: the generator register at some state and the core owing nothing. -/
abbrev Rst (c : Dev nD) : sProp 𝕄 := iprop((∃ r, prngReg c r) ∗ ∃ W, owes (c : Thread nD τ) (0 : CellTallies nD τ sig Unit) W)

/-! ## Region 0 as a segment -/

theorem featOut_eq (c : Dev nD) (w : Fin cfg0.W) :
    (pdats m 0 c).arrAt w cfg0.N = V1 m (outs m) c (Pipeline.arrRef spec0 w) := by
  match w with
  | ⟨0, _⟩ =>
    refine ((dat0 (Vin m) c).arrAt_in 0 rfl _).trans ((A_eq0 (Vin m) c 0).trans ?_)
    exact (V1_of m (outs m) c main_arg0 (by decide)).symm
  | ⟨1, _⟩ =>
    show featOut m c = Function.update (V0 m c) main_v0 (outs m 1 main_v0 c) main_v0
    rw [Function.update_self, outs_v0]

set_option backward.isDefEq.respectTransparency.types false in
/-- Region 0 over the thread state: entered from every unscoped buffer at the launch contents, left with the
    output array at what the write-backs leave. -/
def reg0 : RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vin m) c).loose
  hwaits := Pipeline.hwaits_of_owed_zero _ _ _ _ Lz lvz 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [show unscopedBufs c (Vin m c) = StableHlo.held (c : Thread nD τ) (Pipeline.ucRefs τ sig) (V0 m c)
      from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (fun b => V1 m (outs m) c b) ((pdats m 0 c).arrAt · cfg0.N) (featOut_eq m c)
      (fun b hb => V1_of m (outs m) c b (fun hmem => hb (by
        rw [List.mem_singleton] at hmem; subst hmem
        exact Finset.mem_image.mpr ⟨1, Finset.mem_univ _, rfl⟩)))
    rw [show unscopedBufs c (fun b => V1 m (outs m) c b) = StableHlo.held (c : Thread nD τ) (Pipeline.ucRefs τ sig) (V1 m (outs m) c)
      from Pipeline.unscopedBufs_held c (V1 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment: its arrays are shared between windows -/

/-- The buffers behind region 1's six windows: four. -/
theorem arrImage1 : Finset.univ.image (Pipeline.arrRef spec1) = insert main_v0 (insert main_v2 (insert main_v3_0 {main_v3_1})) := by
  decide

/-- Those four buffers, each whole at the full share, one by one. -/
theorem arrBufs1_eq (c : Dev nD) (V : (b : Ref sig .tc) → Buf (Elt F) ((c : Thread nD τ).loc b)) :
    (Pipeline.arrBufs spec1 c V : sProp 𝕄)
      = iprop((((c : Thread nD τ).loc main_v0) ↦{fullShare} V main_v0) ∗ (((c : Thread nD τ).loc main_v2) ↦{fullShare} V main_v2)
          ∗ (((c : Thread nD τ).loc main_v3_0) ↦{fullShare} V main_v3_0) ∗ (((c : Thread nD τ).loc main_v3_1) ↦{fullShare} V main_v3_1)) := by
  unfold Pipeline.arrBufs
  rw [arrImage1, bigSep_insert (by decide), bigSep_insert (by decide), bigSep_insert (by decide), bigSep_singleton]
  rfl

/-- The pipeline's arrays at contents `G`, window by window: the two windows on the features hold its two halves, the
    two on the one-hot table its two halves, each output its array outright. -/
theorem arrays1_eq (c : Dev nD) (G : (w : Fin cfg1.W) → Buf (Elt F) ((cfg1.win w).arr.view.loc (c : Thread nD τ))) :
    ((pdats m 1 c).arrays G : sProp 𝕄)
      = iprop((((c : Thread nD τ).loc main_v0) ↦{fullShare.left} G 0) ∗ (((c : Thread nD τ).loc main_v0) ↦{fullShare.right} G 1)
          ∗ (((c : Thread nD τ).loc main_v2) ↦{fullShare.left} G 2) ∗ (((c : Thread nD τ).loc main_v2) ↦{fullShare.right} G 3)
          ∗ (((c : Thread nD τ).loc main_v3_0) ↦{fullShare} G 4) ∗ (((c : Thread nD τ).loc main_v3_1) ↦{fullShare} G 5)) := by
  unfold Dat.arrays
  rw [bigSep_W1]
  have e : ∀ w : Fin (cfgs 1).W, (((cfgs 1).win w).arr.view.set) = Finset.univ := fun w => (arr_whole1 w).set_eq_univ
  rw [e 0, e 1, e 2, e 3, e 4, e 5]
  rfl

/-- Region 1's arrays before any write-back are the entry contents of the buffers behind them. -/
theorem entry1_eq (c : Dev nD) (w : Fin cfg1.W) : (pdats m 1 c).arrAt w 0 = Vmid m c (Pipeline.arrRef spec1 w) := rfl

/-- What region 1's arrays hold at the exit, read in the next boundary's contents: the inputs as entered, each output
    at what its write-backs leave. -/
theorem exit1_eq (c : Dev nD) (w : Fin cfg1.W) :
    (pdats m 1 c).arrAt w cfg1.N = V5 m (outs m) c (Pipeline.arrRef spec1 w) := by
  have hin : ∀ b : Ref sig .tc, b ∉ ([main_v3_0, main_v3_1] : List (Ref sig .tc)) → V5 m (outs m) c b = Vmid m c b := fun b hb =>
    (V5_of m (outs m) c b hb).trans (congrFun (V4_outs m c) b)
  match w with
  | ⟨0, _⟩ => exact ((dat1 (Vmid m) c).arrAt_in 0 rfl _).trans ((A_eq1 (Vmid m) c 0).trans (hin main_v0 (by decide)).symm)
  | ⟨1, _⟩ => exact ((dat1 (Vmid m) c).arrAt_in 1 rfl _).trans ((A_eq1 (Vmid m) c 1).trans (hin main_v0 (by decide)).symm)
  | ⟨2, _⟩ => exact ((dat1 (Vmid m) c).arrAt_in 2 rfl _).trans ((A_eq1 (Vmid m) c 2).trans (hin main_v2 (by decide)).symm)
  | ⟨3, _⟩ => exact ((dat1 (Vmid m) c).arrAt_in 3 rfl _).trans ((A_eq1 (Vmid m) c 3).trans (hin main_v2 (by decide)).symm)
  | ⟨4, _⟩ =>
    show logpOut m c = Function.update (Function.update (V4 m (outs m) c) main_v3_0 (outs m 5 main_v3_0 c)) main_v3_1 (outs m 5 main_v3_1 c) main_v3_0
    rw [Function.update_of_ne (StableHlo.devRef_ne_of_ne (by decide) : (Proc.devRef .tc main_v3_0 : DevRef τ sig) ≠ Proc.devRef .tc main_v3_1),
      Function.update_self, outs_logp]
  | ⟨5, _⟩ =>
    show validOut m c = Function.update (Function.update (V4 m (outs m) c) main_v3_0 (outs m 5 main_v3_0 c)) main_v3_1 (outs m 5 main_v3_1 c) main_v3_1
    rw [Function.update_self, outs_valid]

/-- Off region 1's arrays the next boundary's contents are the entry contents. -/
theorem rest1_eq (c : Dev nD) (b : Ref sig .tc) (hb : b ∉ Finset.univ.image (Pipeline.arrRef spec1)) :
    V5 m (outs m) c b = Vmid m c b := by
  refine (V5_of m (outs m) c b fun hmem => hb ?_).trans (congrFun (V4_outs m c) b)
  rw [arrImage1]
  rcases List.mem_cons.mp hmem with h | hmem
  · subst h; decide
  · rw [List.mem_singleton] at hmem; subst hmem; decide

/-- The core's unscoped buffers at any contents: the four buffers behind region 1's windows, and the rest. -/
theorem unscoped1_eq (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- Beside the last buffers, the register and the core owing nothing regroup to the run's last thread state. -/
theorem lastStep (c : Dev nD) (W : Valuation τ sig (Elt F)) :
    iprop(StableHlo.held (c : Thread nD τ) (Pipeline.ucRefs τ sig) W ∗ Rst (F := F) c)
      ⊢ (iprop((StableHlo.held (c : Thread nD τ) (Pipeline.ucRefs τ sig) W ∗ ∃ r, prngReg c r)
          ∗ ∃ Wo, owes (c : Thread nD τ) (0 : CellTallies nD τ sig Unit) Wo) : sProp 𝕄) := by
  iintro ⟨Hh, Hp, HO⟩
  isplitl [Hh Hp]
  · isplitl [Hh]; · iexact Hh
    iexact Hp
  iexact HO

/-- ENTRY: the core's unscoped buffers at region 1's entry contents are its arrays — the features' and the table's
    full shares each dealt half and half to the two windows on it — and the rest. -/
theorem split1 (c : Dev nD) :
    (unscopedBufs c (Vmid m c) : sProp 𝕄)
      ⊢ iprop((pdats m 1 c).arrays ((pdats m 1 c).arrAt · 0) ∗ Pipeline.unscopedRest spec1 c (Vmid m c)) := by
  rw [unscoped1_eq c (Vmid m c), arrBufs1_eq, arrays1_eq]
  iintro ⟨⟨H0, H2, H30, H31⟩, Hrest⟩
  ihave H0' := (pointsTo_share (PosShare.mem_left_op_right fullShare)).1 $$ H0
  ihave H2' := (pointsTo_share (PosShare.mem_left_op_right fullShare)).1 $$ H2
  icases H0' with ⟨H0l, H0r⟩
  icases H2' with ⟨H2l, H2r⟩
  isplitr [Hrest]
  · isplitl [H0l]; · iexact H0l
    isplitl [H0r]; · iexact H0r
    isplitl [H2l]; · iexact H2l
    isplitl [H2r]; · iexact H2r
    isplitl [H30]; · iexact H30
    iexact H31
  · iexact Hrest

/-- EXIT: the arrays at their final contents — the halves joined again — and the rest are the core's unscoped buffers
    at the next boundary's contents. -/
theorem join1 (c : Dev nD) :
    iprop((pdats m 1 c).arrays ((pdats m 1 c).arrAt · cfg1.N) ∗ Pipeline.unscopedRest spec1 c (Vmid m c))
      ⊢ (unscopedBufs c (fun b => V5 m (outs m) c b) : sProp 𝕄) := by
  have hG : ((pdats m 1 c).arrAt · cfg1.N) = fun w => V5 m (outs m) c (Pipeline.arrRef spec1 w) := funext (exit1_eq m c)
  have hrest : (Pipeline.unscopedRest spec1 c (fun b => V5 m (outs m) c b) : sProp 𝕄) = Pipeline.unscopedRest spec1 c (Vmid m c) := by
    unfold Pipeline.unscopedRest
    exact bigSep_congr fun b hb => congrArg (fun f => (((c : Thread nD τ).loc b) ↦{fullShare} f : sProp 𝕄)) (rest1_eq m c b (Finset.mem_sdiff.mp hb).2)
  rw [unscoped1_eq c (fun b => V5 m (outs m) c b), arrBufs1_eq, hrest, hG, arrays1_eq]
  iintro ⟨⟨H0l, H0r, H2l, H2r, H30, H31⟩, Hrest⟩
  ihave H0 := (pointsTo_share (PosShare.mem_left_op_right fullShare)).2 $$ [H0l H0r]
  · isplitl [H0l]; · iexact H0l
    iexact H0r
  ihave H2 := (pointsTo_share (PosShare.mem_left_op_right fullShare)).2 $$ [H2l H2r]
  · isplitl [H2l]; · iexact H2l
    iexact H2r
  isplitr [Hrest]
  · isplitl [H0]; · iexact H0
    isplitl [H2]; · iexact H2
    isplitl [H30]; · iexact H30
    iexact H31
  · iexact Hrest

set_option backward.isDefEq.respectTransparency.types false in
/-- Region 1 over the thread state: entered from every unscoped buffer at the contents after the third host stretch,
    left with its two output arrays at what the write-backs leave. -/
def reg1 : RegionSeg (pcfgs (F := F)) adm (pdats m) () defs₀ 𝒱z Lz lvz 1 where
  win := winFacts₀1
  block_pos := block_pos1
  stage_whole := stage_whole1
  K := PEmpty
  osem k := k.elim
  ho := Pipeline.OwnSemFacts.none _
  hbody c := (body_obligation1 (Vmid m) c).loose
  hwaits := Pipeline.hwaits_of_owed_zero _ _ _ _ Lz lvz 1 fun _ _ => rfl
  pre c := iprop(StableHlo.held (c : Thread nD τ) (Pipeline.ucRefs τ sig) (V4 m (outs m) c) ∗ Rst c)
  post c := iprop(StableHlo.held (c : Thread nD τ) (Pipeline.ucRefs τ sig) (V5 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vmid m c)
  hentry c := by
    rw [Pipeline.ownSems0_none]
    have hsplit := split1 m c
    rw [show unscopedBufs c (Vmid m c) = StableHlo.held (c : Thread nD τ) (Pipeline.ucRefs τ sig) (V4 m (outs m) c)
      from by rw [V4_outs]; exact Pipeline.unscopedBufs_held c (V4 m (outsA m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vmid m) c)
    unfold Pipeline.ΦA
    iintro ⟨Hp, -, Hr⟩
    isplitl [Hr]; · iexact Hr
    iexact Hp
  hout c := by
    rw [Pipeline.ownSems0_none]
    refine (hout1 (Vmid m) c).trans ?_
    unfold Pipeline.ΦA
    iintro ⟨Hr, Hp⟩
    isplitl [Hp]; · iexact Hp
    isplitr; · iempintro
    iexact Hr
  hexit c := by
    have hjoin := join1 m c
    rw [show unscopedBufs c (fun b => V5 m (outs m) c b) = StableHlo.held (c : Thread nD τ) (Pipeline.ucRefs τ sig) (V5 m (outs m) c)
      from Pipeline.unscopedBufs_held c (V5 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting; the result buffer ends at the fold's value and both arguments end as launched. -/
theorem run_main : θ_run defs (onTc (τ := τ) (main (F := F))) ⟨m, fun _ => 0, ρ⟩ (fun r => ∀ c : Dev nD,
      r.2.mem ((c.tc : Thread nD τ).loc main_v15) = V9 m (outs m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj emb₁ defs₀ 𝒱z Lz lvz m ρ main
    (segs m (outs m) 𝒱z Lz lvz (fun _ c => Rst c) () (pdats m) (reg0 m) (reg1 m))
    (fun c Q => by
      rewrite [main_chain c, Seg.run_eq_chain,
        show (segs m (outs m) 𝒱z Lz lvz (fun _ c => Rst c) () (pdats m) (reg0 m) (reg1 m) c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (V9 m (outs m) c) ∗ ∃ r, prngReg c r))
    (hch := fun c => ⟨.rfl, .rfl, .rfl, .rfl, .rfl, .rfl, .rfl, .rfl, .rfl, lastStep c (V9 m (outs m) c)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m) c) s')
      isplitl [Hh] <;> iassumption)
    (hQ := fun s h c =>
      ⟨h c _ (mem_uc main_v15 (by decide)),
       (h c _ (mem_uc main_arg0 (by decide))).trans (V9_main_arg0 m (outs m) c),
       (h c _ (mem_uc main_arg1 (by decide))).trans (V9_main_arg1 m (outs m) c)⟩)

/-- THE FRAME: the program runs to the end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Fr

end
-- ==== Proof.KI.Norm.lean ====
/-
  Region 0 (row normalisation, grid of 8 row tiles) as a pipeline at ANY entry contents `V`:
  a block of 1024 rows is loaded whole, each row divided by max(‖row‖₂, ε), and stored whole.
  The staging buffer of the output after the body is that one store read back; the proof data
  name it, and the body obligation is the kernel's triple at every grid point.
-/
import proofs.«421372_j86088324481780_1_alg».proof.Proof.Gen.KernelIdeal.Launch
import proofs.«421372_j86088324481780_1_alg».proof.Proof.Gen.KernelIdeal.Skeleton
import proofs.«421372_j86088324481780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024×256 tile as a rectangle. -/
abbrev rTile : Rect S1024x256 := Rect.unit (s := S1024x256) ![0, 0] S1024x256.size inb_S1024x256_S1024x256_0_0

/-- What the body leaves in the output's staging buffer: the normalised tile, from the input tile. -/
def normTile (x0 : Vec F S1024x256 .f32) : Vec F S1024x256 .bf16 :=
  View.canon [⟨rTile, k0_pay1 (View.ld x0 rTile)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => normTile (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = normTile (iblk0 V c 0 t) := by dsimp only [dat0]

/-- The input's staging buffer holds its block when the body is entered, at every point: the window is
    fetched whole at each point (never cut, never idle), and the body leaves the block in place. -/
theorem stage_in_eq {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole tile, so every index of the tile lies in it. -/
theorem tile_cover (p : Vec F S1024x256 .bf16) (y : S1024x256.Idx) :
    ∃ pc ∈ ([⟨rTile, p⟩] : List (View.Piece (Elt F) S1024x256 .bf16)), y ∈ pc.1.set :=
  View.cover_of_tiled [⟨rTile, p⟩] S1024x256.size (by rfl) y

set_option maxHeartbeats 1000000 in
/-- The kernel on whole staging memrefs: the input's at contents `x0`, the output's at anything (it is read once,
    the value unused, then overwritten whole). It ends with the input's as it was and the output's at the
    normalised tile of `x0`. -/
theorem kernel_triple (c : Dev nD) (E : Set ℕ) (i : grid0.Coords)
    (arg1 : Memref sig .tc .vmem S1024x256 .f32) (harg1 : arg1.IsWhole)
    (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normTile x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (tile_cover _)

/-- The input's staging buffer at the body's entry, for this proof data. -/
theorem before0_0 (c : Dev nD) (t : Fin cfg0.N) (d) : (dat0 V c).before 0 t d = iblk0 V c 0 t :=
  stage_in_eq V (dat0 V c) (A_eq0 V c 0) (after0_0 V c) t d

/-- What the body is entered with at point `t`: the invariant, the core's debts, and the two staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the kernel's triple applies; the invariant and
    the debts pass through untouched. -/
theorem body_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (kernel_triple c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for region 0, at every point. -/
theorem body_obligation0 (c : Dev nD) : BodyObligation (dat0 (F := F) V c) (defs₀ (F := F)) Variants.none () Set.univ := fun t => by
  rw [bigSep_W0, bigSep_W0]
  exact body_at V c t

end Cert.KernelIdeal.Fr

end
-- ==== Proof.KI.Sup.lean ====
/-
  Region 1's kernel body (one 1024×512 tile of the pairwise matrix per grid point (i, j)) as three triples,
  one per control case: j = 0 (the two row accumulators are reset, then this tile's row sums are added),
  0 < j < 15 (added), j = 15 (added, then the log-ratio and the validity flag of each row are stored to
  the two outputs). The accumulators' new contents are pure functions of the four input blocks and of
  what the accumulators held: `numStep`, `denStep`.
-/
import proofs.«421372_j86088324481780_1_alg».proof.Proof.Gen.KernelIdeal.Launch
import proofs.«421372_j86088324481780_1_alg».proof.Proof.Gen.KernelIdeal.Skeleton
import proofs.«421372_j86088324481780_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The branch conditions -/

/-- The condition of the first `scf.if` (j = 0), from the grid coordinates. -/
abbrev condFirst (i : grid1.Coords) : Prop := (Scalar.cmpi .ne (Scalar.extui (Scalar.cmpi .eq (BitVec.ofNat 32 (i 1).val) 0#32)) 0#32) = 1#1
/-- The condition of the last `scf.if` (j = 15). -/
abbrev condLast (i : grid1.Coords) : Prop := k1_cond2 i = 1#1

theorem hcondFirst : ∀ t : Fin cfg1.N, condFirst (grid1.coords t) ↔ t.val % 16 = 0 :=
  (by decide +kernel : ∀ t : Fin grid1.N, condFirst (grid1.coords t) ↔ t.val % 16 = 0)
theorem hcondLast : ∀ t : Fin cfg1.N, condLast (grid1.coords t) ↔ t.val % 16 = 15 :=
  (by decide +kernel : ∀ t : Fin grid1.N, condLast (grid1.coords t) ↔ t.val % 16 = 15)

/-! ## What a grid point does to the two row accumulators, and what the last column tile stores -/

/-- The accumulators' reset value. -/
def zeroAcc : Vec F S1024x1 .f32 := k1_pay6 (F := F)
/-- The numerator accumulator after the point at `i`: what it held plus this tile's masked row sums. -/
def numStep (i : grid1.Coords) (x0 : Vec F S1024x256 .bf16) (x1 : Vec F S512x256 .bf16) (x2 : Vec F S1024x128 .bf16) (x3 : Vec F S512x128 .bf16) (s : Vec F S1024x1 .f32) : Vec F S1024x1 .f32 :=
  k1_pay1 (k1_pay8 x0 x1) (k1_pay9 (F := F) i) (k1_pay10 x2 x3) s
/-- The denominator accumulator after the point at `i`. -/
def denStep (i : grid1.Coords) (x0 : Vec F S1024x256 .bf16) (x1 : Vec F S512x256 .bf16) (s : Vec F S1024x1 .f32) : Vec F S1024x1 .f32 :=
  k1_pay2 (k1_pay8 x0 x1) (k1_pay9 (F := F) i) s
/-- The first output's block, from the final accumulators. -/
def logpTile (n d : Vec F S1024x1 .f32) : Vec F S1024x1 .f32 := k1_pay4 n n d
/-- The second output's block. -/
def validTile (n : Vec F S1024x1 .f32) : Vec F S1024x1 .f32 := k1_pay5 n

/-! ## Reading a buffer back after whole-buffer stores -/

/-- The offsets of every access of this body, as the constant zero function. -/
private theorem sup_hz : (![0, 0] : Fin 2 → Nat) = fun _ => 0 := by
  funext a; fin_cases a <;> rfl

/-- Whatever was stored before, a 1024×1 buffer whose LAST store filled it whole reads back as that store's payload. -/
private theorem sup_read_writes_whole {sig' : RefSig} {κ : Kind} {sp : Space}
    (v : View sig' κ sp S1024x1 .f32) (f : v.ty.Contents (Elt F)) (inb : ∀ a, (![0, 0] : Fin 2 → Nat) a + S1024x1.size a ≤ S1024x1.size a)
    (w : S1024x1.Idx → Elt F .f32) (L : List (View.Piece (Elt F) S1024x1 .f32)) :
    v.read (Elt F) (v.writes (Elt F) f ((⟨Rect.unit ![0, 0] S1024x1.size inb, w⟩ : View.Piece (Elt F) S1024x1 .f32) :: L)) = w := by
  rw [View.read_writes_eq_canon _ _ _ (fun y => ⟨_, List.mem_cons_self, View.mem_set_unit_zero sup_hz inb y⟩),
    View.canon_cons_unit_zero sup_hz]

/-- The two accumulators are reset to the same block: the zero block. -/
private theorem sup_reset_eq : k1_pay7 (F := F) = k1_pay6 (F := F) := rfl

/-! ## The three triples -/

set_option maxHeartbeats 4000000 in
/-- j = 0: both accumulators are overwritten; the outputs' buffers are not touched (they are left out of the footprint). -/
theorem sup_first (c : Dev nD) (E : Set ℕ) (i : grid1.Coords) (hF : condFirst i) (hL : ¬ condLast i) (arg2 : Memref sig .tc .vmem S1024x256 .bf16) (harg2 : arg2.IsWhole) (arg3 : Memref sig .tc .vmem S512x256 .bf16) (harg3 : arg3.IsWhole) (arg4 : Memref sig .tc .vmem S1024x128 .bf16) (harg4 : arg4.IsWhole) (arg5 : Memref sig .tc .vmem S512x128 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (x0 : Vec F S1024x256 .bf16) (x1 : Vec F S512x256 .bf16) (x2 : Vec F S1024x128 .bf16) (x3 : Vec F S512x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (numStep i x0 x1 x2 x3 zeroAcc) ∗ owns (c : Thread nD τ) arg9 fullShare (denStep i x0 x1 zeroAcc)) -∗ K ⟨⟩))
      ⊢ wp frame (wpE (defs₀ (F := F)) Variants.none c none) E (cc1__supcon_kernel i arg2 harg2 arg3 harg3 arg4 harg4 arg5 harg5 arg6 harg6 arg7 harg7 arg8 harg8 arg9 harg9) K := by
  simp only [cc1__supcon_kernel_eq_skeleton]; unfold cc1__supcon_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, Hk⟩
  subst hf2 hf3 hf4 hf5
  sl_exec (disch := first | exact hF | exact hL)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [sup_read_writes_whole]
    unfold numStep zeroAcc
    dsimp only
    sl_unfold_words
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz, View.readCov_unit_zero (S := S1024x1) _ sup_hz]
  iexists _; isplitr
  swap; · iexact H9
  ipureintro
  rw [sup_read_writes_whole]
  unfold denStep zeroAcc
  dsimp only
  sl_unfold_words
  simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz, View.readCov_unit_zero (S := S1024x1) _ sup_hz, sup_reset_eq]

set_option maxHeartbeats 4000000 in
/-- 0 < j < 15: both accumulators are read and added to. -/
theorem sup_mid (c : Dev nD) (E : Set ℕ) (i : grid1.Coords) (hF : ¬ condFirst i) (hL : ¬ condLast i) (arg2 : Memref sig .tc .vmem S1024x256 .bf16) (harg2 : arg2.IsWhole) (arg3 : Memref sig .tc .vmem S512x256 .bf16) (harg3 : arg3.IsWhole) (arg4 : Memref sig .tc .vmem S1024x128 .bf16) (harg4 : arg4.IsWhole) (arg5 : Memref sig .tc .vmem S512x128 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (x0 : Vec F S1024x256 .bf16) (x1 : Vec F S512x256 .bf16) (x2 : Vec F S1024x128 .bf16) (x3 : Vec F S512x128 .bf16) (s8 s9 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (numStep i x0 x1 x2 x3 s8) ∗ owns (c : Thread nD τ) arg9 fullShare (denStep i x0 x1 s9)) -∗ K ⟨⟩))
      ⊢ wp frame (wpE (defs₀ (F := F)) Variants.none c none) E (cc1__supcon_kernel i arg2 harg2 arg3 harg3 arg4 harg4 arg5 harg5 arg6 harg6 arg7 harg7 arg8 harg8 arg9 harg9) K := by
  simp only [cc1__supcon_kernel_eq_skeleton]; unfold cc1__supcon_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f8, %hf8, H8⟩, ⟨%f9, %hf9, H9⟩, Hk⟩
  subst hf2 hf3 hf4 hf5 hf8 hf9
  sl_exec (disch := first | exact hF | exact hL)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [sup_read_writes_whole]
    unfold numStep
    dsimp only
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz]
  iexists _; isplitr
  swap; · iexact H9
  ipureintro
  rw [sup_read_writes_whole]
  unfold denStep
  dsimp only
  simp only [View.readAt_eq_ld, View.ld_unit_zero (S := S1024x256) sup_hz, View.ld_unit_zero (S := S512x256) sup_hz,
    View.ld_unit_zero (S := S1024x1) sup_hz]

set_option maxHeartbeats 4000000 in
/-- j = 15: the accumulators are added to, and both outputs are stored whole from them. -/
theorem sup_last (c : Dev nD) (E : Set ℕ) (i : grid1.Coords) (hF : ¬ condFirst i) (hL : condLast i) (arg2 : Memref sig .tc .vmem S1024x256 .bf16) (harg2 : arg2.IsWhole) (arg3 : Memref sig .tc .vmem S512x256 .bf16) (harg3 : arg3.IsWhole) (arg4 : Memref sig .tc .vmem S1024x128 .bf16) (harg4 : arg4.IsWhole) (arg5 : Memref sig .tc .vmem S512x128 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (x0 : Vec F S1024x256 .bf16) (x1 : Vec F S512x256 .bf16) (x2 : Vec F S1024x128 .bf16) (x3 : Vec F S512x128 .bf16) (s8 s9 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (logpTile (numStep i x0 x1 x2 x3 s8) (denStep i x0 x1 s9))
            ∗ owns (c : Thread nD τ) arg7 fullShare (validTile (numStep i x0 x1 x2 x3 s8))
            ∗ owns (c : Thread nD τ) arg8 fullShare (numStep i x0 x1 x2 x3 s8) ∗ owns (c : Thread nD τ) arg9 fullShare (denStep i x0 x1 s9)) -∗ K ⟨⟩))
      ⊢ wp frame (wpE (defs₀ (F := F)) Variants.none c none) E (cc1__supcon_kernel i arg2 harg2 arg3 harg3 arg4 harg4 arg5 harg5 arg6 harg6 arg7 harg7 arg8 harg8 arg9 harg9) K := by
  simp only [cc1__supcon_kernel_eq_skeleton]; unfold cc1__supcon_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf2 hf3 hf4 hf5 hf8 hf9
  sl_exec (disch := first | exact hF | exact hL)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [sup_read_writes_whole]
    unfold logpTile numStep denStep
    sl_unfold_words
    dsimp only
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz, View.readCov_unit_zero (S := S1024x1) _ sup_hz]
  isplitl [H7]
  · iexists _; isplitr
    swap; · iexact H7
    ipureintro
    rw [sup_read_writes_whole]
    unfold validTile numStep
    sl_unfold_words
    dsimp only
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz, View.readCov_unit_zero (S := S1024x1) _ sup_hz]
  isplitl [H8]
  · iexists _; isplitr
    swap; · iexact H8
    ipureintro
    sl_unfold_words
    rw [sup_read_writes_whole]
    unfold numStep
    dsimp only
    simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz]
  iexists _; isplitr
  swap; · iexact H9
  ipureintro
  sl_unfold_words
  rw [sup_read_writes_whole]
  unfold denStep
  dsimp only
  simp only [View.readAt_eq_ld, View.ld_unit_zero (S := S1024x256) sup_hz, View.ld_unit_zero (S := S512x256) sup_hz,
      View.ld_unit_zero (S := S1024x128) sup_hz, View.ld_unit_zero (S := S512x128) sup_hz, View.ld_unit_zero (S := S1024x1) sup_hz]

end Cert.KernelIdeal.Fr

end
-- ==== Proof.KI.SupDat.lean ====
/-
  Region 1 as a pipeline at ANY entry contents `V`: grid 8 × 16, row tile i, column tile j. The two row
  accumulators live in scratch and are carried from point to point: reset at j = 0, added to at every point;
  at j = 15 the two outputs' blocks are stored from them. `accAt` is the accumulators' contents after the
  body at each position of the grid's walk; the region's invariant holds the scratch at `accAt` of the
  previous position; the proof data name every window's buffer after the body.
-/
import proofs.«421372_j86088324481780_1_alg».proof.Proof.KI.Sup

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators as memrefs. -/
abbrev scNum : Memref sig .tc .vmem S1024x1 .f32 := Memref.whole cc1_scratch0
abbrev scDen : Memref sig .tc .vmem S1024x1 .f32 := Memref.whole cc1_scratch1

/-- The accumulators (numerator, denominator) after the body at position `n` of the walk: at a position with
    j = 0 from the reset value, else from what the position before left. -/
def accAt (c : Dev nD) : (n : ℕ) → n < cfg1.N → Vec F S1024x1 .f32 × Vec F S1024x1 .f32
  | 0, hn => (numStep (grid1.coords ⟨0, hn⟩) (iblk1 V c 0 ⟨0, hn⟩) (iblk1 V c 1 ⟨0, hn⟩) (iblk1 V c 2 ⟨0, hn⟩) (iblk1 V c 3 ⟨0, hn⟩) zeroAcc,
              denStep (grid1.coords ⟨0, hn⟩) (iblk1 V c 0 ⟨0, hn⟩) (iblk1 V c 1 ⟨0, hn⟩) zeroAcc)
  | n + 1, hn =>
    if (n + 1) % 16 = 0 then
      (numStep (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) zeroAcc,
       denStep (grid1.coords ⟨n + 1, hn⟩) (iblk1 V c 0 ⟨n + 1, hn⟩) (iblk1 V c 1 ⟨n + 1, hn⟩) zeroAcc)
    else
      (numStep (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn)).1,
       denStep (grid1.coords ⟨n + 1, hn⟩) (iblk1 V c 0 ⟨n + 1, hn⟩) (iblk1 V c 1 ⟨n + 1, hn⟩) (accAt c n (Nat.lt_of_succ_lt hn)).2)

theorem accAt_reset (c : Dev nD) (t : Fin cfg1.N) (h : t.val % 16 = 0) :
    accAt V c t.val t.isLt = (numStep (grid1.coords t) (iblk1 V c 0 t) (iblk1 V c 1 t) (iblk1 V c 2 t) (iblk1 V c 3 t) zeroAcc,
      denStep (grid1.coords t) (iblk1 V c 0 t) (iblk1 V c 1 t) zeroAcc) := by
  obtain ⟨n, hn⟩ := t
  cases n with
  | zero => rfl
  | succ n => exact (if_pos h).trans rfl

theorem accAt_step (c : Dev nD) (t : Fin cfg1.N) (h : t.val % 16 ≠ 0) :
    accAt V c t.val t.isLt = (numStep (grid1.coords t) (iblk1 V c 0 t) (iblk1 V c 1 t) (iblk1 V c 2 t) (iblk1 V c 3 t) (accAt V c (t.val - 1) (Nat.lt_of_le_of_lt (Nat.sub_le _ _) t.isLt)).1,
      denStep (grid1.coords t) (iblk1 V c 0 t) (iblk1 V c 1 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The scoped buffers of the core that are neither a staging buffer of this pipeline nor an accumulator:
    region 0's four staging buffers, each at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before position `n`: before the first the class's (every scratch at anything); afterwards
    the accumulators at what the position before left, the other scoped buffers at anything, the generator register
    at some state. -/
def PhiS (c : Dev nD) : (n : ℕ) → n ≤ cfg1.N → sProp 𝕄
  | 0, _ => Pipeline.ΦA spec1 c
  | n + 1, hn => iprop(otherScoped c ∗ owns (c : Thread nD τ) scNum fullShare (accAt V c n hn).1
      ∗ owns (c : Thread nD τ) scDen fullShare (accAt V c n hn).2 ∗ (∃ r, prngReg c r))

/-- The share each input window holds of its array: the two windows on the normalised features halve it, and so do
    the two on the one-hot table. -/
def qshare : Fin cfg1.W → PosShare TreeShare
  | ⟨0, _⟩ => fullShare.left
  | ⟨1, _⟩ => fullShare.right
  | ⟨2, _⟩ => fullShare.left
  | ⟨3, _⟩ => fullShare.right
  | _ => fullShare

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => logpTile (accAt V c t.val t.isLt).1 (accAt V c t.val t.isLt).2
    | ⟨5, _⟩ => validTile (accAt V c t.val t.isLt).1
  Φ t := PhiS V c t.val (Nat.le_of_lt_succ t.isLt)
  q := qshare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = logpTile (accAt V c t.val t.isLt).1 (accAt V c t.val t.isLt).2 := by dsimp only [dat1]
theorem after1_5 (c : Dev nD) (t : Fin cfg1.N) : (dat1 V c).after 5 t = validTile (accAt V c t.val t.isLt).1 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-! ## The invariant, position by position -/

theorem PhiS_zero (c : Dev nD) (n : ℕ) (h : n ≤ cfg1.N) (hz : n = 0) : PhiS V c n h = Pipeline.ΦA spec1 c := by
  subst hz; rfl

/-- After position `n`: the accumulators at what the body left there. -/
theorem PhiS_succ (c : Dev nD) (n : ℕ) (hn : n < cfg1.N) :
    PhiS V c (n + 1) hn = iprop(otherScoped c ∗ owns (c : Thread nD τ) scNum fullShare (accAt V c n hn).1
      ∗ owns (c : Thread nD τ) scDen fullShare (accAt V c n hn).2 ∗ (∃ r, prngReg c r)) := rfl

/-- Before a position that is not the first: the accumulators at what the position before left. -/
theorem PhiS_pos (c : Dev nD) (n : ℕ) (h : n ≤ cfg1.N) (hz : n ≠ 0) :
    PhiS V c n h = iprop(otherScoped c ∗ owns (c : Thread nD τ) scNum fullShare (accAt V c (n - 1) (by omega)).1
      ∗ owns (c : Thread nD τ) scDen fullShare (accAt V c (n - 1) (by omega)).2 ∗ (∃ r, prngReg c r)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- The class invariant with the two accumulators as memrefs owned at some contents: the scoped buffers that are no
    staging buffer of this pipeline are region 0's four staging buffers and the two accumulators. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scNum fullShare d) ∗ (∃ d, owns (c : Thread nD τ) scDen fullShare d))
        ∗ (∃ r, prngReg c r)) := by
  unfold Pipeline.ΦA; rw [scopedRest1_eq]; simp only [scNum, scDen, owns_whole]; try rfl

/-! ## Where the two outputs are idle, and where they are written back -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last column tile the two outputs are idle, -/
theorem idleAt1_4 : ∀ t : Fin cfg1.N, t.val % 16 ≠ 15 → cfg1.idle 4 (grid1.coords t) = true :=
  (by decide +kernel : ∀ t : Fin grid1.N, t.val % 16 ≠ 15 → idle1 4 (grid1.coords t) = true)
theorem idleAt1_5 : ∀ t : Fin cfg1.N, t.val % 16 ≠ 15 → cfg1.idle 5 (grid1.coords t) = true :=
  (by decide +kernel : ∀ t : Fin grid1.N, t.val % 16 ≠ 15 → idle1 5 (grid1.coords t) = true)
/-- and not written back; -/
theorem noFlush1_4 (t : Fin cfg1.N) (h : t.val % 16 ≠ 15) : (cfg1.win 4).flush t = false :=
  Bool.eq_false_iff.mpr fun hf => h ((flush1_4 t).mp hf)
theorem noFlush1_5 (t : Fin cfg1.N) (h : t.val % 16 ≠ 15) : (cfg1.win 5).flush t = false :=
  Bool.eq_false_iff.mpr fun hf => h ((flush1_5 t).mp hf)
/-- on it they are live. -/
theorem liveAt1_4 : ∀ t : Fin cfg1.N, t.val % 16 = 15 → cfg1.idle 4 (grid1.coords t) = false :=
  (by decide +kernel : ∀ t : Fin grid1.N, t.val % 16 = 15 → idle1 4 (grid1.coords t) = false)
theorem liveAt1_5 : ∀ t : Fin cfg1.N, t.val % 16 = 15 → cfg1.idle 5 (grid1.coords t) = false :=
  (by decide +kernel : ∀ t : Fin grid1.N, t.val % 16 = 15 → idle1 5 (grid1.coords t) = false)

/-! ## What the body finds in the four inputs' buffers -/

/-- Each input's current staging buffer holds its block at every point, fetched there or not: where it is not fetched
    the block index has not moved, and the body leaves an input's block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- Each window's current staging memref at point `t`, spelled as the pipeline passes it to the body, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)

/-! ## The body obligation, at a generic point -/

/-- What the body is called with at point `t`: the invariant, what the core owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- The four inputs are live everywhere: the body leaves each buffer at its block. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) : (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

set_option maxHeartbeats 4000000 in
/-- A point with j = 0: the accumulators are handed over at anything (the class invariant's at the very first point,
    the position before's afterwards) and come back at the reset value plus this tile; the outputs' buffers are
    idle and go back as found. -/
theorem sound_first1 (c : Dev nD) (t : Fin cfg1.N) (h0 : t.val % 16 = 0) :
    bodyPre1 V c t ⊢ wp frame (wpE (defs₀ (F := F)) Variants.none c none) Set.univ (bodyAt1 t) (fun _ => bodyPost1 V c t) := by
  have h15 : t.val % 16 ≠ 15 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  rw [Dat.leavesExact_idle (dat1 V c) 4 t (idleAt1_4 t h15) (noFlush1_4 t h15)]
  rw [Dat.leavesExact_idle (dat1 V c) 5 t (idleAt1_5 t h15) (noFlush1_5 t h15)]
  rw [accAt_reset V c t h0]
  dsimp only
  by_cases hz : t.val = 0
  · rw [PhiS_castSucc V c t, PhiS_zero V c _ _ hz, PhiA1_eq]
    iintro ⟨⟨⟨A0, A1, A2, A3, S0, S1⟩, Hg⟩, Ho, ⟨%d0, H0⟩, ⟨%d1, H1⟩, ⟨%d2, H2⟩, ⟨%d3, H3⟩, ⟨%d4, H4⟩, ⟨%d5, H5⟩⟩
    iapply (sup_first c Set.univ (grid1.coords t) ((hcondFirst t).mpr h0) (fun h => h15 ((hcondLast t).mp h))
      (ms1_0 t) (hs1_0 t) (ms1_1 t) (hs1_1 t) (ms1_2 t) (hs1_2 t) (ms1_3 t) (hs1_3 t) (ms1_4 t) (hs1_4 t) (ms1_5 t) (hs1_5 t)
      scNum (Memref.isWhole_whole _) scDen (Memref.isWhole_whole _)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [S0]; · iexact S0
    isplitl [S1]; · iexact S1
    iintro ⟨H0, H1, H2, H3, S0, S1⟩
    isplitl [A0 A1 A2 A3 S0 S1 Hg]
    · unfold otherScoped
      isplitl [A0 A1 A2 A3]
      · isplitl [A0]; · iexact A0
        isplitl [A1]; · iexact A1
        isplitl [A2]; · iexact A2
        iexact A3
      isplitl [S0]; · iexact S0
      isplitl [S1]; · iexact S1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS_castSucc V c t, PhiS_pos V c _ _ hz]
    iintro ⟨⟨Hoth, S0, S1, Hg⟩, Ho, ⟨%d0, H0⟩, ⟨%d1, H1⟩, ⟨%d2, H2⟩, ⟨%d3, H3⟩, ⟨%d4, H4⟩, ⟨%d5, H5⟩⟩
    iapply (sup_first c Set.univ (grid1.coords t) ((hcondFirst t).mpr h0) (fun h => h15 ((hcondLast t).mp h))
      (ms1_0 t) (hs1_0 t) (ms1_1 t) (hs1_1 t) (ms1_2 t) (hs1_2 t) (ms1_3 t) (hs1_3 t) (ms1_4 t) (hs1_4 t) (ms1_5 t) (hs1_5 t)
      scNum (Memref.isWhole_whole _) scDen (Memref.isWhole_whole _)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [S0]; · iexists _; iexact S0
    isplitl [S1]; · iexists _; iexact S1
    iintro ⟨H0, H1, H2, H3, S0, S1⟩
    isplitl [Hoth S0 S1 Hg]
    · isplitl [Hoth]; · iexact Hoth
      isplitl [S0]; · iexact S0
      isplitl [S1]; · iexact S1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4000000 in
/-- A point with 0 < j < 15: the accumulators are handed over at what the position before left and come back with this
    tile added; the outputs' buffers are idle and go back as found. -/
theorem sound_mid1 (c : Dev nD) (t : Fin cfg1.N) (h0 : t.val % 16 ≠ 0) (h15 : t.val % 16 ≠ 15) :
    bodyPre1 V c t ⊢ wp frame (wpE (defs₀ (F := F)) Variants.none c none) Set.univ (bodyAt1 t) (fun _ => bodyPost1 V c t) := by
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  rw [Dat.leavesExact_idle (dat1 V c) 4 t (idleAt1_4 t h15) (noFlush1_4 t h15)]
  rw [Dat.leavesExact_idle (dat1 V c) 5 t (idleAt1_5 t h15) (noFlush1_5 t h15)]
  rw [accAt_step V c t h0]
  dsimp only
  rw [PhiS_castSucc V c t, PhiS_pos V c _ _ hz]
  iintro ⟨⟨Hoth, S0, S1, Hg⟩, Ho, ⟨%d0, H0⟩, ⟨%d1, H1⟩, ⟨%d2, H2⟩, ⟨%d3, H3⟩, ⟨%d4, H4⟩, ⟨%d5, H5⟩⟩
  iapply (sup_mid c Set.univ (grid1.coords t) (fun h => h0 ((hcondFirst t).mp h)) (fun h => h15 ((hcondLast t).mp h))
    (ms1_0 t) (hs1_0 t) (ms1_1 t) (hs1_1 t) (ms1_2 t) (hs1_2 t) (ms1_3 t) (hs1_3 t) (ms1_4 t) (hs1_4 t) (ms1_5 t) (hs1_5 t)
    scNum (Memref.isWhole_whole _) scDen (Memref.isWhole_whole _)
    (iblk1 V c 0 t) (iblk1 V c 1 t) (iblk1 V c 2 t) (iblk1 V c 3 t)
    (accAt V c (t.val - 1) (Nat.lt_of_le_of_lt (Nat.sub_le _ _) t.isLt)).1
    (accAt V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [S0]; · iexact S0
  isplitl [S1]; · iexact S1
  iintro ⟨H0, H1, H2, H3, S0, S1⟩
  isplitl [Hoth S0 S1 Hg]
  · isplitl [Hoth]; · iexact Hoth
    isplitl [S0]; · iexact S0
    isplitl [S1]; · iexact S1
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4000000 in
/-- A point with j = 15: the accumulators come back with this tile added, and both outputs' buffers, live here and
    written back, hold the row values computed from the final accumulators. -/
theorem sound_last1 (c : Dev nD) (t : Fin cfg1.N) (h15 : t.val % 16 = 15) :
    bodyPre1 V c t ⊢ wp frame (wpE (defs₀ (F := F)) Variants.none c none) Set.univ (bodyAt1 t) (fun _ => bodyPost1 V c t) := by
  have h0 : t.val % 16 ≠ 0 := by omega
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  rw [show (dat1 V c).leavesExact 4 t = owns (c : Thread nD τ) (ms1_4 t) fullShare ((dat1 V c).after 4 t) from by
    unfold Dat.leavesExact; rw [liveAt1_4 t h15], after1_4]
  rw [show (dat1 V c).leavesExact 5 t = owns (c : Thread nD τ) (ms1_5 t) fullShare ((dat1 V c).after 5 t) from by
    unfold Dat.leavesExact; rw [liveAt1_5 t h15], after1_5]
  rw [accAt_step V c t h0]
  dsimp only
  rw [PhiS_castSucc V c t, PhiS_pos V c _ _ hz]
  iintro ⟨⟨Hoth, S0, S1, Hg⟩, Ho, ⟨%d0, H0⟩, ⟨%d1, H1⟩, ⟨%d2, H2⟩, ⟨%d3, H3⟩, ⟨%d4, H4⟩, ⟨%d5, H5⟩⟩
  iapply (sup_last c Set.univ (grid1.coords t) (fun h => h0 ((hcondFirst t).mp h)) ((hcondLast t).mpr h15)
    (ms1_0 t) (hs1_0 t) (ms1_1 t) (hs1_1 t) (ms1_2 t) (hs1_2 t) (ms1_3 t) (hs1_3 t) (ms1_4 t) (hs1_4 t) (ms1_5 t) (hs1_5 t)
    scNum (Memref.isWhole_whole _) scDen (Memref.isWhole_whole _)
    (iblk1 V c 0 t) (iblk1 V c 1 t) (iblk1 V c 2 t) (iblk1 V c 3 t)
    (accAt V c (t.val - 1) (Nat.lt_of_le_of_lt (Nat.sub_le _ _) t.isLt)).1
    (accAt V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexact S0
  isplitl [S1]; · iexact S1
  iintro ⟨H0, H1, H2, H3, H4, H5, S0, S1⟩
  isplitl [Hoth S0 S1 Hg]
  · isplitl [Hoth]; · iexact Hoth
    isplitl [S0]; · iexact S0
    isplitl [S1]; · iexact S1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point: by the column tile it is one of the three cases. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_first1 V c t h0
  · by_cases h15 : t.val % 16 = 15
    · exact sound_last1 V c t h15
    · exact sound_mid1 V c t h0 h15

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any position but the first the invariant gives the class invariant back: the accumulators' named contents
    are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold otherScoped
  iintro ⟨⟨A0, A1, A2, A3⟩, S0, S1, Hg⟩
  isplitr [Hg]
  · isplitl [A0]; · iexact A0
    isplitl [A1]; · iexact A1
    isplitl [A2]; · iexact A2
    isplitl [A3]; · iexact A3
    isplitl [S0]; · iexists _; iexact S0
    iexists _; iexact S1
  iexact Hg

/-- After the last point the invariant gives the class invariant back (the accumulators' contents forgotten). -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Fr

end
-- ==== Proof.KI.Run.lean ====
/-
  The whole program as a chain of thread states: the unscoped buffers start at the launch memory; region 0
  leaves the normalised features in its output array; three host stretches build the one-hot table; region 1
  reads both (each through two windows, which share the array half and half) and leaves the rows' log-ratios and
  validity flags; four host stretches reduce them to the scalar. Every buffer's contents at every boundary is a
  fold from the launch memory, so the run ends with the arguments as launched and the result at the fold's value.
-/
import proofs.«421372_j86088324481780_1_alg».proof.Proof.KI.Norm
import proofs.«421372_j86088324481780_1_alg».proof.Proof.KI.SupDat
import proofs.«421372_j86088324481780_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave, and the buffers' contents at the boundaries -/

/-- The launch contents, read at the TensorCore's references: what region 0 is entered from. -/
abbrev Vin (c : Dev nD) (b : Ref sig .tc) : Buf (Elt F) ((c : Thread nD τ).loc b) := m ((c : Thread nD τ).loc b)

/-- What region 0 leaves in the normalised-features array. -/
def featOut (c : Dev nD) : Buf (Elt F) ((c : Thread nD τ).loc main_v0) := (dat0 (Vin m) c).arrAt 1 cfg0.N

/-- The regions' outputs up to region 0's: only `main_v0` after item 0 is read. -/
def outsA : Outs (F := F) := fun _ r c => if h : r = main_v0 then h ▸ featOut m c else m ((c : Thread nD τ).loc r)

theorem outsA_v0 (J : ℕ) (c : Dev nD) : outsA m J main_v0 c = featOut m c := by
  unfold outsA; rw [dif_pos rfl]

/-- The contents region 1 is entered from. -/
abbrev Vmid (c : Dev nD) (b : Ref sig .tc) : Buf (Elt F) ((c : Thread nD τ).loc b) := V4 m (outsA m) c b

/-- What region 1 leaves in its two outputs. -/
def logpOut (c : Dev nD) : Buf (Elt F) ((c : Thread nD τ).loc main_v3_0) := (dat1 (Vmid m) c).arrAt 4 cfg1.N
def validOut (c : Dev nD) : Buf (Elt F) ((c : Thread nD τ).loc main_v3_1) := (dat1 (Vmid m) c).arrAt 5 cfg1.N

/-- The regions' outputs. -/
def outs : Outs (F := F) := fun J r c =>
  if J = 5 then
    if h : r = main_v3_0 then h ▸ logpOut m c
    else if h' : r = main_v3_1 then h' ▸ validOut m c
    else m ((c : Thread nD τ).loc r)
  else outsA m J r c

theorem outs_v0 (c : Dev nD) : outs m 1 main_v0 c = featOut m c := by
  unfold outs; rw [if_neg (by decide), outsA_v0]
theorem outs_logp (c : Dev nD) : outs m 5 main_v3_0 c = logpOut m c := by
  unfold outs; rw [if_pos rfl, dif_pos rfl]
theorem outs_valid (c : Dev nD) : outs m 5 main_v3_1 c = validOut m c := by
  unfold outs; rw [if_pos rfl, dif_neg (by decide), dif_pos rfl]

/-- Region 1's entry contents do not depend on what region 1 leaves. -/
theorem V4_outs (c : Dev nD) : V4 m (outs m) c = V4 m (outsA m) c := by
  have h : outs m 1 main_v0 c = outsA m 1 main_v0 c := by rw [outs_v0, outsA_v0]
  show StableHlo.after hostOps1_2 (StableHlo.after hostOps1_1 (StableHlo.after hostOps1 (Function.update (V0 m c) main_v0 (outs m 1 main_v0 c)))) = _
  rw [h]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vin m) c
  | ⟨1, _⟩ => fun c => dat1 (Vmid m) c

abbrev 𝒱z : Variants := Variants.none
/-- No core owes another anything: no level is assigned. -/
abbrev Lz : GSem nD τ sig → Finset Unit := fun _ => ∅
abbrev lvz : GSem nD τ sig → Unit → ℕ := fun _ _ => 0
/-- Beside the buffers, through every item: the generator register at some state and the core owing nothing. -/
abbrev Rst (c : Dev nD) : sProp 𝕄 := iprop((∃ r, prngReg c r) ∗ ∃ W, owes (c : Thread nD τ) (0 : CellTallies nD τ sig Unit) W)

/-! ## Region 0 as a segment -/

theorem featOut_eq (c : Dev nD) (w : Fin cfg0.W) :
    (pdats m 0 c).arrAt w cfg0.N = V1 m (outs m) c (Pipeline.arrRef spec0 w) := by
  match w with
  | ⟨0, _⟩ =>
    refine ((dat0 (Vin m) c).arrAt_in 0 rfl _).trans ((A_eq0 (Vin m) c 0).trans ?_)
    exact (V1_of m (outs m) c main_arg0 (by decide)).symm
  | ⟨1, _⟩ =>
    show featOut m c = Function.update (V0 m c) main_v0 (outs m 1 main_v0 c) main_v0
    rw [Function.update_self, outs_v0]

set_option backward.isDefEq.respectTransparency.types false in
/-- Region 0 over the thread state: entered from every unscoped buffer at the launch contents, left with the
    output array at what the write-backs leave. -/
def reg0 : RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vin m) c).loose
  hwaits := Pipeline.hwaits_of_owed_zero _ _ _ _ Lz lvz 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [show unscopedBufs c (Vin m c) = StableHlo.held (c : Thread nD τ) (Pipeline.ucRefs τ sig) (V0 m c)
      from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (fun b => V1 m (outs m) c b) ((pdats m 0 c).arrAt · cfg0.N) (featOut_eq m c)
      (fun b hb => V1_of m (outs m) c b (fun hmem => hb (by
        rw [List.mem_singleton] at hmem; subst hmem
        exact Finset.mem_image.mpr ⟨1, Finset.mem_univ _, rfl⟩)))
    rw [show unscopedBufs c (fun b => V1 m (outs m) c b) = StableHlo.held (c : Thread nD τ) (Pipeline.ucRefs τ sig) (V1 m (outs m) c)
      from Pipeline.unscopedBufs_held c (V1 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment: its arrays are shared between windows -/

/-- The buffers behind region 1's six windows: four. -/
theorem arrImage1 : Finset.univ.image (Pipeline.arrRef spec1) = insert main_v0 (insert main_v2 (insert main_v3_0 {main_v3_1})) := by
  decide

/-- Those four buffers, each whole at the full share, one by one. -/
theorem arrBufs1_eq (c : Dev nD) (V : (b : Ref sig .tc) → Buf (Elt F) ((c : Thread nD τ).loc b)) :
    (Pipeline.arrBufs spec1 c V : sProp 𝕄)
      = iprop((((c : Thread nD τ).loc main_v0) ↦{fullShare} V main_v0) ∗ (((c : Thread nD τ).loc main_v2) ↦{fullShare} V main_v2)
          ∗ (((c : Thread nD τ).loc main_v3_0) ↦{fullShare} V main_v3_0) ∗ (((c : Thread nD τ).loc main_v3_1) ↦{fullShare} V main_v3_1)) := by
  unfold Pipeline.arrBufs
  rw [arrImage1, bigSep_insert (by decide), bigSep_insert (by decide), bigSep_insert (by decide), bigSep_singleton]
  rfl

/-- The pipeline's arrays at contents `G`, window by window: the two windows on the features hold its two halves, the
    two on the one-hot table its two halves, each output its array outright. -/
theorem arrays1_eq (c : Dev nD) (G : (w : Fin cfg1.W) → Buf (Elt F) ((cfg1.win w).arr.view.loc (c : Thread nD τ))) :
    ((pdats m 1 c).arrays G : sProp 𝕄)
      = iprop((((c : Thread nD τ).loc main_v0) ↦{fullShare.left} G 0) ∗ (((c : Thread nD τ).loc main_v0) ↦{fullShare.right} G 1)
          ∗ (((c : Thread nD τ).loc main_v2) ↦{fullShare.left} G 2) ∗ (((c : Thread nD τ).loc main_v2) ↦{fullShare.right} G 3)
          ∗ (((c : Thread nD τ).loc main_v3_0) ↦{fullShare} G 4) ∗ (((c : Thread nD τ).loc main_v3_1) ↦{fullShare} G 5)) := by
  unfold Dat.arrays
  rw [bigSep_W1]
  have e : ∀ w : Fin (cfgs 1).W, (((cfgs 1).win w).arr.view.set) = Finset.univ := fun w => (arr_whole1 w).set_eq_univ
  rw [e 0, e 1, e 2, e 3, e 4, e 5]
  rfl

/-- Region 1's arrays before any write-back are the entry contents of the buffers behind them. -/
theorem entry1_eq (c : Dev nD) (w : Fin cfg1.W) : (pdats m 1 c).arrAt w 0 = Vmid m c (Pipeline.arrRef spec1 w) := rfl

/-- What region 1's arrays hold at the exit, read in the next boundary's contents: the inputs as entered, each output
    at what its write-backs leave. -/
theorem exit1_eq (c : Dev nD) (w : Fin cfg1.W) :
    (pdats m 1 c).arrAt w cfg1.N = V5 m (outs m) c (Pipeline.arrRef spec1 w) := by
  have hin : ∀ b : Ref sig .tc, b ∉ ([main_v3_0, main_v3_1] : List (Ref sig .tc)) → V5 m (outs m) c b = Vmid m c b := fun b hb =>
    (V5_of m (outs m) c b hb).trans (congrFun (V4_outs m c) b)
  match w with
  | ⟨0, _⟩ => exact ((dat1 (Vmid m) c).arrAt_in 0 rfl _).trans ((A_eq1 (Vmid m) c 0).trans (hin main_v0 (by decide)).symm)
  | ⟨1, _⟩ => exact ((dat1 (Vmid m) c).arrAt_in 1 rfl _).trans ((A_eq1 (Vmid m) c 1).trans (hin main_v0 (by decide)).symm)
  | ⟨2, _⟩ => exact ((dat1 (Vmid m) c).arrAt_in 2 rfl _).trans ((A_eq1 (Vmid m) c 2).trans (hin main_v2 (by decide)).symm)
  | ⟨3, _⟩ => exact ((dat1 (Vmid m) c).arrAt_in 3 rfl _).trans ((A_eq1 (Vmid m) c 3).trans (hin main_v2 (by decide)).symm)
  | ⟨4, _⟩ =>
    show logpOut m c = Function.update (Function.update (V4 m (outs m) c) main_v3_0 (outs m 5 main_v3_0 c)) main_v3_1 (outs m 5 main_v3_1 c) main_v3_0
    rw [Function.update_of_ne (StableHlo.devRef_ne_of_ne (by decide) : (Proc.devRef .tc main_v3_0 : DevRef τ sig) ≠ Proc.devRef .tc main_v3_1),
      Function.update_self, outs_logp]
  | ⟨5, _⟩ =>
    show validOut m c = Function.update (Function.update (V4 m (outs m) c) main_v3_0 (outs m 5 main_v3_0 c)) main_v3_1 (outs m 5 main_v3_1 c) main_v3_1
    rw [Function.update_self, outs_valid]

/-- Off region 1's arrays the next boundary's contents are the entry contents. -/
theorem rest1_eq (c : Dev nD) (b : Ref sig .tc) (hb : b ∉ Finset.univ.image (Pipeline.arrRef spec1)) :
    V5 m (outs m) c b = Vmid m c b := by
  refine (V5_of m (outs m) c b fun hmem => hb ?_).trans (congrFun (V4_outs m c) b)
  rw [arrImage1]
  rcases List.mem_cons.mp hmem with h | hmem
  · subst h; decide
  · rw [List.mem_singleton] at hmem; subst hmem; decide

/-- The core's unscoped buffers at any contents: the four buffers behind region 1's windows, and the rest. -/
theorem unscoped1_eq (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- Beside the last buffers, the register and the core owing nothing regroup to the run's last thread state. -/
theorem lastStep (c : Dev nD) (W : Valuation τ sig (Elt F)) :
    iprop(StableHlo.held (c : Thread nD τ) (Pipeline.ucRefs τ sig) W ∗ Rst (F := F) c)
      ⊢ (iprop((StableHlo.held (c : Thread nD τ) (Pipeline.ucRefs τ sig) W ∗ ∃ r, prngReg c r)
          ∗ ∃ Wo, owes (c : Thread nD τ) (0 : CellTallies nD τ sig Unit) Wo) : sProp 𝕄) := by
  iintro ⟨Hh, Hp, HO⟩
  isplitl [Hh Hp]
  · isplitl [Hh]; · iexact Hh
    iexact Hp
  iexact HO

/-- ENTRY: the core's unscoped buffers at region 1's entry contents are its arrays — the features' and the table's
    full shares each dealt half and half to the two windows on it — and the rest. -/
theorem split1 (c : Dev nD) :
    (unscopedBufs c (Vmid m c) : sProp 𝕄)
      ⊢ iprop((pdats m 1 c).arrays ((pdats m 1 c).arrAt · 0) ∗ Pipeline.unscopedRest spec1 c (Vmid m c)) := by
  rw [unscoped1_eq c (Vmid m c), arrBufs1_eq, arrays1_eq]
  iintro ⟨⟨H0, H2, H30, H31⟩, Hrest⟩
  ihave H0' := (pointsTo_share (PosShare.mem_left_op_right fullShare)).1 $$ H0
  ihave H2' := (pointsTo_share (PosShare.mem_left_op_right fullShare)).1 $$ H2
  icases H0' with ⟨H0l, H0r⟩
  icases H2' with ⟨H2l, H2r⟩
  isplitr [Hrest]
  · isplitl [H0l]; · iexact H0l
    isplitl [H0r]; · iexact H0r
    isplitl [H2l]; · iexact H2l
    isplitl [H2r]; · iexact H2r
    isplitl [H30]; · iexact H30
    iexact H31
  · iexact Hrest

/-- EXIT: the arrays at their final contents — the halves joined again — and the rest are the core's unscoped buffers
    at the next boundary's contents. -/
theorem join1 (c : Dev nD) :
    iprop((pdats m 1 c).arrays ((pdats m 1 c).arrAt · cfg1.N) ∗ Pipeline.unscopedRest spec1 c (Vmid m c))
      ⊢ (unscopedBufs c (fun b => V5 m (outs m) c b) : sProp 𝕄) := by
  have hG : ((pdats m 1 c).arrAt · cfg1.N) = fun w => V5 m (outs m) c (Pipeline.arrRef spec1 w) := funext (exit1_eq m c)
  have hrest : (Pipeline.unscopedRest spec1 c (fun b => V5 m (outs m) c b) : sProp 𝕄) = Pipeline.unscopedRest spec1 c (Vmid m c) := by
    unfold Pipeline.unscopedRest
    exact bigSep_congr fun b hb => congrArg (fun f => (((c : Thread nD τ).loc b) ↦{fullShare} f : sProp 𝕄)) (rest1_eq m c b (Finset.mem_sdiff.mp hb).2)
  rw [unscoped1_eq c (fun b => V5 m (outs m) c b), arrBufs1_eq, hrest, hG, arrays1_eq]
  iintro ⟨⟨H0l, H0r, H2l, H2r, H30, H31⟩, Hrest⟩
  ihave H0 := (pointsTo_share (PosShare.mem_left_op_right fullShare)).2 $$ [H0l H0r]
  · isplitl [H0l]; · iexact H0l
    iexact H0r
  ihave H2 := (pointsTo_share (PosShare.mem_left_op_right fullShare)).2 $$ [H2l H2r]
  · isplitl [H2l]; · iexact H2l
    iexact H2r
  isplitr [Hrest]
  · isplitl [H0]; · iexact H0
    isplitl [H2]; · iexact H2
    isplitl [H30]; · iexact H30
    iexact H31
  · iexact Hrest

set_option backward.isDefEq.respectTransparency.types false in
/-- Region 1 over the thread state: entered from every unscoped buffer at the contents after the third host stretch,
    left with its two output arrays at what the write-backs leave. -/
def reg1 : RegionSeg (pcfgs (F := F)) adm (pdats m) () defs₀ 𝒱z Lz lvz 1 where
  win := winFacts₀1
  block_pos := block_pos1
  stage_whole := stage_whole1
  K := PEmpty
  osem k := k.elim
  ho := Pipeline.OwnSemFacts.none _
  hbody c := (body_obligation1 (Vmid m) c).loose
  hwaits := Pipeline.hwaits_of_owed_zero _ _ _ _ Lz lvz 1 fun _ _ => rfl
  pre c := iprop(StableHlo.held (c : Thread nD τ) (Pipeline.ucRefs τ sig) (V4 m (outs m) c) ∗ Rst c)
  post c := iprop(StableHlo.held (c : Thread nD τ) (Pipeline.ucRefs τ sig) (V5 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vmid m c)
  hentry c := by
    rw [Pipeline.ownSems0_none]
    have hsplit := split1 m c
    rw [show unscopedBufs c (Vmid m c) = StableHlo.held (c : Thread nD τ) (Pipeline.ucRefs τ sig) (V4 m (outs m) c)
      from by rw [V4_outs]; exact Pipeline.unscopedBufs_held c (V4 m (outsA m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vmid m) c)
    unfold Pipeline.ΦA
    iintro ⟨Hp, -, Hr⟩
    isplitl [Hr]; · iexact Hr
    iexact Hp
  hout c := by
    rw [Pipeline.ownSems0_none]
    refine (hout1 (Vmid m) c).trans ?_
    unfold Pipeline.ΦA
    iintro ⟨Hr, Hp⟩
    isplitl [Hp]; · iexact Hp
    isplitr; · iempintro
    iexact Hr
  hexit c := by
    have hjoin := join1 m c
    rw [show unscopedBufs c (fun b => V5 m (outs m) c b) = StableHlo.held (c : Thread nD τ) (Pipeline.ucRefs τ sig) (V5 m (outs m) c)
      from Pipeline.unscopedBufs_held c (V5 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting; the result buffer ends at the fold's value and both arguments end as launched. -/
theorem run_main : θ_run defs (onTc (τ := τ) (main (F := F))) ⟨m, fun _ => 0, ρ⟩ (fun r => ∀ c : Dev nD,
      r.2.mem ((c.tc : Thread nD τ).loc main_v15) = V9 m (outs m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj emb₁ defs₀ 𝒱z Lz lvz m ρ main
    (segs m (outs m) 𝒱z Lz lvz (fun _ c => Rst c) () (pdats m) (reg0 m) (reg1 m))
    (fun c Q => by
      rewrite [main_chain c, Seg.run_eq_chain,
        show (segs m (outs m) 𝒱z Lz lvz (fun _ c => Rst c) () (pdats m) (reg0 m) (reg1 m) c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (V9 m (outs m) c) ∗ ∃ r, prngReg c r))
    (hch := fun c => ⟨.rfl, .rfl, .rfl, .rfl, .rfl, .rfl, .rfl, .rfl, .rfl, lastStep c (V9 m (outs m) c)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m) c) s')
      isplitl [Hh] <;> iassumption)
    (hQ := fun s h c =>
      ⟨h c _ (mem_uc main_v15 (by decide)),
       (h c _ (mem_uc main_arg0 (by decide))).trans (V9_main_arg0 m (outs m) c),
       (h c _ (mem_uc main_arg1 (by decide))).trans (V9_main_arg1 m (outs m) c)⟩)

/-- THE FRAME: the program runs to the end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Fr

end
-- ==== Proof.KI.NormVal.lean ====
/-
  Region 0 at the ideal values, as ONE array: after the region, the normalised-features array holds, at row r
  and lane d, the entry x[r,d] divided by max(sqrt(∑_d' x[r,d']²), ε) of the features array as the region found
  it. Each grid point writes a block of 1024 whole rows, and a row's norm only reads that row, so block t of the
  result is block t of this one function of the input; the eight blocks cover the array.
-/
import proofs.«421372_j86088324481780_1_alg».proof.Proof.KI.Norm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! ## The specification -/

/-- Row r, lane d of the normalised array: the entry over the larger of its row's Euclidean norm and ε. -/
def normAt (X : S8192x256.Idx → EReal) (r : Fin 8192) (d : Fin 256) : EReal :=
  Ideal.div (X (ix2 r d))
    (max (Ideal.sqrt (∑ d' : Fin 256, X (ix2 r d') * X (ix2 r d'))) (Ideal.ofBits .f32 0x2B8CBCCC#32))

/-- The normalised array, through an index's two coordinates. -/
def normArr (X : S8192x256.Idx → EReal) : S8192x256.Idx → EReal := fun j => normAt X (j 0) (j 1)

theorem normArr_apply (X : S8192x256.Idx → EReal) (r : Fin 8192) (d : Fin 256) :
    normArr X (ix2 r d) = Ideal.div (X (ix2 r d))
      (max (Ideal.sqrt (∑ d' : Fin 256, X (ix2 r d') * X (ix2 r d'))) (Ideal.ofBits .f32 0x2B8CBCCC#32)) := rfl

/-! ## Layout operations of the payload, read at an index -/

/-- A vector cast to a column reads, at (i, u), the vector at i. -/
theorem column_of_vector {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the lanes reads, at (p, c), the column at p. -/
theorem lanes_of_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a tile at row p is the sum over the 256 lanes of that row. -/
theorem lane_sum (x1 : FVec Ideal S1024x256 .f32) (p : Fin 1024) :
    multiReduction (F := Ideal) .add [1] S1024 x1 0x00000000#32 reduces_S1024x256_S1024 (.inl rfl) rfl (ix1 p)
      = ∑ d' : Fin 256, x1 (ix2 p d') := by
  refine (Ideal.multiReduction_add_single x1 0x00000000#32 reduces_S1024x256_S1024 (.inl rfl) rfl (ix1 p)).trans ?_
  refine Finset.sum_congr rfl fun k _ => congrArg x1 (funext fun a => Fin.ext ?_)
  match a with
  | ⟨0, _⟩ => rfl
  | ⟨1, _⟩ => rfl

/-! ## The payload at an index -/

/-- The body's payload at row p, lane q of a tile: the entry over the larger of the row's norm and ε. The
    change of format at the end is the identity on the extended reals. -/
theorem pay_at (x0 : Vec Ideal S1024x256 .f32) (p : Fin 1024) (q : Fin 256) :
    k0_pay1 (F := Ideal) x0 (ix2 p q)
      = Ideal.div (x0 (ix2 p q))
          (max (Ideal.sqrt (∑ d' : Fin 256, x0 (ix2 p d') * x0 (ix2 p d'))) (Ideal.ofBits .f32 0x2B8CBCCC#32)) := by
  unfold k0_pay1
  show Ideal.div (x0 (ix2 p q)) (broadcastTo S1024x256 (maximumf (sqrt (shapeCast S1024x1 (multiReduction (F := Ideal) .add [1] S1024 (mulf x0 x0) 0x00000000#32 reduces_S1024x256_S1024 (.inl rfl) rfl) shapeCasts_S1024_S1024x1)) (broadcast S1024x1 (Scalar.ofBits .f32 0x2B8CBCCC#32))) broadcasts_S1024x1_S1024x256 (ix2 p q)) = _
  refine congrArg (Ideal.div (x0 (ix2 p q))) ?_
  refine (lanes_of_column _ broadcasts_S1024x1_S1024x256 p q).trans ?_
  show max (Ideal.sqrt (shapeCast S1024x1 (multiReduction (F := Ideal) .add [1] S1024 (mulf x0 x0) 0x00000000#32 reduces_S1024x256_S1024 (.inl rfl) rfl) shapeCasts_S1024_S1024x1 (ix2 p (0 : Fin 1)))) (Ideal.ofBits .f32 0x2B8CBCCC#32) = _
  refine congrArg (fun z => max (Ideal.sqrt z) (Ideal.ofBits .f32 0x2B8CBCCC#32)) ?_
  refine (column_of_vector _ shapeCasts_S1024_S1024x1 p (0 : Fin 1)).trans ?_
  exact lane_sum (mulf x0 x0) p

/-- A tile that is rows 1024·b … 1024·b + 1023 of an array X carries, after the payload, the same rows of the
    normalised X: a row's norm reads only that row, which lies whole in the tile. -/
theorem tile_norm (X : S8192x256.Idx → EReal) (x0 : Vec Ideal S1024x256 .f32) (b : ℕ) (hb : b < 8)
    (hx : ∀ (p : Fin 1024) (q : Fin 256), x0 (ix2 p q) = X (ix2 (⟨b * 1024 + p.val, by omega⟩ : Fin 8192) q))
    (p : Fin 1024) (q : Fin 256) :
    k0_pay1 (F := Ideal) x0 (ix2 p q) = normArr X (ix2 (⟨b * 1024 + p.val, by omega⟩ : Fin 8192) q) := by
  rw [pay_at, normArr_apply]
  simp only [hx]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Both windows' block index at point t is (t, 0): decided over the eight points. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the normalised input array. -/
theorem flushed_norm (c : Dev nD) (t : Fin cfg0.N) :
    (dat0 (F := Ideal) V c).flushed 1 t
      = ((cfg0.win 1).blk t).view.read (Elt Ideal) (normArr (V c main_arg0)) := by
  show (cfg0.win 1).cut (grid0.coords t) ((dat0 (F := Ideal) V c).after 1 t) = _
  rw [after0_1]
  unfold normTile
  rw [View.canon_unit_zero zero_offsets]
  simp only [View.ld_unit_zero (S := S1024x256) zero_offsets]
  obtain ⟨e0, e1, e2, e3⟩ := block_index t
  have hN : cfg0.N = 8 := N_0
  have ht : t.val < 8 := by have := t.isLt; omega
  funext j
  have hj0 : (j 0).val < 1024 := (j 0).isLt
  have hj1 : (j 1).val < 256 := (j 1).isLt
  have ej : j = ix2 (⟨(j 0).val, hj0⟩ : Fin 1024) (⟨(j 1).val, hj1⟩ : Fin 256) := by
    funext a
    match a with
    | ⟨0, _⟩ => rfl
    | ⟨1, _⟩ => rfl
  refine (congrArg (k0_pay1 (F := Ideal) (iblk0 V c 0 t)) ej).trans ?_
  refine (tile_norm (V c main_arg0) (iblk0 V c 0 t) t.val ht ?_ ⟨(j 0).val, hj0⟩ ⟨(j 1).val, hj1⟩).trans ?_
  · intro p q
    show V c main_arg0 (((cfg0.win 0).blk t).view.emb (ix2 p q)) = _
    refine congrArg (V c main_arg0) (funext fun a => Fin.ext ?_)
    match a with
    | ⟨0, _⟩ => show win0_0.index t (0 : Fin 2) * 1024 + 1 * p.val = t.val * 1024 + p.val; rw [e0]; omega
    | ⟨1, _⟩ => show win0_0.index t (1 : Fin 2) * 256 + 1 * q.val = q.val; rw [e1]; omega
  · show normArr (V c main_arg0) _ = normArr (V c main_arg0) (((cfg0.win 1).blk t).view.emb j)
    refine congrArg (normArr (V c main_arg0)) (funext fun a => Fin.ext ?_)
    match a with
    | ⟨0, _⟩ => show t.val * 1024 + (j 0).val = win0_1.index t (0 : Fin 2) * 1024 + 1 * (j 0).val; rw [e2]; omega
    | ⟨1, _⟩ => show (j 1).val = win0_1.index t (1 : Fin 2) * 256 + 1 * (j 1).val; rw [e3]; omega

/-- An index of the array lies in point t's block iff each coordinate lies in the block's range on its axis. -/
theorem mem_block (t : Fin cfg0.N) (i : S8192x256.Idx) :
    i ∈ ((cfg0.win 1).blk t).view.set ↔ ∀ a : Fin 2, win0_1.index t a * S1024x256.size a ≤ (i a).val
      ∧ (i a).val < win0_1.index t a * S1024x256.size a + S1024x256.size a := by
  show i ∈ ((View.whole main_v0).slice (win0_1.rect t)).set ↔ _
  rw [View.set_slice_whole, Rect.mem_set_unit]
  exact Iff.rfl

/-- Row r lies in the block of point r / 1024, which is written back like every point. -/
theorem covered (i : S8192x256.Idx) :
    ∃ t : Fin cfg0.N, (cfg0.win 1).flush t = true ∧ i ∈ ((cfg0.win 1).blk t).view.set := by
  have hi0 : (i 0).val < 8192 := (i 0).isLt
  have hi1 : (i 1).val < 256 := (i 1).isLt
  have hN : cfg0.N = 8 := N_0
  have hlt : (i 0).val / 1024 < cfg0.N := by omega
  obtain ⟨e0, e1, e2, e3⟩ := block_index ⟨(i 0).val / 1024, hlt⟩
  refine ⟨⟨(i 0).val / 1024, hlt⟩, flush0_1 _, ?_⟩
  rw [mem_block]
  intro a
  match a with
  | ⟨0, _⟩ =>
    show win0_1.index ⟨(i 0).val / 1024, hlt⟩ (0 : Fin 2) * 1024 ≤ (i 0).val
      ∧ (i 0).val < win0_1.index ⟨(i 0).val / 1024, hlt⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, hlt⟩ (1 : Fin 2) * 256 ≤ (i 1).val
      ∧ (i 1).val < win0_1.index ⟨(i 0).val / 1024, hlt⟩ (1 : Fin 2) * 256 + 256
    rw [e3]; omega

/-- After the region the output array is the normalised input array. -/
theorem norm_final (c : Dev nD) : (dat0 (F := Ideal) V c).arrAt 1 cfg0.N = normArr (V c main_arg0) :=
  (dat0 (F := Ideal) V c).arrAt_eq_of_cover 1 (normArr (V c main_arg0)) (fun t _ => flushed_norm V c t) covered

end Cert.KernelIdeal.Fr

end
-- ==== Proof.Val.Spec.lean ====
/-
  The supervised-contrastive loss as ONE function of the feature matrix and the label vector, over the
  extended reals: rows are divided by max(‖row‖₂, ε); the pairwise similarities s(r, c) are the rows' inner
  products; e(r, c) = exp(s(r, c) · κ); the numerator of row r sums e(r, c) over the columns c ≠ r of r's class,
  the denominator over all c ≠ r; a row is valid when its numerator is positive; its log-ratio is
  log(numerator / denominator); the loss is minus the mean log-ratio over the valid rows (0 if there is none).
  Both programs are proved to compute `loss`.
-/
import Idealize.ShloMosaic.PureOps.Ideal
import Mathlib.Algebra.BigOperators.Group.Finset.Basic

noncomputable section

namespace Cert.Val

open Idealize.ShloMosaic

/-- The inverse temperature: exactly one over the reference's divisor. -/
def kap : EReal := ((134217728 / 9395241 : ℝ) : EReal)
/-- The norm's lower clamp. -/
def epsN : EReal := Ideal.ofBits .f32 0x2B8CBCCC#32

/-- A row's clamped Euclidean norm. -/
def rowNorm (X : Fin 8192 → Fin 256 → EReal) (r : Fin 8192) : EReal :=
  max (Ideal.sqrt (∑ d : Fin 256, X r d * X r d)) epsN
/-- The normalised features. -/
def nrm (X : Fin 8192 → Fin 256 → EReal) (r : Fin 8192) (d : Fin 256) : EReal := Ideal.div (X r d) (rowNorm X r)
/-- The similarity of two rows of (normalised) features. -/
def simv (Y : Fin 8192 → Fin 256 → EReal) (r c : Fin 8192) : EReal := ∑ d : Fin 256, Y r d * Y c d
/-- exp of the similarity over the temperature. -/
def expv (Y : Fin 8192 → Fin 256 → EReal) (r c : Fin 8192) : EReal := Ideal.exp (simv Y r c * kap)
/-- One off the diagonal, zero on it. -/
def offd (r c : Fin 8192) : EReal := 1 - (if r = c then 1 else 0)
/-- Row numerator for a same-class indicator `S`. -/
def numRow (Y : Fin 8192 → Fin 256 → EReal) (S : Fin 8192 → Fin 8192 → EReal) (r : Fin 8192) : EReal :=
  ∑ c : Fin 8192, expv Y r c * (S r c * offd r c)
/-- Row denominator. -/
def denRow (Y : Fin 8192 → Fin 256 → EReal) (r : Fin 8192) : EReal :=
  ∑ c : Fin 8192, expv Y r c * offd r c
/-- A row's log-ratio from its numerator and denominator (numerator replaced by one when the row is invalid). -/
def logpOf (n d : EReal) : EReal := Ideal.log (Ideal.div (if 0 < n then n else 1) d)
/-- The loss from the rows' numerators and denominators. -/
def lossOf (n d : Fin 8192 → EReal) : EReal :=
  if 0 < (∑ r : Fin 8192, (if 0 < n r then (1 : EReal) else 0)) then
    Ideal.div (-(∑ r : Fin 8192, (if 0 < n r then logpOf (n r) (d r) else 0)))
      (max (∑ r : Fin 8192, (if 0 < n r then (1 : EReal) else 0)) 1)
  else 0
/-- One half. -/
def half : EReal := Ideal.ofBits .f32 0x3F000000#32
/-- The host tail shared by every reading of the kernel's program: from the rows' log-ratios `lp` and validity
    flags `vd` (each 0 or 1), minus the sum of the log-ratios of the flagged rows over max(number of flagged rows, 1);
    0 if no row is flagged. -/
def tailOf (lp vd : Fin 8192 → EReal) : EReal :=
  if 0 < (∑ r : Fin 8192, vd r) then
    Ideal.div (-(∑ r : Fin 8192, (if half < vd r then lp r else 0))) (max (∑ r : Fin 8192, vd r) 1)
  else 0
/-- The same-class indicator as the kernel computes it: the inner product of two rows of a 0/1 table, thresholded at one half. -/
def dotInd (OH : Fin 8192 → Fin 128 → EReal) (r c : Fin 8192) : EReal :=
  if half < (∑ l : Fin 128, OH r l * OH c l) then 1 else 0
/-- The one-hot table of a label vector, 100 classes padded with zero columns to 128. -/
def oneHot (L : Fin 8192 → BitVec 32) (r : Fin 8192) (l : Fin 128) : EReal :=
  if l.val < 100 ∧ L r = BitVec.ofNat 32 l.val then 1 else 0
/-- The same-class indicator of a label vector. -/
def sameLab (L : Fin 8192 → BitVec 32) (r c : Fin 8192) : EReal := if L r = L c then 1 else 0
/-- The loss of features `X` and labels `L`. -/
def loss (X : Fin 8192 → Fin 256 → EReal) (L : Fin 8192 → BitVec 32) : EReal :=
  lossOf (numRow (nrm X) (sameLab L)) (denRow (nrm X))

end Cert.Val

end
-- ==== Proof.Val.SupTile.lean ====
/-
  One tile of region 1 at the extended reals, index by index: what a grid point adds to the two row
  accumulators, and what the last column tile stores, as plain sums over the tile's 512 columns.
-/
import proofs.«421372_j86088324481780_1_alg».proof.Proof.KI.Sup
import proofs.«421372_j86088324481780_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen Cert.KernelIdeal.Fr Cert.Val

/-- exp of (the inner product of row `rr` of the row block and row `cc` of the column block) · κ. -/
def tileExp (x0 : S1024x256.Idx → EReal) (x1 : S512x256.Idx → EReal) (rr : Fin 1024) (cc : Fin 512) : EReal :=
  Ideal.exp ((∑ d : Fin 256, x0 (ix2 rr d) * x1 (ix2 cc d)) * kap)
/-- One off the global diagonal, zero on it: global row i₀·1024 + rr against global column i₁·512 + cc. -/
def tileOff (i : grid1.Coords) (rr : Fin 1024) (cc : Fin 512) : EReal :=
  1 - (if (i 0).val * 1024 + rr.val = (i 1).val * 512 + cc.val then 1 else 0)
/-- The thresholded inner product of two rows of the 0/1 tables. -/
def tileInd (x2 : S1024x128.Idx → EReal) (x3 : S512x128.Idx → EReal) (rr : Fin 1024) (cc : Fin 512) : EReal :=
  if half < (∑ l : Fin 128, x2 (ix2 rr l) * x3 (ix2 cc l)) then 1 else 0

/-! ## Words, layout operations and the matrix unit's product, each read at an index -/

namespace Tile

/-- The word of one. -/
theorem one_word : Ideal.ofBits .f32 0x3F800000#32 = 1 := IdealRules.sign_bit.ideal_onePat .f32

/-- A comparison bit converted to a float is the indicator of the comparison. -/
theorem sitofp_bit (P : Prop) [Decidable P] :
    FloatOps.sitofp (F := Ideal) .f32 ((BitVec.ofBool (decide P)).setWidth 32) = if P then (1 : EReal) else 0 := by
  by_cases h : P <;> simp [h, FloatOps.sitofp]

/-- A select on "greater than" is the `if` on the strict order. -/
theorem select_gt (a b x y : EReal) :
    Scalar.select (FloatOps.cmpf (F := Ideal) (φ := .f32) .ogt a b) x y = if b < a then x else y := by
  by_cases h : b < a <;> simp [Scalar.select, Ideal.cmpf_def, Ideal.cmp, h]

/-- A column broadcast over many columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum along the columns of a 1024 × 512 tile, at row `rr`. -/
theorem rowSum_apply (src : FVec Ideal S1024x512 .f32) (rr : Fin 1024) :
    multiReduction (F := Ideal) .add [1] S1024 src 0x00000000#32 reduces_S1024x512_S1024 (.inl rfl) rfl (ix1 rr)
      = ∑ cc : Fin 512, src (ix2 rr cc) := by
  refine (Ideal.multiReduction_add_single src 0x00000000#32 reduces_S1024x512_S1024 (.inl rfl) rfl (ix1 rr)).trans ?_
  refine Finset.sum_congr rfl fun k _ => congrArg src ?_
  funext a
  match a with
  | ⟨0, _⟩ => rfl
  | ⟨1, _⟩ => rfl

/-! ### The global positions -/

/-- The two global positions as 32-bit words are equal exactly when they are equal as naturals:
    neither product nor sum wraps, the positions being below 8192. -/
theorem pos_word_eq (a b r c : Nat) (ha : a < 8) (hb : b < 16) (hr : r < 1024) (hc : c < 512) :
    IntOp.cmpi .eq (IntOp.addi (Scalar.muli (BitVec.ofNat 32 a) 1024#32) (BitVec.ofNat 32 r))
        (IntOp.addi (Scalar.muli (BitVec.ofNat 32 b) 512#32) (BitVec.ofNat 32 c))
      = BitVec.ofBool (decide (a * 1024 + r = b * 512 + c)) := by
  have hx : IntOp.addi (Scalar.muli (BitVec.ofNat 32 a) 1024#32) (BitVec.ofNat 32 r) = BitVec.ofNat 32 (a * 1024 + r) := by
    apply BitVec.eq_of_toNat_eq
    simp only [IntOp.addi, Scalar.muli, IntOp.muli, BitVec.toNat_add, BitVec.toNat_mul, BitVec.toNat_ofNat]
    omega
  have hy : IntOp.addi (Scalar.muli (BitVec.ofNat 32 b) 512#32) (BitVec.ofNat 32 c) = BitVec.ofNat 32 (b * 512 + c) := by
    apply BitVec.eq_of_toNat_eq
    simp only [IntOp.addi, Scalar.muli, IntOp.muli, BitVec.toNat_add, BitVec.toNat_mul, BitVec.toNat_ofNat]
    omega
  rw [hx, hy]
  unfold IntOp.cmpi
  congr 1
  rw [Bool.eq_iff_iff, beq_iff_eq, decide_eq_true_iff]
  constructor
  · intro h
    have := congrArg BitVec.toNat h
    simp only [BitVec.toNat_ofNat] at this
    omega
  · intro h; rw [h]

/-- The global row numbers of the tile, as the kernel builds them: i₀·1024 + the row inside the tile. -/
def rowIds (i : grid1.Coords) : IVec S1024x1 32 :=
  addi (broadcast S1024x1 (Scalar.muli (BitVec.ofNat 32 (i 0).val) 1024#32)) (iota .tc S1024x1 32 [0] iota_S1024x1_d0_w32)
/-- The global column numbers of the tile: i₁·512 + the column inside the tile. -/
def colIds (i : grid1.Coords) : IVec S1x512 32 :=
  addi (broadcast S1x512 (Scalar.muli (BitVec.ofNat 32 (i 1).val) 512#32)) (iota .tc S1x512 32 [1] iota_S1x512_d1_w32)

theorem rowIds_apply (i : grid1.Coords) (rr : Fin 1024) :
    rowIds i (ix2 rr (0 : Fin 1)) = IntOp.addi (Scalar.muli (BitVec.ofNat 32 (i 0).val) 1024#32) (BitVec.ofNat 32 rr.val) := by
  unfold rowIds
  show IntOp.addi _ (iota .tc S1024x1 32 [0] iota_S1024x1_d0_w32 (ix2 rr (0 : Fin 1))) = _
  rw [iota_single_apply]
  rfl

theorem colIds_apply (i : grid1.Coords) (cc : Fin 512) :
    colIds i (ix2 (0 : Fin 1) cc) = IntOp.addi (Scalar.muli (BitVec.ofNat 32 (i 1).val) 512#32) (BitVec.ofNat 32 cc.val) := by
  unfold colIds
  show IntOp.addi _ (iota .tc S1x512 32 [1] iota_S1x512_d1_w32 (ix2 (0 : Fin 1) cc)) = _
  rw [iota_single_apply]
  rfl

/-! ### The two matrix products: each operand index by its coordinates, then the sum over the contracted axis -/

theorem lhsA_0 (j : S1024x512.Idx) (q : dot_S1024x256_S256x512_S1024x512_1_0_0_1_n_n.contr.Idx) :
    (dot_S1024x256_S256x512_S1024x512_1_0_0_1_n_n.lhsIdx j q 0).val = (j 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhsA_1 (j : S1024x512.Idx) (q : dot_S1024x256_S256x512_S1024x512_1_0_0_1_n_n.contr.Idx) :
    (dot_S1024x256_S256x512_S1024x512_1_0_0_1_n_n.lhsIdx j q 1).val = (q ⟨0, by decide⟩).val :=
  dot_S1024x256_S256x512_S1024x512_1_0_0_1_n_n.lhsIdx_val_of_single rfl j q
theorem rhsA_0 (j : S1024x512.Idx) (q : dot_S1024x256_S256x512_S1024x512_1_0_0_1_n_n.contr.Idx) :
    (dot_S1024x256_S256x512_S1024x512_1_0_0_1_n_n.rhsIdx j q 0).val = (q ⟨0, by decide⟩).val :=
  dot_S1024x256_S256x512_S1024x512_1_0_0_1_n_n.rhsIdx_val_of_single rfl j q
theorem rhsA_1 (j : S1024x512.Idx) (q : dot_S1024x256_S256x512_S1024x512_1_0_0_1_n_n.contr.Idx) :
    (dot_S1024x256_S256x512_S1024x512_1_0_0_1_n_n.rhsIdx j q 1).val = (j 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The matrix product into a zero accumulator, at `(rr, cc)`: the sum over the contracted axis of the products of
    row `rr` of the left operand and column `cc` of the right one. -/
theorem matmulA_apply (lhs : FVec Ideal S1024x256 .bf16) (rhs : FVec Ideal S256x512 .bf16) (rr : Fin 1024) (cc : Fin 512) :
    matmul dot_S1024x256_S256x512_S1024x512_1_0_0_1_n_n none lhs rhs (constant (F := Ideal) S1024x512 .f32 0x00000000#32) (ix2 rr cc)
      = ∑ d : Fin 256, lhs (ix2 rr d) * rhs (ix2 d cc) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 rr cc) ((contrEquiv1 dot_S1024x256_S256x512_S1024x512_1_0_0_1_n_n 256 rfl rfl).symm k) = ix2 rr k := funext fun a => Fin.ext (by
    match a with
    | ⟨0, _⟩ => exact lhsA_0 _ _
    | ⟨1, _⟩ => exact (lhsA_1 _ _).trans hk)
  have er : dot_S1024x256_S256x512_S1024x512_1_0_0_1_n_n.rhsIdx (ix2 rr cc) ((contrEquiv1 dot_S1024x256_S256x512_S1024x512_1_0_0_1_n_n 256 rfl rfl).symm k) = ix2 k cc := funext fun a => Fin.ext (by
    match a with
    | ⟨0, _⟩ => exact (rhsA_0 _ _).trans hk
    | ⟨1, _⟩ => exact rhsA_1 _ _)
  rw [el, er]

theorem lhsB_0 (j : S1024x512.Idx) (q : dot_S1024x128_S128x512_S1024x512_1_0_0_1_n_n.contr.Idx) :
    (dot_S1024x128_S128x512_S1024x512_1_0_0_1_n_n.lhsIdx j q 0).val = (j 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhsB_1 (j : S1024x512.Idx) (q : dot_S1024x128_S128x512_S1024x512_1_0_0_1_n_n.contr.Idx) :
    (dot_S1024x128_S128x512_S1024x512_1_0_0_1_n_n.lhsIdx j q 1).val = (q ⟨0, by decide⟩).val :=
  dot_S1024x128_S128x512_S1024x512_1_0_0_1_n_n.lhsIdx_val_of_single rfl j q
theorem rhsB_0 (j : S1024x512.Idx) (q : dot_S1024x128_S128x512_S1024x512_1_0_0_1_n_n.contr.Idx) :
    (dot_S1024x128_S128x512_S1024x512_1_0_0_1_n_n.rhsIdx j q 0).val = (q ⟨0, by decide⟩).val :=
  dot_S1024x128_S128x512_S1024x512_1_0_0_1_n_n.rhsIdx_val_of_single rfl j q
theorem rhsB_1 (j : S1024x512.Idx) (q : dot_S1024x128_S128x512_S1024x512_1_0_0_1_n_n.contr.Idx) :
    (dot_S1024x128_S128x512_S1024x512_1_0_0_1_n_n.rhsIdx j q 1).val = (j 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The matrix product into a zero accumulator, at `(rr, cc)`: the sum over the contracted axis of the products of
    row `rr` of the left operand and column `cc` of the right one. -/
theorem matmulB_apply (lhs : FVec Ideal S1024x128 .bf16) (rhs : FVec Ideal S128x512 .bf16) (rr : Fin 1024) (cc : Fin 512) :
    matmul dot_S1024x128_S128x512_S1024x512_1_0_0_1_n_n none lhs rhs (constant (F := Ideal) S1024x512 .f32 0x00000000#32) (ix2 rr cc)
      = ∑ d : Fin 128, lhs (ix2 rr d) * rhs (ix2 d cc) := by
  simp only [matmul]
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 rr cc) ((contrEquiv1 dot_S1024x128_S128x512_S1024x512_1_0_0_1_n_n 128 rfl rfl).symm k) = ix2 rr k := funext fun a => Fin.ext (by
    match a with
    | ⟨0, _⟩ => exact lhsB_0 _ _
    | ⟨1, _⟩ => exact (lhsB_1 _ _).trans hk)
  have er : dot_S1024x128_S128x512_S1024x512_1_0_0_1_n_n.rhsIdx (ix2 rr cc) ((contrEquiv1 dot_S1024x128_S128x512_S1024x512_1_0_0_1_n_n 128 rfl rfl).symm k) = ix2 k cc := funext fun a => Fin.ext (by
    match a with
    | ⟨0, _⟩ => exact (rhsB_0 _ _).trans hk
    | ⟨1, _⟩ => exact rhsB_1 _ _)
  rw [el, er]

/-! ### The payloads of the tile at an index -/

/-- The off-diagonal mask of a tile at an index. -/
theorem pay9_apply (i : grid1.Coords) (rr : Fin 1024) (cc : Fin 512) :
    k1_pay9 (F := Ideal) i (ix2 rr cc) = tileOff i rr cc := by
  have h0 : (i 0).val < 8 := (i 0).isLt
  have h1 : (i 1).val < 16 := (i 1).isLt
  show Ideal.ofBits .f32 0x3F800000#32 - FloatOps.sitofp (F := Ideal) .f32
      ((IntOp.cmpi .eq (broadcastTo S1024x512 (rowIds i) broadcasts_S1024x1_S1024x512 (ix2 rr cc))
        (broadcastTo S1024x512 (colIds i) broadcasts_S1x512_S1024x512 (ix2 rr cc))).setWidth 32) = _
  rw [broadcastTo_a1_ab_apply, broadcastTo_1b_ab_apply, rowIds_apply, colIds_apply,
    pos_word_eq _ _ _ _ h0 h1 rr.isLt cc.isLt, sitofp_bit, one_word]
  rfl

/-- The named inverse temperature is the rational the table gives it. -/
theorem kap_word : Named.named (F := Ideal) κ "inv_temperature" (φ := .f32) 0x41649249#32 = kap :=
  IdealRules.named_const.ideal_named_scalar _ _ _ _ rfl

/-- The exponentiated scaled similarities of a tile at an index. -/
theorem pay8_apply (x0 : Vec Ideal S1024x256 .bf16) (x1 : Vec Ideal S512x256 .bf16) (rr : Fin 1024) (cc : Fin 512) :
    k1_pay8 x0 x1 (ix2 rr cc) = tileExp x0 x1 rr cc := by
  have ht : ∀ d : Fin 256, transpose S256x512 [1, 0] x1 transposes_S512x256_p1_0_S256x512 (ix2 d cc) = x1 (ix2 cc d) :=
    fun d => transpose_ix2_apply (a := 512) (b := 256) x1 transposes_S512x256_p1_0_S256x512 d cc
  unfold k1_pay8 tileExp
  simp only [shapeCast_self]
  show Ideal.exp (matmul dot_S1024x256_S256x512_S1024x512_1_0_0_1_n_n none x0 (transpose S256x512 [1, 0] x1 transposes_S512x256_p1_0_S256x512)
      (constant (F := Ideal) S1024x512 .f32 0x00000000#32) (ix2 rr cc)
        * Named.named (F := Ideal) κ "inv_temperature" (φ := .f32) 0x41649249#32) = _
  rw [matmulA_apply, kap_word]
  simp only [ht]

/-- The same-class indicator of a tile at an index. -/
theorem pay10_apply (x2 : Vec Ideal S1024x128 .bf16) (x3 : Vec Ideal S512x128 .bf16) (rr : Fin 1024) (cc : Fin 512) :
    k1_pay10 x2 x3 (ix2 rr cc) = tileInd x2 x3 rr cc := by
  have ht : ∀ l : Fin 128, transpose S128x512 [1, 0] x3 transposes_S512x128_p1_0_S128x512 (ix2 l cc) = x3 (ix2 cc l) :=
    fun l => transpose_ix2_apply (a := 512) (b := 128) x3 transposes_S512x128_p1_0_S128x512 l cc
  unfold k1_pay10 tileInd
  simp only [shapeCast_self]
  show Scalar.select (FloatOps.cmpf (F := Ideal) (φ := .f32) .ogt
      (matmul dot_S1024x128_S128x512_S1024x512_1_0_0_1_n_n none x2 (transpose S128x512 [1, 0] x3 transposes_S512x128_p1_0_S128x512)
        (constant (F := Ideal) S1024x512 .f32 0x00000000#32) (ix2 rr cc)) (Ideal.ofBits .f32 0x3F000000#32))
      (Ideal.ofBits .f32 0x3F800000#32) (Ideal.ofBits .f32 0x00000000#32) = _
  rw [matmulB_apply, select_gt, one_word, Ideal.ofBits_zero_f32]
  simp only [ht]
  rfl

/-- The numerator accumulator's update at a row. -/
theorem pay1_apply (v17 v32 v37 : FVec Ideal S1024x512 .f32) (s : Vec Ideal S1024x1 .f32) (rr : Fin 1024) :
    k1_pay1 v17 v32 v37 s (ix2 rr (0 : Fin 1))
      = s (ix2 rr (0 : Fin 1)) + ∑ cc : Fin 512, v17 (ix2 rr cc) * (v37 (ix2 rr cc) * v32 (ix2 rr cc)) := by
  unfold k1_pay1
  simp only [shapeCast_self]
  show s (ix2 rr (0 : Fin 1)) + shapeCast S1024x1 (multiReduction (F := Ideal) .add [1] S1024 (mulf v17 (mulf v37 v32))
      0x00000000#32 reduces_S1024x512_S1024 (.inl rfl) rfl) shapeCasts_S1024_S1024x1 (ix2 rr (0 : Fin 1)) = _
  rw [shapeCast_a_a1_apply, rowSum_apply]
  rfl

/-- The denominator accumulator's update at a row. -/
theorem pay2_apply (v17 v32 : FVec Ideal S1024x512 .f32) (s : Vec Ideal S1024x1 .f32) (rr : Fin 1024) :
    k1_pay2 v17 v32 s (ix2 rr (0 : Fin 1))
      = s (ix2 rr (0 : Fin 1)) + ∑ cc : Fin 512, v17 (ix2 rr cc) * v32 (ix2 rr cc) := by
  unfold k1_pay2
  simp only [shapeCast_self]
  show s (ix2 rr (0 : Fin 1)) + shapeCast S1024x1 (multiReduction (F := Ideal) .add [1] S1024 (mulf v17 v32)
      0x00000000#32 reduces_S1024x512_S1024 (.inl rfl) rfl) shapeCasts_S1024_S1024x1 (ix2 rr (0 : Fin 1)) = _
  rw [shapeCast_a_a1_apply, rowSum_apply]
  rfl

end Tile

/-! ## The five readings -/

theorem zeroAcc_apply (j : S1024x1.Idx) : (zeroAcc (F := Ideal)) j = 0 := by
  unfold zeroAcc k1_pay6
  rw [shapeCast_self]
  exact Ideal.ofBits_zero_f32

theorem numStep_apply (i : grid1.Coords) (x0 : Vec Ideal S1024x256 .bf16) (x1 : Vec Ideal S512x256 .bf16)
    (x2 : Vec Ideal S1024x128 .bf16) (x3 : Vec Ideal S512x128 .bf16) (s : Vec Ideal S1024x1 .f32) (rr : Fin 1024) :
    numStep (F := Ideal) i x0 x1 x2 x3 s (ix2 rr (0 : Fin 1))
      = s (ix2 rr (0 : Fin 1)) + ∑ cc : Fin 512, tileExp x0 x1 rr cc * (tileInd x2 x3 rr cc * tileOff i rr cc) := by
  unfold numStep
  rw [Tile.pay1_apply]
  simp only [Tile.pay8_apply, Tile.pay9_apply, Tile.pay10_apply]

theorem denStep_apply (i : grid1.Coords) (x0 : Vec Ideal S1024x256 .bf16) (x1 : Vec Ideal S512x256 .bf16)
    (s : Vec Ideal S1024x1 .f32) (rr : Fin 1024) :
    denStep (F := Ideal) i x0 x1 s (ix2 rr (0 : Fin 1))
      = s (ix2 rr (0 : Fin 1)) + ∑ cc : Fin 512, tileExp x0 x1 rr cc * tileOff i rr cc := by
  unfold denStep
  rw [Tile.pay2_apply]
  simp only [Tile.pay8_apply, Tile.pay9_apply]

theorem logpTile_apply (n d : Vec Ideal S1024x1 .f32) (rr : Fin 1024) :
    logpTile (F := Ideal) n d (ix2 rr (0 : Fin 1)) = logpOf (n (ix2 rr (0 : Fin 1))) (d (ix2 rr (0 : Fin 1))) := by
  unfold logpTile k1_pay4 k1_pay3 logpOf
  show Ideal.log (Ideal.div (Scalar.select (FloatOps.cmpf (F := Ideal) (φ := .f32) .ogt (n (ix2 rr (0 : Fin 1))) (Ideal.ofBits .f32 0x00000000#32))
      (n (ix2 rr (0 : Fin 1))) (Ideal.ofBits .f32 0x3F800000#32)) (d (ix2 rr (0 : Fin 1)))) = _
  rw [Tile.select_gt, Ideal.ofBits_zero_f32, Tile.one_word]

theorem validTile_apply (n : Vec Ideal S1024x1 .f32) (rr : Fin 1024) :
    validTile (F := Ideal) n (ix2 rr (0 : Fin 1)) = if 0 < n (ix2 rr (0 : Fin 1)) then 1 else 0 := by
  unfold validTile k1_pay5 k1_pay3
  show FloatOps.sitofp (F := Ideal) .f32 ((BitVec.ofBool (decide (Ideal.ofBits .f32 0x00000000#32 < n (ix2 rr (0 : Fin 1))))).setWidth 32) = _
  rw [Tile.sitofp_bit, Ideal.ofBits_zero_f32]

end Cert.KernelIdeal.Val

end
-- ==== Proof.Val.SupFinal.lean ====
/-
  Region 1's two output arrays at the extended reals as whole-array functions of the two arrays it reads: walking a
  row tile's sixteen column tiles, the accumulators hold the partial row sums over the columns seen so far; after the
  sixteenth they hold the full row sums over all 8192 columns, and the stored blocks, one per row tile, tile the
  outputs: row r of the first output is the log-ratio of row r's numerator and denominator, row r of the second its
  validity flag.
-/
import proofs.«421372_j86088324481780_1_alg».proof.Proof.KI.SupDat
import proofs.«421372_j86088324481780_1_alg».proof.Proof.Val.SupTile
import proofs.«421372_j86088324481780_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Val

variable (V : (c : Dev nD) → (b : Ref sig .tc) → Buf (Elt Ideal) ((c : Thread nD τ).loc b))

/-- The (normalised) features region 1 is entered with, by row and column. -/
def featOf (c : Dev nD) : Fin 8192 → Fin 256 → EReal := fun r d => (V c main_v0 : S8192x256.Idx → EReal) (ix2 r d)
/-- The 0/1 table region 1 is entered with. -/
def tableOf (c : Dev nD) : Fin 8192 → Fin 128 → EReal := fun r l => (V c main_v2 : S8192x128.Idx → EReal) (ix2 r l)

/-! ## The walk's coordinates and the windows' block indices -/

/-- A point's row tile and column tile. -/
theorem coords_val : ∀ t : Fin cfg1.N, (grid1.coords t 0).val = t.val / 16 ∧ (grid1.coords t 1).val = t.val % 16 :=
  (by decide +kernel : ∀ t : Fin grid1.N, (grid1.coords t 0).val = t.val / 16 ∧ (grid1.coords t 1).val = t.val % 16)

/-- Windows 0 and 2 follow the row tile, windows 1 and 3 the column tile; none moves along the second axis. -/
theorem index_rows : ∀ t : Fin cfg1.N, win1_0.index t (0 : Fin 2) = t.val / 16 ∧ win1_0.index t (1 : Fin 2) = 0
    ∧ win1_2.index t (0 : Fin 2) = t.val / 16 ∧ win1_2.index t (1 : Fin 2) = 0 :=
  (by decide +kernel : ∀ t : Fin grid1.N, win1_0.index t (0 : Fin 2) = t.val / 16 ∧ win1_0.index t (1 : Fin 2) = 0
    ∧ win1_2.index t (0 : Fin 2) = t.val / 16 ∧ win1_2.index t (1 : Fin 2) = 0)
theorem index_cols : ∀ t : Fin cfg1.N, win1_1.index t (0 : Fin 2) = t.val % 16 ∧ win1_1.index t (1 : Fin 2) = 0
    ∧ win1_3.index t (0 : Fin 2) = t.val % 16 ∧ win1_3.index t (1 : Fin 2) = 0 :=
  (by decide +kernel : ∀ t : Fin grid1.N, win1_1.index t (0 : Fin 2) = t.val % 16 ∧ win1_1.index t (1 : Fin 2) = 0
    ∧ win1_3.index t (0 : Fin 2) = t.val % 16 ∧ win1_3.index t (1 : Fin 2) = 0)

/-- The four input blocks at a point, at their literal types. -/
abbrev xb0 (c : Dev nD) (t : Fin cfg1.N) : Vec Ideal S1024x256 .bf16 := iblk1 (F := Ideal) V c 0 t
abbrev xb1 (c : Dev nD) (t : Fin cfg1.N) : Vec Ideal S512x256 .bf16 := iblk1 (F := Ideal) V c 1 t
abbrev xb2 (c : Dev nD) (t : Fin cfg1.N) : Vec Ideal S1024x128 .bf16 := iblk1 (F := Ideal) V c 2 t
abbrev xb3 (c : Dev nD) (t : Fin cfg1.N) : Vec Ideal S512x128 .bf16 := iblk1 (F := Ideal) V c 3 t

/-- Row i·1024 + rr of the whole arrays, for the row tile i (taken mod 8) and the row rr inside it. -/
def rowG (i : ℕ) (rr : Fin 1024) : Fin 8192 := ⟨(i % 8) * 1024 + rr.val, by have := rr.isLt; have := Nat.mod_lt i (show 0 < 8 by decide); omega⟩
/-- Column j·512 + cc of the whole arrays, for the column tile j (taken mod 16) and the column cc inside it. -/
def colG (j : ℕ) (cc : Fin 512) : Fin 8192 := ⟨(j % 16) * 512 + cc.val, by have := cc.isLt; have := Nat.mod_lt j (show 0 < 16 by decide); omega⟩

theorem rowG_val (t : Fin cfg1.N) (rr : Fin 1024) : (rowG (t.val / 16) rr).val = t.val / 16 * 1024 + rr.val := by
  have hN : cfg1.N = 128 := N_1
  have := t.isLt
  show (t.val / 16) % 8 * 1024 + rr.val = _
  rw [Nat.mod_eq_of_lt (by omega)]
theorem colG_val (t : Fin cfg1.N) (cc : Fin 512) : (colG (t.val % 16) cc).val = t.val % 16 * 512 + cc.val := by
  show (t.val % 16) % 16 * 512 + cc.val = _
  rw [Nat.mod_mod]

/-! ## The input blocks are rows of the two arrays -/

theorem xb0_apply (c : Dev nD) (t : Fin cfg1.N) (rr : Fin 1024) (d : Fin 256) :
    (xb0 V c t : S1024x256.Idx → EReal) (ix2 rr d) = featOf V c (rowG (t.val / 16) rr) d := by
  unfold xb0 iblk1 featOf
  rw [View.read_apply]
  show V c main_v0 (((cfg1.win 0).blk t).view.emb (ix2 rr d)) = V c main_v0 (ix2 (rowG (t.val / 16) rr) d)
  congr 1
  funext a
  apply Fin.ext
  match a with
  | ⟨0, _⟩ => show win1_0.index t 0 * 1024 + 1 * rr.val = (rowG (t.val / 16) rr).val; rw [(index_rows t).1, rowG_val]; omega
  | ⟨1, _⟩ => show win1_0.index t 1 * 256 + 1 * d.val = d.val; rw [(index_rows t).2.1]; omega

theorem xb1_apply (c : Dev nD) (t : Fin cfg1.N) (cc : Fin 512) (d : Fin 256) :
    (xb1 V c t : S512x256.Idx → EReal) (ix2 cc d) = featOf V c (colG (t.val % 16) cc) d := by
  unfold xb1 iblk1 featOf
  rw [View.read_apply]
  show V c main_v0 (((cfg1.win 1).blk t).view.emb (ix2 cc d)) = V c main_v0 (ix2 (colG (t.val % 16) cc) d)
  congr 1
  funext a
  apply Fin.ext
  match a with
  | ⟨0, _⟩ => show win1_1.index t 0 * 512 + 1 * cc.val = (colG (t.val % 16) cc).val; rw [(index_cols t).1, colG_val]; omega
  | ⟨1, _⟩ => show win1_1.index t 1 * 256 + 1 * d.val = d.val; rw [(index_cols t).2.1]; omega

theorem xb2_apply (c : Dev nD) (t : Fin cfg1.N) (rr : Fin 1024) (l : Fin 128) :
    (xb2 V c t : S1024x128.Idx → EReal) (ix2 rr l) = tableOf V c (rowG (t.val / 16) rr) l := by
  unfold xb2 iblk1 tableOf
  rw [View.read_apply]
  show V c main_v2 (((cfg1.win 2).blk t).view.emb (ix2 rr l)) = V c main_v2 (ix2 (rowG (t.val / 16) rr) l)
  congr 1
  funext a
  apply Fin.ext
  match a with
  | ⟨0, _⟩ => show win1_2.index t 0 * 1024 + 1 * rr.val = (rowG (t.val / 16) rr).val; rw [(index_rows t).2.2.1, rowG_val]; omega
  | ⟨1, _⟩ => show win1_2.index t 1 * 128 + 1 * l.val = l.val; rw [(index_rows t).2.2.2]; omega

theorem xb3_apply (c : Dev nD) (t : Fin cfg1.N) (cc : Fin 512) (l : Fin 128) :
    (xb3 V c t : S512x128.Idx → EReal) (ix2 cc l) = tableOf V c (colG (t.val % 16) cc) l := by
  unfold xb3 iblk1 tableOf
  rw [View.read_apply]
  show V c main_v2 (((cfg1.win 3).blk t).view.emb (ix2 cc l)) = V c main_v2 (ix2 (colG (t.val % 16) cc) l)
  congr 1
  funext a
  apply Fin.ext
  match a with
  | ⟨0, _⟩ => show win1_3.index t 0 * 512 + 1 * cc.val = (colG (t.val % 16) cc).val; rw [(index_cols t).2.2.1, colG_val]; omega
  | ⟨1, _⟩ => show win1_3.index t 1 * 128 + 1 * l.val = l.val; rw [(index_cols t).2.2.2]; omega

/-! ## One tile's terms are the whole-array terms at the global row and column -/

theorem tileExp_eq (c : Dev nD) (t : Fin cfg1.N) (rr : Fin 1024) (cc : Fin 512) :
    tileExp (xb0 V c t) (xb1 V c t) rr cc = expv (featOf V c) (rowG (t.val / 16) rr) (colG (t.val % 16) cc) := by
  unfold tileExp expv simv
  congr 2
  exact Finset.sum_congr rfl fun d _ => by rw [xb0_apply, xb1_apply]

theorem tileInd_eq (c : Dev nD) (t : Fin cfg1.N) (rr : Fin 1024) (cc : Fin 512) :
    tileInd (xb2 V c t) (xb3 V c t) rr cc = dotInd (tableOf V c) (rowG (t.val / 16) rr) (colG (t.val % 16) cc) := by
  unfold tileInd dotInd
  have e : (∑ l : Fin 128, (xb2 V c t : S1024x128.Idx → EReal) (ix2 rr l) * (xb3 V c t : S512x128.Idx → EReal) (ix2 cc l))
      = ∑ l : Fin 128, tableOf V c (rowG (t.val / 16) rr) l * tableOf V c (colG (t.val % 16) cc) l :=
    Finset.sum_congr rfl fun l _ => by rw [xb2_apply, xb3_apply]
  rw [e]

theorem tileOff_eq (t : Fin cfg1.N) (rr : Fin 1024) (cc : Fin 512) :
    tileOff (grid1.coords t) rr cc = offd (rowG (t.val / 16) rr) (colG (t.val % 16) cc) := by
  unfold tileOff offd
  congr 1
  refine if_congr ?_ rfl rfl
  rw [(coords_val t).1, (coords_val t).2, ← rowG_val, ← colG_val]
  exact Fin.val_inj

/-! ## The accumulators along a row tile -/

/-- The numerator's and the denominator's summand at a row and a column of the whole arrays. -/
def numTerm (c : Dev nD) (r col : Fin 8192) : EReal := expv (featOf V c) r col * (dotInd (tableOf V c) r col * offd r col)
def denTerm (c : Dev nD) (r col : Fin 8192) : EReal := expv (featOf V c) r col * offd r col

/-- What a point adds to a row of the numerator accumulator: the row's summands over the point's 512 columns. -/
theorem numStep_at (c : Dev nD) (t : Fin cfg1.N) (s : Vec Ideal S1024x1 .f32) (rr : Fin 1024) :
    numStep (F := Ideal) (grid1.coords t) (xb0 V c t) (xb1 V c t) (xb2 V c t) (xb3 V c t) s (ix2 rr (0 : Fin 1))
      = s (ix2 rr (0 : Fin 1)) + ∑ cc : Fin 512, numTerm V c (rowG (t.val / 16) rr) (colG (t.val % 16) cc) := by
  refine (numStep_apply (grid1.coords t) (xb0 V c t) (xb1 V c t) (xb2 V c t) (xb3 V c t) s rr).trans ?_
  refine congrArg (fun z : EReal => s (ix2 rr (0 : Fin 1)) + z) (Finset.sum_congr rfl fun cc _ => ?_)
  unfold numTerm
  rw [tileExp_eq V c t rr cc, tileInd_eq V c t rr cc, tileOff_eq t rr cc]

theorem denStep_at (c : Dev nD) (t : Fin cfg1.N) (s : Vec Ideal S1024x1 .f32) (rr : Fin 1024) :
    denStep (F := Ideal) (grid1.coords t) (xb0 V c t) (xb1 V c t) s (ix2 rr (0 : Fin 1))
      = s (ix2 rr (0 : Fin 1)) + ∑ cc : Fin 512, denTerm V c (rowG (t.val / 16) rr) (colG (t.val % 16) cc) := by
  refine (denStep_apply (grid1.coords t) (xb0 V c t) (xb1 V c t) s rr).trans ?_
  refine congrArg (fun z : EReal => s (ix2 rr (0 : Fin 1)) + z) (Finset.sum_congr rfl fun cc _ => ?_)
  unfold denTerm
  rw [tileExp_eq V c t rr cc, tileOff_eq t rr cc]

/-- The accumulators after a point, at a row: at the first column tile the point's sums alone, -/
theorem acc_reset_at (c : Dev nD) (t : Fin cfg1.N) (h : t.val % 16 = 0) (rr : Fin 1024) :
    ((accAt (F := Ideal) V c t.val t.isLt).1 : S1024x1.Idx → EReal) (ix2 rr (0 : Fin 1))
        = ∑ cc : Fin 512, numTerm V c (rowG (t.val / 16) rr) (colG (t.val % 16) cc)
    ∧ ((accAt (F := Ideal) V c t.val t.isLt).2 : S1024x1.Idx → EReal) (ix2 rr (0 : Fin 1))
        = ∑ cc : Fin 512, denTerm V c (rowG (t.val / 16) rr) (colG (t.val % 16) cc) := by
  rw [accAt_reset V c t h]
  dsimp only
  constructor
  · refine (numStep_at V c t zeroAcc rr).trans ?_
    rw [zeroAcc_apply, zero_add]
  · refine (denStep_at V c t zeroAcc rr).trans ?_
    rw [zeroAcc_apply, zero_add]

/-- elsewhere what the point before left plus the point's sums. -/
theorem acc_step_at (c : Dev nD) (t : Fin cfg1.N) (h : t.val % 16 ≠ 0) (rr : Fin 1024) :
    ((accAt (F := Ideal) V c t.val t.isLt).1 : S1024x1.Idx → EReal) (ix2 rr (0 : Fin 1))
        = ((accAt (F := Ideal) V c (t.val - 1) (Nat.lt_of_le_of_lt (Nat.sub_le _ _) t.isLt)).1 : S1024x1.Idx → EReal) (ix2 rr (0 : Fin 1))
          + ∑ cc : Fin 512, numTerm V c (rowG (t.val / 16) rr) (colG (t.val % 16) cc)
    ∧ ((accAt (F := Ideal) V c t.val t.isLt).2 : S1024x1.Idx → EReal) (ix2 rr (0 : Fin 1))
        = ((accAt (F := Ideal) V c (t.val - 1) (Nat.lt_of_le_of_lt (Nat.sub_le _ _) t.isLt)).2 : S1024x1.Idx → EReal) (ix2 rr (0 : Fin 1))
          + ∑ cc : Fin 512, denTerm V c (rowG (t.val / 16) rr) (colG (t.val % 16) cc) := by
  rw [accAt_step V c t h]
  dsimp only
  exact ⟨numStep_at V c t _ rr, denStep_at V c t _ rr⟩

/-- After the point at position n the accumulators hold, at a row, the row's summands over the column tiles seen so far. -/
theorem acc_partial (c : Dev nD) : ∀ (n : ℕ) (hn : n < cfg1.N) (rr : Fin 1024),
    ((accAt (F := Ideal) V c n hn).1 : S1024x1.Idx → EReal) (ix2 rr (0 : Fin 1))
        = ∑ j ∈ Finset.range (n % 16 + 1), ∑ cc : Fin 512, numTerm V c (rowG (n / 16) rr) (colG j cc)
    ∧ ((accAt (F := Ideal) V c n hn).2 : S1024x1.Idx → EReal) (ix2 rr (0 : Fin 1))
        = ∑ j ∈ Finset.range (n % 16 + 1), ∑ cc : Fin 512, denTerm V c (rowG (n / 16) rr) (colG j cc) := by
  intro n
  induction n with
  | zero =>
    intro hn rr
    obtain ⟨e1, e2⟩ := acc_reset_at V c ⟨0, hn⟩ rfl rr
    refine ⟨e1.trans ?_, e2.trans ?_⟩
    · exact (Finset.sum_range_one (fun j => ∑ cc : Fin 512, numTerm V c (rowG (0 / 16) rr) (colG j cc))).symm
    · exact (Finset.sum_range_one (fun j => ∑ cc : Fin 512, denTerm V c (rowG (0 / 16) rr) (colG j cc))).symm
  | succ n ih =>
    intro hn rr
    by_cases h : (n + 1) % 16 = 0
    · obtain ⟨e1, e2⟩ := acc_reset_at V c ⟨n + 1, hn⟩ h rr
      refine ⟨e1.trans ?_, e2.trans ?_⟩
      · show (∑ cc : Fin 512, numTerm V c (rowG ((n + 1) / 16) rr) (colG ((n + 1) % 16) cc)) = _
        rw [h]; exact (Finset.sum_range_one (fun j => ∑ cc : Fin 512, numTerm V c (rowG ((n + 1) / 16) rr) (colG j cc))).symm
      · show (∑ cc : Fin 512, denTerm V c (rowG ((n + 1) / 16) rr) (colG ((n + 1) % 16) cc)) = _
        rw [h]; exact (Finset.sum_range_one (fun j => ∑ cc : Fin 512, denTerm V c (rowG ((n + 1) / 16) rr) (colG j cc))).symm
    · obtain ⟨e1, e2⟩ := acc_step_at V c ⟨n + 1, hn⟩ h rr
      obtain ⟨i1, i2⟩ := ih (Nat.lt_of_succ_lt hn) rr
      have q1 : n / 16 = (n + 1) / 16 := by omega
      have q2 : n % 16 + 1 = (n + 1) % 16 := by omega
      refine ⟨e1.trans ?_, e2.trans ?_⟩
      · show ((accAt (F := Ideal) V c n _).1 : S1024x1.Idx → EReal) (ix2 rr (0 : Fin 1)) + (∑ cc : Fin 512, numTerm V c (rowG ((n + 1) / 16) rr) (colG ((n + 1) % 16) cc)) = _
        rw [i1, q1, q2]; exact (Finset.sum_range_succ (fun j => ∑ cc : Fin 512, numTerm V c (rowG ((n + 1) / 16) rr) (colG j cc)) ((n + 1) % 16)).symm
      · show ((accAt (F := Ideal) V c n _).2 : S1024x1.Idx → EReal) (ix2 rr (0 : Fin 1)) + (∑ cc : Fin 512, denTerm V c (rowG ((n + 1) / 16) rr) (colG ((n + 1) % 16) cc)) = _
        rw [i2, q1, q2]; exact (Finset.sum_range_succ (fun j => ∑ cc : Fin 512, denTerm V c (rowG ((n + 1) / 16) rr) (colG j cc)) ((n + 1) % 16)).symm

/-! ## Sixteen column tiles of 512 columns are the 8192 columns -/

/-- (column tile, column inside it) ↦ the column of the whole arrays. -/
def colEquiv : Fin 16 × Fin 512 ≃ Fin 8192 where
  toFun p := colG p.1.val p.2
  invFun col := (⟨col.val / 512, by have := col.isLt; omega⟩, ⟨col.val % 512, Nat.mod_lt _ (by decide)⟩)
  left_inv p := by
    obtain ⟨⟨j, hj⟩, ⟨cc, hcc⟩⟩ := p
    refine Prod.ext (Fin.ext ?_) (Fin.ext ?_)
    · show (j % 16 * 512 + cc) / 512 = j
      omega
    · show (j % 16 * 512 + cc) % 512 = cc
      omega
  right_inv col := Fin.ext (by
    have := col.isLt
    show col.val / 512 % 16 * 512 + col.val % 512 = col.val
    omega)

theorem sum_tiles (f : Fin 8192 → EReal) :
    (∑ j ∈ Finset.range 16, ∑ cc : Fin 512, f (colG j cc)) = ∑ col : Fin 8192, f col := by
  rw [Finset.sum_range (fun j => ∑ cc : Fin 512, f (colG j cc))]
  rw [← Fintype.sum_prod_type' (fun (j : Fin 16) (cc : Fin 512) => f (colG j.val cc))]
  exact Equiv.sum_comp colEquiv f

/-- After a row tile's last point the accumulators hold the rows' full sums. -/
theorem acc_full (c : Dev nD) (t : Fin cfg1.N) (h : t.val % 16 = 15) (rr : Fin 1024) :
    ((accAt (F := Ideal) V c t.val t.isLt).1 : S1024x1.Idx → EReal) (ix2 rr (0 : Fin 1))
        = numRow (featOf V c) (dotInd (tableOf V c)) (rowG (t.val / 16) rr)
    ∧ ((accAt (F := Ideal) V c t.val t.isLt).2 : S1024x1.Idx → EReal) (ix2 rr (0 : Fin 1))
        = denRow (featOf V c) (rowG (t.val / 16) rr) := by
  obtain ⟨e1, e2⟩ := acc_partial V c t.val t.isLt rr
  rw [h] at e1 e2
  exact ⟨e1.trans (sum_tiles (fun col => numTerm V c (rowG (t.val / 16) rr) col)),
    e2.trans (sum_tiles (fun col => denTerm V c (rowG (t.val / 16) rr) col))⟩

/-! ## The two outputs -/

/-- The first output as one function of the two arrays: each row's log-ratio. -/
def logpArr (c : Dev nD) : S8192x1.Idx → EReal := fun i =>
  logpOf (numRow (featOf V c) (dotInd (tableOf V c)) (i 0)) (denRow (featOf V c) (i 0))
/-- The second output: each row's validity flag. -/
def validArr (c : Dev nD) : S8192x1.Idx → EReal := fun i =>
  if 0 < numRow (featOf V c) (dotInd (tableOf V c)) (i 0) then (1 : EReal) else 0

/-- The two outputs' windows follow the row tile; their blocks are uncut. -/
theorem index_outs : ∀ t : Fin cfg1.N, win1_4.index t (0 : Fin 2) = t.val / 16 ∧ win1_4.index t (1 : Fin 2) = 0
    ∧ win1_5.index t (0 : Fin 2) = t.val / 16 ∧ win1_5.index t (1 : Fin 2) = 0 :=
  (by decide +kernel : ∀ t : Fin grid1.N, win1_4.index t (0 : Fin 2) = t.val / 16 ∧ win1_4.index t (1 : Fin 2) = 0
    ∧ win1_5.index t (0 : Fin 2) = t.val / 16 ∧ win1_5.index t (1 : Fin 2) = 0)
theorem xsize_outs : ∀ t : Fin cfg1.N, win1_4.xsize (grid1.coords t) (0 : Fin 2) = 1024 ∧ win1_4.xsize (grid1.coords t) (1 : Fin 2) = 1
    ∧ win1_5.xsize (grid1.coords t) (0 : Fin 2) = 1024 ∧ win1_5.xsize (grid1.coords t) (1 : Fin 2) = 1 :=
  (by decide +kernel : ∀ t : Fin grid1.N, win1_4.xsize (grid1.coords t) (0 : Fin 2) = 1024 ∧ win1_4.xsize (grid1.coords t) (1 : Fin 2) = 1
    ∧ win1_5.xsize (grid1.coords t) (0 : Fin 2) = 1024 ∧ win1_5.xsize (grid1.coords t) (1 : Fin 2) = 1)

/-- What a row tile's last point writes back is its block of the whole-array function. -/
theorem flushed4_eq (c : Dev nD) (t : Fin cfg1.N) (hf : (cfg1.win 4).flush t = true) :
    (dat1 (F := Ideal) V c).flushed 4 t = ((cfg1.win 4).blk t).view.read (Elt Ideal) (logpArr V c) := by
  have h15 : t.val % 16 = 15 := (flush1_4 t).mp hf
  show (cfg1.win 4).cut (grid1.coords t) ((dat1 (F := Ideal) V c).after 4 t) = _
  rw [after1_4]
  funext y
  obtain ⟨rr, z, rfl⟩ : ∃ (rr : Fin 1024) (z : Fin 1), y = ix2 rr z := ⟨y 0, y 1, eq_ix2 y⟩
  obtain rfl : z = 0 := Subsingleton.elim _ _
  rw [View.read_apply]
  show logpTile (F := Ideal) (accAt (F := Ideal) V c t.val t.isLt).1 (accAt (F := Ideal) V c t.val t.isLt).2 (ix2 rr (0 : Fin 1))
    = logpArr V c (((cfg1.win 4).blk t).view.emb (ix2 rr (0 : Fin 1)))
  refine (logpTile_apply (accAt (F := Ideal) V c t.val t.isLt).1 (accAt (F := Ideal) V c t.val t.isLt).2 rr).trans ?_
  obtain ⟨e1, e2⟩ := acc_full V c t h15 rr
  rw [e1, e2]
  have hrow : (((cfg1.win 4).blk t).view.emb (ix2 rr (0 : Fin 1)) : S8192x1.Idx) 0 = rowG (t.val / 16) rr := by
    apply Fin.ext
    show win1_4.index t 0 * 1024 + 1 * rr.val = (rowG (t.val / 16) rr).val
    rw [(index_outs t).1, rowG_val]; omega
  unfold logpArr
  rw [hrow]

theorem flushed5_eq (c : Dev nD) (t : Fin cfg1.N) (hf : (cfg1.win 5).flush t = true) :
    (dat1 (F := Ideal) V c).flushed 5 t = ((cfg1.win 5).blk t).view.read (Elt Ideal) (validArr V c) := by
  have h15 : t.val % 16 = 15 := (flush1_5 t).mp hf
  show (cfg1.win 5).cut (grid1.coords t) ((dat1 (F := Ideal) V c).after 5 t) = _
  rw [after1_5]
  funext y
  obtain ⟨rr, z, rfl⟩ : ∃ (rr : Fin 1024) (z : Fin 1), y = ix2 rr z := ⟨y 0, y 1, eq_ix2 y⟩
  obtain rfl : z = 0 := Subsingleton.elim _ _
  rw [View.read_apply]
  show validTile (F := Ideal) (accAt (F := Ideal) V c t.val t.isLt).1 (ix2 rr (0 : Fin 1))
    = validArr V c (((cfg1.win 5).blk t).view.emb (ix2 rr (0 : Fin 1)))
  refine (validTile_apply (accAt (F := Ideal) V c t.val t.isLt).1 rr).trans ?_
  rw [(acc_full V c t h15 rr).1]
  have hrow : (((cfg1.win 5).blk t).view.emb (ix2 rr (0 : Fin 1)) : S8192x1.Idx) 0 = rowG (t.val / 16) rr := by
    apply Fin.ext
    show win1_5.index t 0 * 1024 + 1 * rr.val = (rowG (t.val / 16) rr).val
    rw [(index_outs t).2.2.1, rowG_val]; omega
  unfold validArr
  rw [hrow]

/-- The point that writes row r back: the last of r's row tile. -/
def lastOf (i : S8192x1.Idx) : Fin cfg1.N := ⟨(i 0).val / 1024 * 16 + 15, by
  have h : (i 0).val < 8192 := (i 0).isLt
  rw [show cfg1.N = 128 from N_1]; omega⟩

theorem cover4 (i : S8192x1.Idx) : ∃ t : Fin cfg1.N, (cfg1.win 4).flush t = true ∧ i ∈ ((cfg1.win 4).blk t).view.set := by
  have h0 : (i 0 : Nat) < 8192 := (i 0).isLt
  have h1 : (i 1 : Nat) < 1 := (i 1).isLt
  have hv : (lastOf i).val = (i 0).val / 1024 * 16 + 15 := rfl
  refine ⟨lastOf i, (flush1_4 (lastOf i)).mpr (by rw [hv]; omega), ?_⟩
  show i ∈ ((View.whole main_v3_0).slice (win1_4.rect (lastOf i))).set
  rw [View.set_slice_whole, Rect.mem_set_unit]
  intro a
  match a with
  | ⟨0, _⟩ =>
    show win1_4.index (lastOf i) 0 * 1024 ≤ (i 0 : Nat) ∧ (i 0 : Nat) < win1_4.index (lastOf i) 0 * 1024 + win1_4.xsize (grid1.coords (lastOf i)) 0
    rw [(index_outs (lastOf i)).1, (xsize_outs (lastOf i)).1, hv]; omega
  | ⟨1, _⟩ =>
    show win1_4.index (lastOf i) 1 * 1 ≤ (i 1 : Nat) ∧ (i 1 : Nat) < win1_4.index (lastOf i) 1 * 1 + win1_4.xsize (grid1.coords (lastOf i)) 1
    rw [(index_outs (lastOf i)).2.1, (xsize_outs (lastOf i)).2.1]; omega

theorem cover5 (i : S8192x1.Idx) : ∃ t : Fin cfg1.N, (cfg1.win 5).flush t = true ∧ i ∈ ((cfg1.win 5).blk t).view.set := by
  have h0 : (i 0 : Nat) < 8192 := (i 0).isLt
  have h1 : (i 1 : Nat) < 1 := (i 1).isLt
  have hv : (lastOf i).val = (i 0).val / 1024 * 16 + 15 := rfl
  refine ⟨lastOf i, (flush1_5 (lastOf i)).mpr (by rw [hv]; omega), ?_⟩
  show i ∈ ((View.whole main_v3_1).slice (win1_5.rect (lastOf i))).set
  rw [View.set_slice_whole, Rect.mem_set_unit]
  intro a
  match a with
  | ⟨0, _⟩ =>
    show win1_5.index (lastOf i) 0 * 1024 ≤ (i 0 : Nat) ∧ (i 0 : Nat) < win1_5.index (lastOf i) 0 * 1024 + win1_5.xsize (grid1.coords (lastOf i)) 0
    rw [(index_outs (lastOf i)).2.2.1, (xsize_outs (lastOf i)).2.2.1, hv]; omega
  | ⟨1, _⟩ =>
    show win1_5.index (lastOf i) 1 * 1 ≤ (i 1 : Nat) ∧ (i 1 : Nat) < win1_5.index (lastOf i) 1 * 1 + win1_5.xsize (grid1.coords (lastOf i)) 1
    rw [(index_outs (lastOf i)).2.2.2, (xsize_outs (lastOf i)).2.2.2]; omega

/-- The two arrays after the run. -/
theorem final4 (c : Dev nD) : (dat1 (F := Ideal) V c).arrAt 4 cfg1.N = logpArr V c :=
  (dat1 (F := Ideal) V c).arrAt_eq_of_cover 4 (logpArr V c) (flushed4_eq V c) cover4
theorem final5 (c : Dev nD) : (dat1 (F := Ideal) V c).arrAt 5 cfg1.N = validArr V c :=
  (dat1 (F := Ideal) V c).arrAt_eq_of_cover 5 (validArr V c) (flushed5_eq V c) cover5

/-- Row r of the first output: the log-ratio of the row's sums. -/
theorem sup_final_logp (c : Dev nD) (r : Fin 8192) :
    ((dat1 (F := Ideal) V c).arrAt 4 cfg1.N : S8192x1.Idx → EReal) (ix2 r (0 : Fin 1))
      = logpOf (numRow (featOf V c) (dotInd (tableOf V c)) r) (denRow (featOf V c) r) := by
  rw [final4]; rfl

/-- Row r of the second output: whether the row's numerator is positive. -/
theorem sup_final_valid (c : Dev nD) (r : Fin 8192) :
    ((dat1 (F := Ideal) V c).arrAt 5 cfg1.N : S8192x1.Idx → EReal) (ix2 r (0 : Fin 1))
      = (if 0 < numRow (featOf V c) (dotInd (tableOf V c)) r then (1 : EReal) else 0) := by
  rw [final5]; rfl

end Cert.KernelIdeal.Val

end
-- ==== Proof.Val.HostVal.lean ====
/-
  The host operations of the kernel's program at the extended reals, whatever the two regions leave in their
  outputs: the one-hot table of the labels (100 classes, padded to 128 columns with zeros) that region 1 reads, the
  normalised features passed from region 0 to region 1 untouched, and the final scalar as the mean over the flagged rows
  of region 1's two outputs.

  Each stretch is first read as one closed function of the buffers it starts from (the label vector for the table, the
  two output columns for the tail), then that function is read at an index: a broadcast reads its operand at the kept
  coordinates, an iota reads the coordinate, an equality test's bit read as a number is 1 or 0, a pad reads the operand
  inside and the padding value outside, a sum from zero into a scalar is the sum over the rows, and a choice on the bit
  of a strict comparison is the choice on the order.
-/
import proofs.«421372_j86088324481780_1_alg».proof.Proof.Gen.KernelIdeal.Regions
import proofs.«421372_j86088324481780_1_alg».proof.Proof.Val.Spec
import Idealize.ShloMosaic.Lib.ValueIdx
import Idealize.ShloMosaic.Lib.ValueIdxRank1
import Idealize.ShloMosaic.Lib.ValueLayout
import Idealize.ShloMosaic.Lib.IdealHost
import Idealize.ShloMosaic.Lib.KernelVsHost
import Idealize.ShloMosaic.Lib.Pipeline.Value
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Val

variable (m : (ℓ : Loc nD τ sig) → Buf (Elt Ideal) ℓ) (outs : Outs (F := Ideal))

/-- No host operation between the regions writes the normalised features. -/
theorem V4_main_v0 (c : Dev nD) : V4 m outs c main_v0 = outs 1 main_v0 c := by
  rw [V4_of m outs c main_v0 (by decide), V3_of m outs c main_v0 (by decide), V2_of m outs c main_v0 (by decide)]
  simp only [V1, Function.update_self]

/-! ## The one-hot table -/

/-- The one-hot stretch and the padding as one function of the label vector: the labels laid along the rows and the
    class numbers 0 … 99 along the columns of an 8192 × 100 rectangle, compared entry by entry, the bit read as a
    number, and 28 columns of the number of the integer zero appended. -/
def hostOneHot (L : S8192.Idx → BitVec 32) : S8192x128.Idx → EReal :=
  pad S8192x128 ![0, 0] ![0, 28] ![0, 0]
    (uitofp (F := Ideal) .bf16 (cmpi .eq
      (broadcastInDim S8192x100 ![0, 1] bcast_S8192x1_S8192x100_0_1 (broadcastInDim S8192x1 ![0] bcast_S8192_S8192x1_0 L))
      (broadcastInDim S8192x100 ![0, 1] bcast_S1x100_S8192x100_0_1 (iotaInDim S1x100 32 1))))
    (sitofp (F := Ideal) .bf16 (constantI S_ 32 0#32)) pads_S8192x100_S8192x128_000_0280 h_S_

/-- What region 1 finds in the table's buffer is that function of the labels as launched: region 0 writes neither. -/
theorem V4_main_v2_eq (c : Dev nD) :
    (V4 m outs c main_v2 : S8192x128.Idx → EReal) = hostOneHot (m ((c : Thread nD τ).loc main_arg1)) := by
  dsimp only [V4, V3, V2, V1, V0]
  after_results
  rfl

/-- The labels laid along the rows: entry (r, l) is label r. -/
theorem hostLabRows_apply (L : S8192.Idx → BitVec 32) (r : Fin 8192) (l : Fin 100) :
    broadcastInDim S8192x100 ![0, 1] bcast_S8192x1_S8192x100_0_1 (broadcastInDim S8192x1 ![0] bcast_S8192_S8192x1_0 L) (ix2 r l)
      = L (ix1 r) := by
  refine (broadcastInDim_apply _ bcast_S8192x1_S8192x100_0_1 _ (ix2 r l) (ix2 r (0 : Fin 1)) (fun a => match a with
    | ⟨0, _⟩ => by show r.val = if (8192 : Nat) = 1 then 0 else r.val; rw [if_neg (by decide)]
    | ⟨1, _⟩ => by show 0 = if (1 : Nat) = 1 then 0 else l.val; rw [if_pos rfl])).trans ?_
  exact broadcastInDim_apply _ bcast_S8192_S8192x1_0 L (ix2 r (0 : Fin 1)) (ix1 r) (fun a => match a with
    | ⟨0, _⟩ => by show r.val = if (8192 : Nat) = 1 then 0 else r.val; rw [if_neg (by decide)])

/-- The class numbers laid along the columns: entry (r, l) is the word of l. -/
theorem hostClassCols_apply (r : Fin 8192) (l : Fin 100) :
    broadcastInDim S8192x100 ![0, 1] bcast_S1x100_S8192x100_0_1 (iotaInDim S1x100 32 1) (ix2 r l)
      = BitVec.ofNat 32 l.val := by
  refine (broadcastInDim_apply _ bcast_S1x100_S8192x100_0_1 _ (ix2 r l) (ix2 (0 : Fin 1) l) (fun a => match a with
    | ⟨0, _⟩ => by show 0 = if (1 : Nat) = 1 then 0 else r.val; rw [if_pos rfl]
    | ⟨1, _⟩ => by show l.val = if (100 : Nat) = 1 then 0 else l.val; rw [if_neg (by decide)])).trans ?_
  rfl

/-- The bit of an equality test, read as a number, is one when the words agree and zero otherwise. -/
theorem hostEqBit_toNat (a b : BitVec 32) :
    (((IntOp.cmpi .eq a b).toNat : ℝ) : EReal) = if a = b then 1 else 0 := by
  by_cases h : a = b
  · subst h; simp [IntOp.cmpi]
  · simp [IntOp.cmpi, h]

/-- In the first 100 columns the table holds the equality test of the row's label with the column's class. -/
theorem hostOneHot_inside (L : S8192.Idx → BitVec 32) (r : Fin 8192) (l : Fin 128) (h : l.val < 100) :
    hostOneHot L (ix2 r l) = if L (ix1 r) = BitVec.ofNat 32 l.val then 1 else 0 := by
  unfold hostOneHot
  refine (pad_apply_of_inside _ _ _ _ _ pads_S8192x100_S8192x128_000_0280 h_S_ (ix2 r l) (ix2 r (⟨l.val, h⟩ : Fin 100)) (fun a => match a with
    | ⟨0, _⟩ => by show r.val = 0 + r.val * (0 + 1); omega
    | ⟨1, _⟩ => by show l.val = 0 + l.val * (0 + 1); omega)).trans ?_
  show (((IntOp.cmpi .eq _ _ : BitVec 1).toNat : ℝ) : EReal) = _
  rw [hostLabRows_apply, hostClassCols_apply]
  exact hostEqBit_toNat _ _

/-- The appended columns hold zero. -/
theorem hostOneHot_outside (L : S8192.Idx → BitVec 32) (r : Fin 8192) (l : Fin 128) (h : ¬ l.val < 100) :
    hostOneHot L (ix2 r l) = 0 := by
  unfold hostOneHot
  refine (pad_apply_of_not_inside _ _ _ _ _ pads_S8192x100_S8192x128_000_0280 h_S_ (ix2 r l) (1 : Fin 2) (fun hh => h ?_)).trans ?_
  · have h3 : (l.val - 0) / (0 + 1) < 100 := hh.2.2
    omega
  · show ((((0#32 : BitVec 32).toInt : ℤ) : ℝ) : EReal) = 0
    simp

/-- The table region 1 reads is the one-hot table of the labels. -/
theorem V4_main_v2_apply (c : Dev nD) (r : Fin 8192) (l : Fin 128) :
    (V4 m outs c main_v2 : S8192x128.Idx → EReal) (ix2 r l)
      = oneHot (fun r' => (m ((c : Thread nD τ).loc main_arg1) : S8192.Idx → BitVec 32) (ix1 r')) r l := by
  rw [V4_main_v2_eq]
  unfold oneHot
  by_cases h : l.val < 100
  · rw [hostOneHot_inside _ r l h]
    simp only [h, true_and]
  · rw [hostOneHot_outside _ r l h]
    simp only [h, false_and, if_false]

/-! ## The tail -/

/-- Region 1 leaves its outputs where the tail reads them. -/
theorem hostV5_main_v3_0 (c : Dev nD) : V5 m outs c main_v3_0 = outs 5 main_v3_0 c := by
  simp only [V5]
  rw [Function.update_of_ne (StableHlo.devRef_ne_of_ne (by decide) : (Proc.devRef .tc main_v3_0 : DevRef τ sig) ≠ Proc.devRef .tc main_v3_1), Function.update_self]

theorem hostV5_main_v3_1 (c : Dev nD) : V5 m outs c main_v3_1 = outs 5 main_v3_1 c := by
  simp only [V5, Function.update_self]

/-- A column of 8192 entries read as a vector. -/
def hostFlat (A : S8192x1.Idx → EReal) : S8192.Idx → EReal := shapeCast S8192 A shapeCasts_S8192x1_S8192

/-- The number of flagged rows as the host sums it: the flags added up from zero. -/
def hostCount (vd : S8192.Idx → EReal) : S_.Idx → EReal :=
  Host.reduceAdd (F := Ideal) vd (constant (F := Ideal) S_ .f32 0x00000000#32) reducesTo_S8192_S_d0 h_S_

/-- The sum of the log-ratios of the rows whose flag exceeds one half, added up from zero. -/
def hostFlaggedSum (lp vd : S8192.Idx → EReal) : S_.Idx → EReal :=
  Host.reduceAdd (F := Ideal)
    (select (cmpf (F := Ideal) .ogt vd (broadcastInDim S8192 ![] bcast_S_S8192 (constant (F := Ideal) S_ .f32 0x3F000000#32))) lp
      (broadcastInDim S8192 ![] bcast_S_S8192 (constant (F := Ideal) S_ .f32 0x00000000#32)))
    (constant (F := Ideal) S_ .f32 0x00000000#32) reducesTo_S8192_S_d0 h_S_

/-- The host tail as one function of the two vectors: minus the flagged sum over max(count, 1) where the count is
    positive, zero otherwise. -/
def hostTail (lp vd : S8192.Idx → EReal) : S_.Idx → EReal :=
  select (cmpf (F := Ideal) .ogt (hostCount vd) (constant (F := Ideal) S_ .f32 0x00000000#32))
    (Host.divf (F := Ideal) (Host.negf (F := Ideal) (hostFlaggedSum lp vd))
      (maximumf (F := Ideal) (hostCount vd) (constant (F := Ideal) S_ .f32 0x3F800000#32)))
    (constant (F := Ideal) S_ .f32 0x00000000#32)

/-- The program's result is that function of region 1's two outputs. -/
theorem V9_main_v15_eq (c : Dev nD) :
    (V9 m outs c main_v15 : S_.Idx → EReal) = hostTail (hostFlat (outs 5 main_v3_0 c)) (hostFlat (outs 5 main_v3_1 c)) := by
  dsimp only [V9, V8, V7, V6]
  after_results
  rw [hostV5_main_v3_0, hostV5_main_v3_1]
  rfl

/-- The column read as a vector: entry r is the column's entry (r, 0). -/
theorem hostFlat_apply (A : S8192x1.Idx → EReal) (r : Fin 8192) : hostFlat A (ix1 r) = A (ix2 r (0 : Fin 1)) := by
  unfold hostFlat
  refine shapeCast_apply A shapeCasts_S8192x1_S8192 (ix1 r) (ix2 r (0 : Fin 1)) ?_
  rw [Shape.rowMajor_val_two, Shape.rowMajor_val_one]
  show r.val * 1 + 0 = r.val
  omega

/-- A host sum of a vector into a scalar, from zero, is the sum over the rows. -/
theorem hostSumFromZero (x : S8192.Idx → EReal) (i : S_.Idx) :
    Host.reduceAdd (F := Ideal) x (constant (F := Ideal) S_ .f32 0x00000000#32) reducesTo_S8192_S_d0 h_S_ i
      = ∑ r : Fin 8192, x (ix1 r) := by
  rw [hostReduceAdd_apply, Ideal.hostReduceAdd_total reducesTo_S8192_S_d0 (fun b => b.elim0)]
  rw [constant_apply, Ideal.ofBits_zero_f32, zero_add]
  exact (Equiv.sum_comp (idxEquiv1 (n := 8192)).symm x).symm

theorem hostCount_apply (vd : S8192.Idx → EReal) (i : S_.Idx) : hostCount vd i = ∑ r : Fin 8192, vd (ix1 r) :=
  hostSumFromZero vd i

/-- A choice on the bit of "x exceeds y" is the choice on the order. -/
theorem hostSelect_ogt {α : Type} (x y : Ideal .f32) (a b : α) :
    Scalar.select (FloatOps.cmpf .ogt x y) a b = if y < x then a else b := by
  by_cases h : y < x
  · rw [if_pos h]; simp [Scalar.select, Ideal.cmpf_def, Ideal.cmp, h]
  · rw [if_neg h]; simp [Scalar.select, Ideal.cmpf_def, Ideal.cmp, h]

theorem hostFlaggedSum_apply (lp vd : S8192.Idx → EReal) (i : S_.Idx) :
    hostFlaggedSum lp vd i = ∑ r : Fin 8192, (if half < vd (ix1 r) then lp (ix1 r) else 0) := by
  unfold hostFlaggedSum
  rw [hostSumFromZero]
  refine Finset.sum_congr rfl fun r _ => ?_
  rw [select_apply, cmpf_apply, broadcastInDim_scalar_apply, broadcastInDim_scalar_apply, constant_apply, constant_apply,
    Ideal.ofBits_zero_f32, hostSelect_ogt]
  rfl

/-- The host tail is the specification's tail of the two vectors. -/
theorem hostTail_apply (lp vd : S8192.Idx → EReal) (i : S_.Idx) :
    hostTail lp vd i = tailOf (fun r => lp (ix1 r)) (fun r => vd (ix1 r)) := by
  have hneg : Host.negf (F := Ideal) (φ := .f32) (hostFlaggedSum lp vd) i = -(hostFlaggedSum lp vd i) := rfl
  unfold hostTail tailOf
  rw [select_apply, cmpf_apply, hostDivf_apply, maximumf_apply, hostCount_apply, hneg, hostFlaggedSum_apply,
    constant_apply, constant_apply, Ideal.ofBits_zero_f32, Ideal.ofBits_one_f32, hostSelect_ogt]

/-- The program's result from region 1's two outputs. -/
theorem V9_main_v15_apply (c : Dev nD) (i : S_.Idx) :
    (V9 m outs c main_v15 : S_.Idx → EReal) i
      = tailOf (fun r => (outs 5 main_v3_0 c : S8192x1.Idx → EReal) (ix2 r (0 : Fin 1)))
          (fun r => (outs 5 main_v3_1 c : S8192x1.Idx → EReal) (ix2 r (0 : Fin 1))) := by
  rw [V9_main_v15_eq, hostTail_apply]
  simp only [hostFlat_apply]

end Cert.KernelIdeal.Val

end
-- ==== Proof.Val.Bridge.lean ====
/-
  Two identities between the loss as the kernel's program reads it and the loss as stated: the mean over the rows
  flagged by a 0/1 flag "numerator positive" is the mean over the valid rows; and for labels in the class range the
  thresholded inner product of two one-hot rows is the labels' equality.
-/
import proofs.«421372_j86088324481780_1_alg».proof.Proof.Val.Spec

noncomputable section

namespace Cert.Val

open Idealize.ShloMosaic

/-- The threshold word is the real number one half. -/
theorem Bridge.half_eq : half = (((1/2 : ℝ)) : EReal) := by
  simp [half, Ideal.ofBits, Ideal.ieee, -EReal.coe_mul]; norm_num

/-- One half is below one. -/
theorem Bridge.half_lt_one : half < 1 := by
  rw [Bridge.half_eq, ← EReal.coe_one, EReal.coe_lt_coe_iff]; norm_num

/-- One half is above zero. -/
theorem Bridge.zero_lt_half : (0 : EReal) < half := by
  rw [Bridge.half_eq, ← EReal.coe_zero, EReal.coe_lt_coe_iff]; norm_num

/-- A 32-bit word whose signed value is in [0, 100) has unsigned value below 100. -/
theorem Bridge.lab_toNat (b : BitVec 32) (h : 0 ≤ b.toInt ∧ b.toInt < 100) : b.toNat < 100 := by
  have hb := b.isLt
  rw [BitVec.toInt_eq_toNat_cond] at h
  split_ifs at h <;> omega

/-- A word is the word of its unsigned value. -/
theorem Bridge.ofNat_toNat_self (b : BitVec 32) : BitVec.ofNat 32 b.toNat = b := by
  apply BitVec.eq_of_toNat_eq
  rw [BitVec.toNat_ofNat]
  exact Nat.mod_eq_of_lt b.isLt

/-- The host tail over the flags "numerator positive" and the rows' log-ratios is the loss of the numerators and denominators. -/
theorem tailOf_flags (n d : Fin 8192 → EReal) :
    tailOf (fun r => logpOf (n r) (d r)) (fun r => if 0 < n r then 1 else 0) = lossOf n d := by
  -- a 0/1 flag exceeds one half exactly when it is 1, i.e. exactly when the numerator is positive
  have hh : ∀ r, (if half < (if 0 < n r then (1 : EReal) else 0) then logpOf (n r) (d r) else 0)
      = (if 0 < n r then logpOf (n r) (d r) else 0) := by
    intro r
    by_cases h : 0 < n r
    · rw [if_pos h, if_pos Bridge.half_lt_one, if_pos h]
    · rw [if_neg h, if_neg (not_lt.mpr Bridge.zero_lt_half.le), if_neg h]
  unfold tailOf lossOf
  simp only [hh]

/-- For labels in [0, 100) two rows of the one-hot table have inner product 1 if the labels agree and 0 otherwise,
    so the thresholded inner product is the same-class indicator. -/
theorem dotInd_oneHot (L : Fin 8192 → BitVec 32) (hL : ∀ r, 0 ≤ (L r).toInt ∧ (L r).toInt < 100) :
    dotInd (oneHot L) = sameLab L := by
  funext r c
  unfold dotInd sameLab
  -- a label equal to the word of a column index below 128 has that index as its unsigned value
  have key : ∀ (x : Fin 8192) (l : Fin 128), L x = BitVec.ofNat 32 l.val → (L x).toNat = l.val := by
    intro x l h
    rw [h, BitVec.toNat_ofNat]
    exact Nat.mod_eq_of_lt (by have := l.isLt; omega)
  by_cases hrc : L r = L c
  · -- equal labels: the one column at the label's value contributes 1, every other column 0
    have hk : (L r).toNat < 100 := Bridge.lab_toNat _ (hL r)
    have hk' : (L r).toNat < 128 := by omega
    have hsum : (∑ l : Fin 128, oneHot L r l * oneHot L c l) = 1 := by
      rw [Finset.sum_eq_single (⟨(L r).toNat, hk'⟩ : Fin 128)]
      · have h1 : oneHot L r ⟨(L r).toNat, hk'⟩ = 1 := by
          unfold oneHot
          exact if_pos ⟨hk, (Bridge.ofNat_toNat_self _).symm⟩
        have h2 : oneHot L c ⟨(L r).toNat, hk'⟩ = 1 := by
          unfold oneHot
          exact if_pos ⟨hk, by rw [← hrc]; exact (Bridge.ofNat_toNat_self _).symm⟩
        rw [h1, h2, mul_one]
      · intro l _ hne
        have h0 : oneHot L r l = 0 := by
          unfold oneHot
          apply if_neg
          rintro ⟨_, h⟩
          apply hne
          apply Fin.ext
          exact (key r l h).symm
        rw [h0, zero_mul]
      · intro h; exact absurd (Finset.mem_univ _) h
    rw [hsum, if_pos Bridge.half_lt_one, if_pos hrc]
  · -- different labels: no column is hot in both rows, every product is 0
    have hsum : (∑ l : Fin 128, oneHot L r l * oneHot L c l) = 0 := by
      apply Finset.sum_eq_zero
      intro l _
      unfold oneHot
      by_cases h1 : l.val < 100 ∧ L r = BitVec.ofNat 32 l.val
      · have h2 : ¬ (l.val < 100 ∧ L c = BitVec.ofNat 32 l.val) := by
          rintro ⟨_, h⟩
          exact hrc (h1.2.trans h.symm)
        rw [if_neg h2, mul_zero]
      · rw [if_neg h1, zero_mul]
    rw [hsum, if_neg (not_lt.mpr Bridge.zero_lt_half.le), if_neg hrc]

end Cert.Val

end
-- ==== Proof.Val.KernelValue.lean ====
/-
  The kernel's program computes the loss: its result buffer's final contents — the fold of the host tail over what
  region 1 leaves, region 1 entered from the normalised features region 0 leaves and from the one-hot table — is the
  loss of the two arguments, for labels in the class range.
-/
import proofs.«421372_j86088324481780_1_alg».proof.Proof.KI.Run
import proofs.«421372_j86088324481780_1_alg».proof.Proof.KI.NormVal
import proofs.«421372_j86088324481780_1_alg».proof.Proof.Val.SupFinal
import proofs.«421372_j86088324481780_1_alg».proof.Proof.Val.HostVal
import proofs.«421372_j86088324481780_1_alg».proof.Proof.Val.Bridge

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr Cert.Val

variable (m : (ℓ : Loc nD τ sig) → Buf (Elt Ideal) ℓ)

/-- The features argument by row and column, the labels argument by row. -/
def featArg (c : Dev nD) : Fin 8192 → Fin 256 → EReal := fun r d => (m ((c : Thread nD τ).loc main_arg0) : S8192x256.Idx → EReal) (ix2 r d)
def labArg (c : Dev nD) : Fin 8192 → BitVec 32 := fun r => (m ((c : Thread nD τ).loc main_arg1) : S8192.Idx → BitVec 32) (ix1 r)

/-- Region 1 is entered with the normalised features. -/
theorem feat_mid (c : Dev nD) : featOf (Vmid m) c = nrm (featArg m c) := by
  funext r d
  show (V4 m (outsA m) c main_v0 : S8192x256.Idx → EReal) (ix2 r d) = _
  rw [V4_main_v0, outsA_v0]
  unfold featOut
  rw [norm_final (Vin m) c, normArr_apply]
  rfl

/-- Region 1 is entered with the one-hot table of the labels. -/
theorem table_mid (c : Dev nD) : tableOf (Vmid m) c = oneHot (labArg m c) := by
  funext r l
  exact V4_main_v2_apply m (outsA m) c r l

/-- The result buffer ends at the loss of the arguments. -/
theorem kernel_value (c : Dev nD) (hL : ∀ r, 0 ≤ (labArg m c r).toInt ∧ (labArg m c r).toInt < 100) (i : S_.Idx) :
    (V9 m (outs m) c main_v15 : S_.Idx → EReal) i = loss (featArg m c) (labArg m c) := by
  rw [V9_main_v15_apply]
  have e1 : (fun r : Fin 8192 => (outs m 5 main_v3_0 c : S8192x1.Idx → EReal) (ix2 r (0 : Fin 1)))
      = fun r => logpOf (numRow (featOf (Vmid m) c) (dotInd (tableOf (Vmid m) c)) r) (denRow (featOf (Vmid m) c) r) :=
    funext fun r => by rw [outs_logp]; exact sup_final_logp (Vmid m) c r
  have e2 : (fun r : Fin 8192 => (outs m 5 main_v3_1 c : S8192x1.Idx → EReal) (ix2 r (0 : Fin 1)))
      = fun r => (if 0 < numRow (featOf (Vmid m) c) (dotInd (tableOf (Vmid m) c)) r then (1 : EReal) else 0) :=
    funext fun r => by rw [outs_valid]; exact sup_final_valid (Vmid m) c r
  rw [e1, e2, tailOf_flags, feat_mid, table_mid, dotInd_oneHot (labArg m c) hL]
  rfl

end Cert.KernelIdeal.Val

end
-- ==== Proof.Val.RefVal.lean ====
/-
  The reference's result at the extended reals is the loss function of its two arguments: its operations,
  read one at a time at an index, compose to the row norms, the similarities, the two row sums, the log-ratios and
  the mean over the valid rows; its division by the temperature is the product with the inverse temperature, and its
  integer count of the valid rows, converted, is the sum of the validity flags.
-/
import proofs.«421372_j86088324481780_1_alg».proof.Proof.RefRunP
import proofs.«421372_j86088324481780_1_alg».proof.Proof.RefReadP
import proofs.«421372_j86088324481780_1_alg».proof.Proof.Val.Spec
import Idealize.ShloMosaic.Lib.ValueIdx
import Idealize.ShloMosaic.Lib.ValueIdxRank1
import Idealize.ShloMosaic.Lib.IndicatorCount
import Idealize.ShloMosaic.Lib.StableHlo.Predicate

set_option maxRecDepth 16384

noncomputable section

namespace Cert.ReferenceIdeal.RefValue

open Idealize.ShloMosaic Idealize.ShloMosaic.ValueIdx
open Cert.ReferenceIdeal Cert.ReferenceIdeal.Gen Cert.ReferenceIdeal.ReadP Cert.Val

/-! ## Constants -/

/-- The word of one denotes one. -/
theorem ofBits_one : Ideal.ofBits .f32 0x3F800000#32 = 1 := by
  simp [Ideal.ofBits, Ideal.ieee, -EReal.coe_mul]; norm_num

/-- The temperature's word denotes the real 9395241 / 134217728. -/
theorem ofBits_temp : Ideal.ofBits .f32 0x3D8F5C29#32 = ((9395241 / 134217728 : ℝ) : EReal) := by
  simp [Ideal.ofBits, Ideal.ieee, -EReal.coe_mul]; norm_num

/-- Division by the temperature is the product with the inverse temperature, at every extended real. -/
theorem div_temp (y : EReal) : Ideal.div y (Ideal.ofBits .f32 0x3D8F5C29#32) = y * kap := by
  rw [ofBits_temp, Ideal.div_coe (by norm_num) y, kap]
  norm_num

/-- The feature matrix by coordinates. -/
abbrev XX (x0 : (⟨S8192x256, .f32⟩ : BufTy).Contents (Elt Ideal)) : Fin 8192 → Fin 256 → EReal := fun r d => x0 (ix2 r d)
/-- The label vector by coordinate. -/
abbrev LL (x1 : (⟨S8192, .i32⟩ : BufTy).Contents (Elt Ideal)) : Fin 8192 → BitVec 32 := fun r => x1 (ix1 r)

/-- An equality test of two words, converted, is the indicator of their equality. -/
theorem uitofp_cmpi_eq (a b : BitVec 32) :
    FloatOps.uitofp (F := Ideal) .f32 (IntOp.cmpi .eq a b) = if a = b then 1 else 0 := by
  by_cases h : a = b
  · rw [if_pos h, StableHlo.Predicate.cmpi_eq_iff.mpr h]
    show (((1#1 : BitVec 1).toNat : ℝ) : EReal) = 1
    simp
  · rw [if_neg h, eq_zero_of_ne_one (fun e => h (StableHlo.Predicate.cmpi_eq_iff.mp e))]
    show (((0#1 : BitVec 1).toNat : ℝ) : EReal) = 0
    simp

/-- A row's sum of squares. -/
theorem sumsq_at (x0 : (⟨S8192x256, .f32⟩ : BufTy).Contents (Elt Ideal)) (r : Fin 8192) :
    val_main_call0_v1 (F := Ideal) x0 (ix1 r) = ∑ k : Fin 256, XX x0 r k * XX x0 r k := by
  rw [val_main_call0_v1_apply, val_main_call0_cst_apply, Ideal.ofBits_def, Ideal.ofBits_zero_f32, zero_add]
  refine Finset.sum_congr rfl fun k _ => ?_
  have e : idx_main_call0_v1 (ix1 r) k = ix2 r k :=
    funext fun a => Fin.ext (by match a with | ⟨0, _⟩ => rfl | ⟨1, _⟩ => rfl)
  rw [e, val_main_call0_v0_apply, Ideal.mulf_def]

/-- A row's clamped norm. -/
theorem norm_at (x0 : (⟨S8192x256, .f32⟩ : BufTy).Contents (Elt Ideal)) (r : Fin 8192) (u : Fin 1) :
    val_main_v2 (F := Ideal) x0 (ix2 r u) = rowNorm (XX x0) r := by
  have e : idx_main_call0_v2 (ix2 r u) = ix1 r :=
    funext fun a => Fin.ext (by match a with | ⟨0, _⟩ => rfl)
  rw [val_main_v2_apply, val_main_v0_apply, val_main_call0_v2_apply, val_main_v1_apply, val_main_cst_apply, e, sumsq_at,
    Ideal.maximumf_def, Ideal.hostUnary_sqrt_def, Ideal.ofBits_def]
  rfl

/-- The normalised features. -/
theorem nrm_at (x0 : (⟨S8192x256, .f32⟩ : BufTy).Contents (Elt Ideal)) (r : Fin 8192) (d : Fin 256) :
    val_main_v4 (F := Ideal) x0 (ix2 r d) = nrm (XX x0) r d := by
  have e : idx_main_v3 (ix2 r d) = ix2 r (0 : Fin 1) :=
    funext fun a => Fin.ext (by match a with | ⟨0, _⟩ => rfl | ⟨1, _⟩ => rfl)
  rw [val_main_v4_apply, val_main_v3_apply, e, norm_at, Ideal.hostDivf_def]
  rfl

/-- The similarities. -/
theorem sim_at (x0 : (⟨S8192x256, .f32⟩ : BufTy).Contents (Elt Ideal)) (r c : Fin 8192) :
    val_main_v6 (F := Ideal) x0 (ix2 r c) = simv (nrm (XX x0)) r c := by
  rw [val_main_v6_apply]
  unfold simv
  refine Finset.sum_congr rfl fun k _ => ?_
  have el : lidx_main_v6 (ix2 r c) k = ix2 r k :=
    funext fun a => Fin.ext (by match a with | ⟨0, _⟩ => rfl | ⟨1, _⟩ => rfl)
  have er : idx_main_v5 (ridx_main_v6 (ix2 r c) k) = ix2 c k :=
    funext fun a => Fin.ext (by match a with | ⟨0, _⟩ => rfl | ⟨1, _⟩ => rfl)
  rw [val_main_v5_apply, el, er, nrm_at, nrm_at]

/-- The exponentials. -/
theorem exp_at (x0 : (⟨S8192x256, .f32⟩ : BufTy).Contents (Elt Ideal)) (r c : Fin 8192) :
    val_main_v9 (F := Ideal) x0 (ix2 r c) = expv (nrm (XX x0)) r c := by
  rw [val_main_v9_apply, val_main_v8_apply, val_main_v7_apply, val_main_cst_0_apply, sim_at,
    Ideal.hostUnary_exp_def, Ideal.hostDivf_def, Ideal.ofBits_def, div_temp]
  rfl

/-- Two row numbers below 8192 are equal when their words are. -/
theorem ofNat_inj_8192 (r c : Fin 8192) : BitVec.ofNat 32 r.val = BitVec.ofNat 32 c.val ↔ r = c := by
  constructor
  · intro h
    have h' := congrArg BitVec.toNat h
    simp only [BitVec.toNat_ofNat] at h'
    have hr := r.isLt; have hc := c.isLt
    exact Fin.ext (by omega)
  · rintro rfl; rfl

/-- The diagonal's indicator. -/
theorem eye_at (r c : Fin 8192) : val_main_v15 (F := Ideal) (ix2 r c) = if r = c then 1 else 0 := by
  rw [val_main_v15_apply, val_main_v14_apply, val_main_v13_apply, val_main_v10_apply, val_main_v11_apply, val_main_v12_apply,
    val_main_c_apply, uitofp_cmpi_eq]
  have e : IntOp.addi (BitVec.ofNat 32 ((ix2 r c : S8192x8192.Idx) 0).val) 0#32 = BitVec.ofNat 32 r.val := BitVec.add_zero _
  rw [e]
  exact if_congr (ofNat_inj_8192 r c) rfl rfl

/-- The same-class indicator. -/
theorem same_at (x1 : (⟨S8192, .i32⟩ : BufTy).Contents (Elt Ideal)) (r c : Fin 8192) :
    val_main_v21 (F := Ideal) x1 (ix2 r c) = sameLab (LL x1) r c := by
  have e1 : idx_main_v16 (idx_main_v18 (ix2 r c)) = ix1 r :=
    funext fun a => Fin.ext (by match a with | ⟨0, _⟩ => rfl)
  have e2 : idx_main_v17 (idx_main_v19 (ix2 r c)) = ix1 c :=
    funext fun a => Fin.ext (by match a with | ⟨0, _⟩ => rfl)
  rw [val_main_v21_apply, val_main_v20_apply, val_main_v18_apply, val_main_v19_apply, val_main_v16_apply, val_main_v17_apply,
    e1, e2, uitofp_cmpi_eq]
  rfl

/-- One minus the diagonal's indicator, as the numerator's product reads it. -/
theorem offd_at23 (r c : Fin 8192) : val_main_v23 (F := Ideal) (ix2 r c) = offd r c := by
  rw [val_main_v23_apply, val_main_v22_apply, val_main_cst_1_apply, eye_at, Ideal.subf_def, Ideal.ofBits_def, ofBits_one]
  rfl

/-- One minus the diagonal's indicator, as the denominator's product reads it. -/
theorem offd_at28 (r c : Fin 8192) : val_main_v28 (F := Ideal) (ix2 r c) = offd r c := by
  rw [val_main_v28_apply, val_main_v27_apply, val_main_cst_3_apply, eye_at, Ideal.subf_def, Ideal.ofBits_def, ofBits_one]
  rfl

/-- A row's numerator. -/
theorem num_at (x0 : (⟨S8192x256, .f32⟩ : BufTy).Contents (Elt Ideal)) (x1 : (⟨S8192, .i32⟩ : BufTy).Contents (Elt Ideal))
    (r : Fin 8192) :
    val_main_v26 (F := Ideal) x0 x1 (ix1 r) = numRow (nrm (XX x0)) (sameLab (LL x1)) r := by
  rw [val_main_v26_apply, val_main_cst_2_apply, Ideal.ofBits_def, Ideal.ofBits_zero_f32, zero_add]
  unfold numRow
  refine Finset.sum_congr rfl fun k _ => ?_
  have e : idx_main_v26 (ix1 r) k = ix2 r k :=
    funext fun a => Fin.ext (by match a with | ⟨0, _⟩ => rfl | ⟨1, _⟩ => rfl)
  rw [e, val_main_v25_apply, val_main_v24_apply, exp_at, same_at, offd_at23, Ideal.mulf_def, Ideal.mulf_def]

/-- A row's denominator. -/
theorem den_at (x0 : (⟨S8192x256, .f32⟩ : BufTy).Contents (Elt Ideal)) (r : Fin 8192) :
    val_main_v30 (F := Ideal) x0 (ix1 r) = denRow (nrm (XX x0)) r := by
  rw [val_main_v30_apply, val_main_cst_4_apply, Ideal.ofBits_def, Ideal.ofBits_zero_f32, zero_add]
  unfold denRow
  refine Finset.sum_congr rfl fun k _ => ?_
  have e : idx_main_v30 (ix1 r) k = ix2 r k :=
    funext fun a => Fin.ext (by match a with | ⟨0, _⟩ => rfl | ⟨1, _⟩ => rfl)
  rw [e, val_main_v29_apply, exp_at, offd_at28, Ideal.mulf_def]

/-! ## Flags, log-ratios and the count of the valid rows -/

/-- A select on a decided proposition is the `if`. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- A row's validity flag. -/
theorem flag_at (x0 : (⟨S8192x256, .f32⟩ : BufTy).Contents (Elt Ideal)) (x1 : (⟨S8192, .i32⟩ : BufTy).Contents (Elt Ideal))
    (r : Fin 8192) :
    val_main_v32 (F := Ideal) x0 x1 (ix1 r)
      = BitVec.ofBool (decide (0 < numRow (nrm (XX x0)) (sameLab (LL x1)) r)) := by
  rw [val_main_v32_apply, val_main_v31_apply, val_main_cst_5_apply, num_at, Ideal.cmpf_def, Ideal.ofBits_def,
    Ideal.ofBits_zero_f32]
  rfl

/-- A row's log-ratio, zero where the row is invalid. -/
theorem lp_at (x0 : (⟨S8192x256, .f32⟩ : BufTy).Contents (Elt Ideal)) (x1 : (⟨S8192, .i32⟩ : BufTy).Contents (Elt Ideal))
    (r : Fin 8192) :
    val_main_v38 (F := Ideal) x0 x1 (ix1 r)
      = if 0 < numRow (nrm (XX x0)) (sameLab (LL x1)) r
        then logpOf (numRow (nrm (XX x0)) (sameLab (LL x1)) r) (denRow (nrm (XX x0)) r) else 0 := by
  rw [val_main_v38_apply, val_main_v35_apply, val_main_v34_apply, val_main_v33_apply, val_main_call2_v1_apply,
    val_main_call2_v0_apply, val_main_cst_8_apply, val_main_call1_v1_apply, val_main_call1_v0_apply, val_main_cst_6_apply,
    flag_at, num_at, den_at, Ideal.hostUnary_log_def, Ideal.hostDivf_def]
  simp only [select_ofBool, Ideal.ofBits_def, ofBits_one, Ideal.ofBits_zero_f32]
  rfl

/-- The integer count of the valid rows, as a word. -/
theorem count_eq (x0 : (⟨S8192x256, .f32⟩ : BufTy).Contents (Elt Ideal)) (x1 : (⟨S8192, .i32⟩ : BufTy).Contents (Elt Ideal))
    (i : S_.Idx) :
    val_main_v37 (F := Ideal) x0 x1 i
      = BitVec.ofNat 32 (Finset.univ.filter fun r : Fin 8192 => 0 < numRow (nrm (XX x0)) (sameLab (LL x1)) r).card := by
  unfold val_main_v37
  rw [Host.reduce_eq_fold,
    Finset.filter_true_of_mem (s := Finset.univ) (fun j _ => (funext fun a => a.elim0 : reducesTo_S8192_S_d0.drop j = i))]
  show Finset.fold IntOp.addi 0#32 (fun k => (val_main_v32 (F := Ideal) x0 x1 k).setWidth 32) Finset.univ = _
  rw [IndicatorCount.fold_addi_setWidth_eq_card]
  refine congrArg (BitVec.ofNat 32) ?_
  rw [Finset.card_filter, Finset.card_filter, ← Equiv.sum_comp (idxEquiv1 (n := 8192)).symm]
  refine Finset.sum_congr rfl fun r _ => ?_
  show (if val_main_v32 (F := Ideal) x0 x1 (ix1 r) = 1#1 then 1 else 0) = _
  rw [flag_at]
  by_cases h : 0 < numRow (nrm (XX x0)) (sameLab (LL x1)) r
  · rw [if_pos h, decide_eq_true h]; rfl
  · rw [if_neg h, decide_eq_false h]; rfl

/-! ## Counts as words and as extended reals -/

/-- A sum of 0/1 indicators over the extended reals is the number of the ones. -/
theorem sum_ind_eq_card {ι : Type} (S : Finset ι) (p : ι → Prop) [DecidablePred p] :
    ∑ r ∈ S, (if p r then (1 : EReal) else 0) = (((S.filter p).card : ℝ) : EReal) := by
  classical
  induction S using Finset.induction_on with
  | empty => simp
  | insert a S ha ih =>
    rw [Finset.sum_insert ha, ih, Finset.filter_insert]
    by_cases h : p a
    · rw [if_pos h, if_pos h, Finset.card_insert_of_notMem (fun hm => ha (Finset.mem_filter.1 hm).1), Nat.cast_add,
        Nat.cast_one, EReal.coe_add, EReal.coe_one, add_comm]
    · rw [if_neg h, if_neg h, zero_add]

/-- A small count, as a word, is positive as a signed word exactly when it is positive. -/
theorem sgt_count (N : ℕ) (h : N ≤ 8192) :
    IntOp.cmpi .sgt (BitVec.ofNat 32 N) 0#32 = BitVec.ofBool (decide (0 < N)) := by
  unfold IntOp.cmpi
  show BitVec.ofBool ((0#32 : BitVec 32).slt (BitVec.ofNat 32 N)) = _
  rw [BitVec.slt, StableHlo.Predicate.toInt_ofNat_small N (by omega)]
  refine congrArg BitVec.ofBool ?_
  have h0 : (0#32 : BitVec 32).toInt = 0 := by decide
  rw [h0]
  exact decide_eq_decide.mpr Nat.cast_pos

/-- The larger of a small count and one, as signed words, converted, is the larger of the two as reals. -/
theorem sitofp_maxsi_count (N : ℕ) (h : N ≤ 8192) :
    FloatOps.sitofp (F := Ideal) .f32 (IntOp.maxsi (BitVec.ofNat 32 N) 1#32) = max (((N : ℝ) : EReal)) 1 := by
  show ((((IntOp.maxsi (BitVec.ofNat 32 N) 1#32).toInt : ℤ) : ℝ) : EReal) = _
  have h1 : (1#32 : BitVec 32).toInt = 1 := by decide
  have hN : (BitVec.ofNat 32 N).toInt = N := StableHlo.Predicate.toInt_ofNat_small N (by omega)
  unfold IntOp.maxsi
  rw [BitVec.slt, h1, hN]
  by_cases hc : (1 : ℤ) < (N : ℤ)
  · rw [decide_eq_true hc, if_pos rfl, hN]
    have : (1 : ℝ) ≤ (N : ℝ) := by exact_mod_cast hc.le
    rw [Int.cast_natCast, max_eq_left (by exact_mod_cast this)]
  · rw [decide_eq_false hc, if_neg (by decide), h1]
    have : (N : ℝ) ≤ 1 := by exact_mod_cast (not_lt.mp hc)
    rw [Int.cast_one, EReal.coe_one, max_eq_right (by exact_mod_cast this)]

/-! ## The result -/

/-- The reference's result is the loss of its arguments. -/
theorem ref_loss (x0 : (⟨S8192x256, .f32⟩ : BufTy).Contents (Elt Ideal)) (x1 : (⟨S8192, .i32⟩ : BufTy).Contents (Elt Ideal)) (i : S_.Idx) :
    val_main_v45 (F := Ideal) x0 x1 i = loss (fun r d => x0 (ix2 r d)) (fun r => x1 (ix1 r)) := by
  have hle : (Finset.univ.filter fun r : Fin 8192 => 0 < numRow (nrm (XX x0)) (sameLab (LL x1)) r).card ≤ 8192 := by
    simpa using Finset.card_le_univ (Finset.univ.filter fun r : Fin 8192 => 0 < numRow (nrm (XX x0)) (sameLab (LL x1)) r)
  have hsum : ∑ j : S8192.Idx, val_main_v38 (F := Ideal) x0 x1 j
      = ∑ r : Fin 8192, (if 0 < numRow (nrm (XX x0)) (sameLab (LL x1)) r
          then logpOf (numRow (nrm (XX x0)) (sameLab (LL x1)) r) (denRow (nrm (XX x0)) r) else 0) := by
    rw [← Equiv.sum_comp (idxEquiv1 (n := 8192)).symm]
    exact Finset.sum_congr rfl fun r _ => lp_at x0 x1 r
  have hpos : (0 : EReal) < ∑ r : Fin 8192, (if 0 < numRow (nrm (XX x0)) (sameLab (LL x1)) r then (1 : EReal) else 0)
      ↔ 0 < (Finset.univ.filter fun r : Fin 8192 => 0 < numRow (nrm (XX x0)) (sameLab (LL x1)) r).card := by
    rw [sum_ind_eq_card Finset.univ (fun r : Fin 8192 => 0 < numRow (nrm (XX x0)) (sameLab (LL x1)) r), EReal.coe_pos, Nat.cast_pos]
  rw [val_main_v45_apply, val_main_v44_apply, val_main_v43_apply, val_main_v42_apply, val_main_v41_apply, val_main_v40_apply,
    val_main_v39_apply, val_main_c_11_apply, val_main_c_10_apply, val_main_cst_9_apply, val_main_call3_v0_apply,
    val_main_cst_12_apply, count_eq, hsum, sgt_count _ hle, sitofp_maxsi_count _ hle, select_ofBool,
    ← sum_ind_eq_card Finset.univ (fun r : Fin 8192 => 0 < numRow (nrm (XX x0)) (sameLab (LL x1)) r),
    Ideal.hostDivf_def, Ideal.hostNegf_def, Ideal.negf_def, Ideal.ofBits_def, Ideal.ofBits_zero_f32, zero_add]
  unfold loss lossOf
  exact if_congr hpos.symm rfl rfl

end Cert.ReferenceIdeal.RefValue

end
-- ==== Proof.Val.PreDecode.lean ====
/-
  The precondition read at an index: every label lies in the class range [0, 100).
-/
import proofs.«421372_j86088324481780_1_alg».proof.Pre_finite_inputs
import proofs.«421372_j86088324481780_1_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Val

open Idealize.ShloMosaic Idealize.ShloMosaic.ValueIdx

/-- Under the precondition every label is in [0, 100). -/
theorem labels_of_pre [Cert.Pre_finite_inputs.Facts] (x : FVec Ideal Cert.Pre_finite_inputs.S8192x256 .f32) (l : IVec Cert.Pre_finite_inputs.S8192 32)
    (h : Cert.Pre_finite_inputs.fn (F := Ideal) x l = fun _ => 1#1) (r : Fin 8192) :
    0 ≤ (l (ix1 r)).toInt ∧ (l (ix1 r)).toInt < 100 := by
  -- the scalar shape has exactly one index
  haveI : Subsingleton Cert.Pre_finite_inputs.S_.Idx := ⟨fun a b => funext fun d => d.elim0⟩
  -- the precondition at its one index is a conjunction of three reductions by "and"
  have h0 := congrFun h ValueIdx.ix0
  dsimp only [Cert.Pre_finite_inputs.fn] at h0
  obtain ⟨h7, h10⟩ := IntOp.andi_eq_one.1 h0
  obtain ⟨h3, h6⟩ := IntOp.andi_eq_one.1 h7
  -- each reduction over all axes being 1 gives the compared element at row r
  have hge := Host.reduce_andi_all _ _ _ _ _ h6 (ix1 r)
  have hlt := Host.reduce_andi_all _ _ _ _ _ h10 (ix1 r)
  -- a broadcast scalar constant reads the constant at every index
  have e0 : ∀ (hb : Cert.Pre_finite_inputs.S_.BroadcastsInDim Cert.Pre_finite_inputs.S8192
        (![] : Fin 0 → Fin Cert.Pre_finite_inputs.S8192.rank)) (c : BitVec 32),
      broadcastInDim Cert.Pre_finite_inputs.S8192 ![] hb (constantI Cert.Pre_finite_inputs.S_ 32 c) (ix1 r) = c := by
    intro hb c
    rw [StableHlo.Predicate.bcast_scalar hb Cert.Pre_finite_inputs.Facts.h_S_]
    rfl
  change IntOp.cmpi .sge (l (ix1 r)) (broadcastInDim _ _ _ _ (ix1 r)) = 1#1 at hge
  change IntOp.cmpi .slt (l (ix1 r)) (broadcastInDim _ _ _ _ (ix1 r)) = 1#1 at hlt
  rw [e0] at hge hlt
  -- the signed compares against 0 and 100 are the inequalities of the signed values
  unfold IntOp.cmpi at hge hlt
  rw [StableHlo.Predicate.ofBool_eq_one_iff] at hge hlt
  simp only [BitVec.sle, BitVec.slt, decide_eq_true_eq] at hge hlt
  have z : (0#32 : BitVec 32).toInt = 0 := by decide
  have c : (100#32 : BitVec 32).toInt = 100 := by decide
  rw [z] at hge
  rw [c] at hlt
  exact ⟨hge, hlt⟩

end Cert.Val

end
-- ==== Proof.lean ====
/-
  The supervised-contrastive loss kernel against its reference. Both idealized programs compute ONE function of the
  features and the labels, `Cert.Val.loss`: rows divided by their clamped norms, pairwise exp-similarities over the
  temperature, per row the sum over the other rows of its class over the sum over all other rows, minus the mean
  log-ratio over the rows that have a positive. The kernel normalises in a first region, builds a one-hot table of the
  labels on the host, accumulates the two row sums tile by tile in a second region (labels compared through the
  table's inner products, which is label equality for labels in the class range [0, 100)), and averages on the host;
  its folded inverse temperature is named as exactly one over the reference's divisor. The frames run the same chain
  of thread states at the word level and at the extended reals.
-/
import proofs.«421372_j86088324481780_1_alg».proof.Defs
import proofs.«421372_j86088324481780_1_alg».proof.Proof.Gen.Kernel
import proofs.«421372_j86088324481780_1_alg».proof.Proof.Gen.KernelIdeal
import proofs.«421372_j86088324481780_1_alg».proof.Proof.Gen.ReferenceIdeal
import proofs.«421372_j86088324481780_1_alg».proof.Proof.Gen.Pre_finite_inputs
import proofs.«421372_j86088324481780_1_alg».proof.Proof.K.Run
import proofs.«421372_j86088324481780_1_alg».proof.Proof.KI.Run
import proofs.«421372_j86088324481780_1_alg».proof.Proof.RefRunP
import proofs.«421372_j86088324481780_1_alg».proof.Proof.RefReadP
import proofs.«421372_j86088324481780_1_alg».proof.Proof.Val.KernelValue
import proofs.«421372_j86088324481780_1_alg».proof.Proof.Val.RefVal
import proofs.«421372_j86088324481780_1_alg».proof.Proof.Val.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference is a host program: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The one rewrite of the idealization: the folded inverse temperature denotes 134217728/9395241, one over the
    value of the reference's divisor. -/
theorem preserves : Cert.preserves_Kernel_KernelIdeal :=
  IdealRules.named_const.statement Cert.KernelIdeal.κ "inv_temperature" .f32 0x41649249#32 ((134217728 / 9395241 : ℝ) : EReal) rfl

/-- From memories agreeing on the arguments both programs end at the loss of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V9 m (Cert.KernelIdeal.Fr.outs m) c Cert.KernelIdeal.main_v15, Cert.KernelIdeal.Fr.run_main m ρ, ?_⟩
  refine (θ_run Cert.ReferenceIdeal.defs _ _).mono (fun _ h c => ⟨(h c).1.trans ?_, (h c).2⟩)
    (Cert.ReferenceIdeal.ValueP.run (F := Ideal) m' ρ')
  have hL : ∀ r, 0 ≤ (Cert.KernelIdeal.Val.labArg m c r).toInt ∧ (Cert.KernelIdeal.Val.labArg m c r).toInt < 100 :=
    fun r => @Cert.Val.labels_of_pre Cert.Pre_finite_inputs.Gen.facts _ _ (hpre c) r
  funext i
  rw [Cert.ReferenceIdeal.ReadP.val_main_v45_eq, (hagree c).1, (hagree c).2, Cert.ReferenceIdeal.RefValue.ref_loss]
  exact (Cert.KernelIdeal.Val.kernel_value m c hL i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
